-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 1024]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x1024 : Shape := ⟨3, ![1, 1024, 1024]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel

variable [Facts]

def fn {F : FTy → Type} [FloatOps F] (main_arg0 : FVec F S1x1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x1024 : Shape := ⟨3, ![1, 1024, 1024]⟩
abbrev S1024x512 : Shape := ⟨2, ![1024, 512]⟩
abbrev S512x512 : Shape := ⟨2, ![512, 512]⟩
abbrev S16 : Shape := ⟨1, ![16]⟩
abbrev S_ : Shape := ⟨0, ![]⟩
abbrev S1x512x512 : Shape := ⟨3, ![1, 512, 512]⟩
abbrev S1 : Shape := ⟨1, ![1]⟩
abbrev S32x512 : Shape := ⟨2, ![32, 512]⟩
abbrev S1x32x512 : Shape := ⟨3, ![1, 32, 512]⟩

abbrev nBuf : Space → Nat
  | .hbm => 2
  | .vmem => 5
  | .smem => 0
  | _ => 0

abbrev bufTy : (tb : Table) → Fin (tcTables nBuf tb) → BufTy
  | .hbm, ⟨0, _⟩ => ⟨S1x1024x1024, .f32⟩
  | .hbm, ⟨1, _⟩ => ⟨S1024x512, .bf16⟩
  | .local _ .vmem, ⟨0, _⟩ => ⟨S1x1024x1024, .f32⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v14 : BitVec 32 := Scalar.muli v2 c4_i32_7
  let v15 : BitVec 32 := Scalar.addi c0_i32 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v16 : BitVec 32 := Scalar.muli v5 c2_i32_8
  let v17 : BitVec 32 := Scalar.addi v15 v16
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_9 : BitVec 32 := 1#32
  let v18 : BitVec 32 := Scalar.muli v9 c1_i32_9
  let v19 : BitVec 32 := Scalar.addi v17 v18
  v19.toNat
def k0_dev2 (d0 : Dev nD) : Nat :=
  let c0_i32_12 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_11 : BitVec 32 := 4#32
  let v20 : BitVec 32 := Scalar.muli v10 c4_i32_11
  let v21 : BitVec 32 := Scalar.addi c0_i32_12 v20
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v22 : BitVec 32 := Scalar.muli v5 c2_i32_13
  let v23 : BitVec 32 := Scalar.addi v21 v22
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v24 : BitVec 32 := Scalar.muli v8 c1_i32_14
  let v25 : BitVec 32 := Scalar.addi v23 v24
  v25.toNat
def k0_off1 (d0 : Dev nD) : Fin 3 → Nat :=
  let c0 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v11 : BitVec 32 := Scalar.muli v2 c512_i32
  let v27 : Index := Scalar.indexCast v11
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c512_i32_15 : BitVec 32 := 512#32
  let v26 : BitVec 32 := Scalar.muli v9 c512_i32_15
  let v28 : Index := Scalar.indexCast v26
  ![0, v27.toNat, v28.toNat]
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v35 : BitVec 32 := Scalar.muli v2 c4_i32_21
  let v36 : BitVec 32 := Scalar.addi c0_i32_22 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v37 : BitVec 32 := Scalar.muli v5 c2_i32_23
  let v38 : BitVec 32 := Scalar.addi v36 v37
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v39 : BitVec 32 := Scalar.muli v9 c1_i32_24
  let v40 : BitVec 32 := Scalar.addi v38 v39
  v40.toNat
def k0_dev4 (d0 : Dev nD) : Nat :=
  let c0_i32_32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_31 : BitVec 32 := 4#32
  let v47 : BitVec 32 := Scalar.muli v2 c4_i32_31
  let v48 : BitVec 32 := Scalar.addi c0_i32_32 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_33 : BitVec 32 := 2#32
  let v49 : BitVec 32 := Scalar.muli v5 c2_i32_33
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_34 : BitVec 32 := 1#32
  let v51 : BitVec 32 := Scalar.muli v9 c1_i32_34
  let v52 : BitVec 32 := Scalar.addi v50 v51
  v52.toNat
def k0_dev5 (d0 : Dev nD) : Nat :=
  let c0_i32_41 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_40 : BitVec 32 := 4#32
  let v59 : BitVec 32 := Scalar.muli v2 c4_i32_40
  let v60 : BitVec 32 := Scalar.addi c0_i32_41 v59
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_42 : BitVec 32 := 2#32
  let v61 : BitVec 32 := Scalar.muli v5 c2_i32_42
  let v62 : BitVec 32 := Scalar.addi v60 v61
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_43 : BitVec 32 := 1#32
  let v63 : BitVec 32 := Scalar.muli v9 c1_i32_43
  let v64 : BitVec 32 := Scalar.addi v62 v63
  v64.toNat
def k0_dev6 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v71 : BitVec 32 := Scalar.muli v2 c4_i32_48
  let v72 : BitVec 32 := Scalar.addi c0_i32_49 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v73 : BitVec 32 := Scalar.muli v5 c2_i32_50
  let v74 : BitVec 32 := Scalar.addi v72 v73
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_51 : BitVec 32 := 1#32
  let v75 : BitVec 32 := Scalar.muli v9 c1_i32_51
  let v76 : BitVec 32 := Scalar.addi v74 v75
  v76.toNat
def k0_dev7 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v83 : BitVec 32 := Scalar.muli v2 c4_i32_57
  let v84 : BitVec 32 := Scalar.addi c0_i32_58 v83
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v85 : BitVec 32 := Scalar.muli v5 c2_i32_59
  let v86 : BitVec 32 := Scalar.addi v84 v85
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_60 : BitVec 32 := 1#32
  let v87 : BitVec 32 := Scalar.muli v9 c1_i32_60
  let v88 : BitVec 32 := Scalar.addi v86 v87
  v88.toNat
def k0_dev8 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v95 : BitVec 32 := Scalar.muli v2 c4_i32_65
  let v96 : BitVec 32 := Scalar.addi c0_i32_66 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v97 : BitVec 32 := Scalar.muli v5 c2_i32_67
  let v98 : BitVec 32 := Scalar.addi v96 v97
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v99 : BitVec 32 := Scalar.muli v9 c1_i32_68
  let v100 : BitVec 32 := Scalar.addi v98 v99
  v100.toNat
def k0_dev9 (d0 : Dev nD) : Nat :=
  let c0_i32_74 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_73 : BitVec 32 := 4#32
  let v107 : BitVec 32 := Scalar.muli v2 c4_i32_73
  let v108 : BitVec 32 := Scalar.addi c0_i32_74 v107
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_75 : BitVec 32 := 2#32
  let v109 : BitVec 32 := Scalar.muli v5 c2_i32_75
  let v110 : BitVec 32 := Scalar.addi v108 v109
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_76 : BitVec 32 := 1#32
  let v111 : BitVec 32 := Scalar.muli v9 c1_i32_76
  let v112 : BitVec 32 := Scalar.addi v110 v111
  v112.toNat
def k0_dev10 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v119 : BitVec 32 := Scalar.muli v2 c4_i32_81
  let v120 : BitVec 32 := Scalar.addi c0_i32_82 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v121 : BitVec 32 := Scalar.muli v5 c2_i32_83
  let v122 : BitVec 32 := Scalar.addi v120 v121
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v123 : BitVec 32 := Scalar.muli v9 c1_i32_84
  let v124 : BitVec 32 := Scalar.addi v122 v123
  v124.toNat
def k0_dev11 (d0 : Dev nD) : Nat :=
  let c0_i32_90 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_89 : BitVec 32 := 4#32
  let v131 : BitVec 32 := Scalar.muli v2 c4_i32_89
  let v132 : BitVec 32 := Scalar.addi c0_i32_90 v131
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v133 : BitVec 32 := Scalar.muli v5 c2_i32_91
  let v134 : BitVec 32 := Scalar.addi v132 v133
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_92 : BitVec 32 := 1#32
  let v135 : BitVec 32 := Scalar.muli v9 c1_i32_92
  let v136 : BitVec 32 := Scalar.addi v134 v135
  v136.toNat
def k0_dev12 (d0 : Dev nD) : Nat :=
  let c0_i32_98 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_97 : BitVec 32 := 4#32
  let v143 : BitVec 32 := Scalar.muli v2 c4_i32_97
  let v144 : BitVec 32 := Scalar.addi c0_i32_98 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_99 : BitVec 32 := 2#32
  let v145 : BitVec 32 := Scalar.muli v5 c2_i32_99
  let v146 : BitVec 32 := Scalar.addi v144 v145
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_100 : BitVec 32 := 1#32
  let v147 : BitVec 32 := Scalar.muli v9 c1_i32_100
  let v148 : BitVec 32 := Scalar.addi v146 v147
  v148.toNat
def k0_dev13 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_105 : BitVec 32 := 4#32
  let v155 : BitVec 32 := Scalar.muli v2 c4_i32_105
  let v156 : BitVec 32 := Scalar.addi c0_i32_106 v155
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_107 : BitVec 32 := 2#32
  let v157 : BitVec 32 := Scalar.muli v5 c2_i32_107
  let v158 : BitVec 32 := Scalar.addi v156 v157
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_108 : BitVec 32 := 1#32
  let v159 : BitVec 32 := Scalar.muli v9 c1_i32_108
  let v160 : BitVec 32 := Scalar.addi v158 v159
  v160.toNat
def k0_dev14 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v167 : BitVec 32 := Scalar.muli v2 c4_i32_113
  let v168 : BitVec 32 := Scalar.addi c0_i32_114 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v169 : BitVec 32 := Scalar.muli v5 c2_i32_115
  let v170 : BitVec 32 := Scalar.addi v168 v169
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_116 : BitVec 32 := 1#32
  let v171 : BitVec 32 := Scalar.muli v9 c1_i32_116
  let v172 : BitVec 32 := Scalar.addi v170 v171
  v172.toNat
def k0_dev15 (d0 : Dev nD) : Nat :=
  let c0_i32_122 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_121 : BitVec 32 := 4#32
  let v179 : BitVec 32 := Scalar.muli v2 c4_i32_121
  let v180 : BitVec 32 := Scalar.addi c0_i32_122 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_123 : BitVec 32 := 2#32
  let v181 : BitVec 32 := Scalar.muli v5 c2_i32_123
  let v182 : BitVec 32 := Scalar.addi v180 v181
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_124 : BitVec 32 := 1#32
  let v183 : BitVec 32 := Scalar.muli v9 c1_i32_124
  let v184 : BitVec 32 := Scalar.addi v182 v183
  v184.toNat
def k0_dev16 (d0 : Dev nD) : Nat :=
  let c0_i32_130 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_129 : BitVec 32 := 4#32
  let v191 : BitVec 32 := Scalar.muli v2 c4_i32_129
  let v192 : BitVec 32 := Scalar.addi c0_i32_130 v191
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_131 : BitVec 32 := 2#32
  let v193 : BitVec 32 := Scalar.muli v5 c2_i32_131
  let v194 : BitVec 32 := Scalar.addi v192 v193
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_132 : BitVec 32 := 1#32
  let v195 : BitVec 32 := Scalar.muli v9 c1_i32_132
  let v196 : BitVec 32 := Scalar.addi v194 v195
  v196.toNat
def k0_dev17 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v203 : BitVec 32 := Scalar.muli v2 c4_i32_137
  let v204 : BitVec 32 := Scalar.addi c0_i32_138 v203
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v205 : BitVec 32 := Scalar.muli v5 c2_i32_139
  let v206 : BitVec 32 := Scalar.addi v204 v205
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_140 : BitVec 32 := 1#32
  let v207 : BitVec 32 := Scalar.muli v9 c1_i32_140
  let v208 : BitVec 32 := Scalar.addi v206 v207
  v208.toNat
def k0_dev18 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v215 : BitVec 32 := Scalar.muli v2 c4_i32_145
  let v216 : BitVec 32 := Scalar.addi c0_i32_146 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v217 : BitVec 32 := Scalar.muli v5 c2_i32_147
  let v218 : BitVec 32 := Scalar.addi v216 v217
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_148 : BitVec 32 := 1#32
  let v219 : BitVec 32 := Scalar.muli v9 c1_i32_148
  let v220 : BitVec 32 := Scalar.addi v218 v219
  v220.toNat
def k0_dev19 (d0 : Dev nD) : Nat :=
  let c0_i32_165 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_164 : BitVec 32 := 4#32
  let v237 : BitVec 32 := Scalar.muli v10 c4_i32_164
  let v238 : BitVec 32 := Scalar.addi c0_i32_165 v237
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v239 : BitVec 32 := Scalar.muli v5 c2_i32_166
  let v240 : BitVec 32 := Scalar.addi v238 v239
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v241 : BitVec 32 := Scalar.muli v8 c1_i32_167
  let v242 : BitVec 32 := Scalar.addi v240 v241
  v242.toNat
def k0_off2 (d0 : Dev nD) (c0_i32_172 : BitVec 32) : Fin 3 → Nat :=
  let c0_174 : Index := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v11 : BitVec 32 := Scalar.muli v2 c512_i32
  let v249 : BitVec 32 := Scalar.addi v11 c0_i32_172
  let v251 : Index := Scalar.indexCast v249
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_173 : BitVec 32 := 512#32
  let v250 : BitVec 32 := Scalar.muli v8 c512_i32_173
  let v252 : Index := Scalar.indexCast v250
  ![0, v251.toNat, v252.toNat]
def k0_off3 (d0 : Dev nD) (c0_i32_177 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c512_i32 : BitVec 32 := 512#32
  let v11 : BitVec 32 := Scalar.muli v2 c512_i32
  let v259 : BitVec 32 := Scalar.addi v11 c0_i32_177
  let v260 : Index := Scalar.indexCast v259
  let c0_178 : Index := 0#32
  ![v260.toNat, 0]
def k0_dev20 (d0 : Dev nD) : Nat :=
  let c0_i32_192 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_191 : BitVec 32 := 4#32
  let v272 : BitVec 32 := Scalar.muli v10 c4_i32_191
  let v273 : BitVec 32 := Scalar.addi c0_i32_192 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_193 : BitVec 32 := 2#32
  let v274 : BitVec 32 := Scalar.muli v5 c2_i32_193
  let v275 : BitVec 32 := Scalar.addi v273 v274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_194 : BitVec 32 := 1#32
  let v276 : BitVec 32 := Scalar.muli v8 c1_i32_194
  let v277 : BitVec 32 := Scalar.addi v275 v276
  v277.toNat
def k0_dev21 (d0 : Dev nD) : Nat :=
  let c0_i32_218 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_217 : BitVec 32 := 4#32
  let v307 : BitVec 32 := Scalar.muli v10 c4_i32_217
  let v308 : BitVec 32 := Scalar.addi c0_i32_218 v307
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_219 : BitVec 32 := 2#32
  let v309 : BitVec 32 := Scalar.muli v5 c2_i32_219
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_220 : BitVec 32 := 1#32
  let v311 : BitVec 32 := Scalar.muli v8 c1_i32_220
  let v312 : BitVec 32 := Scalar.addi v310 v311
  v312.toNat
def k0_dev22 (d0 : Dev nD) : Nat :=
  let c0_i32_244 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_243 : BitVec 32 := 4#32
  let v342 : BitVec 32 := Scalar.muli v10 c4_i32_243
  let v343 : BitVec 32 := Scalar.addi c0_i32_244 v342
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_245 : BitVec 32 := 2#32
  let v344 : BitVec 32 := Scalar.muli v5 c2_i32_245
  let v345 : BitVec 32 := Scalar.addi v343 v344
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v346 : BitVec 32 := Scalar.muli v8 c1_i32_246
  let v347 : BitVec 32 := Scalar.addi v345 v346
  v347.toNat
def k0_dev23 (d0 : Dev nD) : Nat :=
  let c0_i32_270 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_269 : BitVec 32 := 4#32
  let v377 : BitVec 32 := Scalar.muli v10 c4_i32_269
  let v378 : BitVec 32 := Scalar.addi c0_i32_270 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_271 : BitVec 32 := 2#32
  let v379 : BitVec 32 := Scalar.muli v5 c2_i32_271
  let v380 : BitVec 32 := Scalar.addi v378 v379
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_272 : BitVec 32 := 1#32
  let v381 : BitVec 32 := Scalar.muli v8 c1_i32_272
  let v382 : BitVec 32 := Scalar.addi v380 v381
  v382.toNat
def k0_dev24 (d0 : Dev nD) : Nat :=
  let c0_i32_296 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_295 : BitVec 32 := 4#32
  let v412 : BitVec 32 := Scalar.muli v10 c4_i32_295
  let v413 : BitVec 32 := Scalar.addi c0_i32_296 v412
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_297 : BitVec 32 := 2#32
  let v414 : BitVec 32 := Scalar.muli v5 c2_i32_297
  let v415 : BitVec 32 := Scalar.addi v413 v414
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v416 : BitVec 32 := Scalar.muli v8 c1_i32_298
  let v417 : BitVec 32 := Scalar.addi v415 v416
  v417.toNat
def k0_dev25 (d0 : Dev nD) : Nat :=
  let c0_i32_322 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_321 : BitVec 32 := 4#32
  let v447 : BitVec 32 := Scalar.muli v10 c4_i32_321
  let v448 : BitVec 32 := Scalar.addi c0_i32_322 v447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v449 : BitVec 32 := Scalar.muli v5 c2_i32_323
  let v450 : BitVec 32 := Scalar.addi v448 v449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_324 : BitVec 32 := 1#32
  let v451 : BitVec 32 := Scalar.muli v8 c1_i32_324
  let v452 : BitVec 32 := Scalar.addi v450 v451
  v452.toNat
def k0_dev26 (d0 : Dev nD) : Nat :=
  let c0_i32_348 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_347 : BitVec 32 := 4#32
  let v482 : BitVec 32 := Scalar.muli v10 c4_i32_347
  let v483 : BitVec 32 := Scalar.addi c0_i32_348 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_349 : BitVec 32 := 2#32
  let v484 : BitVec 32 := Scalar.muli v5 c2_i32_349
  let v485 : BitVec 32 := Scalar.addi v483 v484
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v486 : BitVec 32 := Scalar.muli v8 c1_i32_350
  let v487 : BitVec 32 := Scalar.addi v485 v486
  v487.toNat
def k0_dev27 (d0 : Dev nD) : Nat :=
  let c0_i32_374 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_373 : BitVec 32 := 4#32
  let v517 : BitVec 32 := Scalar.muli v10 c4_i32_373
  let v518 : BitVec 32 := Scalar.addi c0_i32_374 v517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_375 : BitVec 32 := 2#32
  let v519 : BitVec 32 := Scalar.muli v5 c2_i32_375
  let v520 : BitVec 32 := Scalar.addi v518 v519
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_376 : BitVec 32 := 1#32
  let v521 : BitVec 32 := Scalar.muli v8 c1_i32_376
  let v522 : BitVec 32 := Scalar.addi v520 v521
  v522.toNat
def k0_dev28 (d0 : Dev nD) : Nat :=
  let c0_i32_400 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_399 : BitVec 32 := 4#32
  let v552 : BitVec 32 := Scalar.muli v10 c4_i32_399
  let v553 : BitVec 32 := Scalar.addi c0_i32_400 v552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v554 : BitVec 32 := Scalar.muli v5 c2_i32_401
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v556 : BitVec 32 := Scalar.muli v8 c1_i32_402
  let v557 : BitVec 32 := Scalar.addi v555 v556
  v557.toNat
def k0_dev29 (d0 : Dev nD) : Nat :=
  let c0_i32_426 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_425 : BitVec 32 := 4#32
  let v587 : BitVec 32 := Scalar.muli v10 c4_i32_425
  let v588 : BitVec 32 := Scalar.addi c0_i32_426 v587
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_427 : BitVec 32 := 2#32
  let v589 : BitVec 32 := Scalar.muli v5 c2_i32_427
  let v590 : BitVec 32 := Scalar.addi v588 v589
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v591 : BitVec 32 := Scalar.muli v8 c1_i32_428
  let v592 : BitVec 32 := Scalar.addi v590 v591
  v592.toNat
def k0_dev30 (d0 : Dev nD) : Nat :=
  let c0_i32_452 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_451 : BitVec 32 := 4#32
  let v622 : BitVec 32 := Scalar.muli v10 c4_i32_451
  let v623 : BitVec 32 := Scalar.addi c0_i32_452 v622
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_453 : BitVec 32 := 2#32
  let v624 : BitVec 32 := Scalar.muli v5 c2_i32_453
  let v625 : BitVec 32 := Scalar.addi v623 v624
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_454 : BitVec 32 := 1#32
  let v626 : BitVec 32 := Scalar.muli v8 c1_i32_454
  let v627 : BitVec 32 := Scalar.addi v625 v626
  v627.toNat
def k0_dev31 (d0 : Dev nD) : Nat :=
  let c0_i32_478 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_477 : BitVec 32 := 4#32
  let v657 : BitVec 32 := Scalar.muli v10 c4_i32_477
  let v658 : BitVec 32 := Scalar.addi c0_i32_478 v657
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_479 : BitVec 32 := 2#32
  let v659 : BitVec 32 := Scalar.muli v5 c2_i32_479
  let v660 : BitVec 32 := Scalar.addi v658 v659
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_480 : BitVec 32 := 1#32
  let v661 : BitVec 32 := Scalar.muli v8 c1_i32_480
  let v662 : BitVec 32 := Scalar.addi v660 v661
  v662.toNat
def k0_dev32 (d0 : Dev nD) : Nat :=
  let c0_i32_504 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_503 : BitVec 32 := 4#32
  let v692 : BitVec 32 := Scalar.muli v10 c4_i32_503
  let v693 : BitVec 32 := Scalar.addi c0_i32_504 v692
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_505 : BitVec 32 := 2#32
  let v694 : BitVec 32 := Scalar.muli v5 c2_i32_505
  let v695 : BitVec 32 := Scalar.addi v693 v694
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_506 : BitVec 32 := 1#32
  let v696 : BitVec 32 := Scalar.muli v8 c1_i32_506
  let v697 : BitVec 32 := Scalar.addi v695 v696
  v697.toNat
def k0_dev33 (d0 : Dev nD) : Nat :=
  let c0_i32_530 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_529 : BitVec 32 := 4#32
  let v727 : BitVec 32 := Scalar.muli v10 c4_i32_529
  let v728 : BitVec 32 := Scalar.addi c0_i32_530 v727
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_531 : BitVec 32 := 2#32
  let v729 : BitVec 32 := Scalar.muli v5 c2_i32_531
  let v730 : BitVec 32 := Scalar.addi v728 v729
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_532 : BitVec 32 := 1#32
  let v731 : BitVec 32 := Scalar.muli v8 c1_i32_532
  let v732 : BitVec 32 := Scalar.addi v730 v731
  v732.toNat
def k0_dev34 (d0 : Dev nD) : Nat :=
  let c0_i32_556 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_555 : BitVec 32 := 4#32
  let v762 : BitVec 32 := Scalar.muli v10 c4_i32_555
  let v763 : BitVec 32 := Scalar.addi c0_i32_556 v762
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_557 : BitVec 32 := 2#32
  let v764 : BitVec 32 := Scalar.muli v5 c2_i32_557
  let v765 : BitVec 32 := Scalar.addi v763 v764
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v766 : BitVec 32 := Scalar.muli v8 c1_i32_558
  let v767 : BitVec 32 := Scalar.addi v765 v766
  v767.toNat
def k0_off4 (d0 : Dev nD) (c0_i32_579 : BitVec 32) : Fin 3 → Nat :=
  let c0_581 : Index := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32_5 : BitVec 32 := 512#32
  let v12 : BitVec 32 := Scalar.muli v10 c512_i32_5
  let v797 : BitVec 32 := Scalar.addi v12 c0_i32_579
  let v799 : Index := Scalar.indexCast v797
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32_580 : BitVec 32 := 512#32
  let v798 : BitVec 32 := Scalar.muli v8 c512_i32_580
  let v800 : Index := Scalar.indexCast v798
  ![0, v799.toNat, v800.toNat]
def k0_off5 (d0 : Dev nD) (c0_i32_584 : BitVec 32) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c512_i32_5 : BitVec 32 := 512#32
  let v12 : BitVec 32 := Scalar.muli v10 c512_i32_5
  let v807 : BitVec 32 := Scalar.addi v12 c0_i32_584
  let v808 : Index := Scalar.indexCast v807
  let c0_585 : Index := 0#32
  ![v808.toNat, 0]
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  hamt_2 : (2#32 : BitVec 32).msb = false
  inb_S16_S1_0 : ∀ a, (![0] : Fin 1 → Nat) a + S1.size a ≤ S16.size a
  squeezes_S1_S_ : S1.Squeezes S_
  inb_S512x512_S32x512_0_0 : ∀ a, (![0, 0] : Fin 2 → Nat) a + S32x512.size a ≤ S512x512.size a
  wordsbf16_S512x512_S32x512_0_0 : (Rect.unit (s := S512x512) ![0, 0] S32x512.size inb_S512x512_S32x512_0_0).WholeWords (EltTy.packing .bf16)
  inb_S16_S1_1 : ∀ a, (![1] : Fin 1 → Nat) a + S1.size a ≤ S16.size a
  inb_S512x512_S32x512_32_0 : ∀ a, (![32, 0] : Fin 2 → Nat) a + S32x512.size a ≤ S512x512.size a
  wordsbf16_S512x512_S32x512_32_0 : (Rect.unit (s := S512x512) ![32, 0] S32x512.size inb_S512x512_S32x512_32_0).WholeWords (EltTy.packing .bf16)
  inb_S16_S1_2 : ∀ a, (![2] : Fin 1 → Nat) a + S1.size a ≤ S16.size a
  inb_S512x512_S32x512_64_0 : ∀ a, (![64, 0] : Fin 2 → Nat) a + S32x512.size a ≤ S512x512.size a
  wordsbf16_S512x512_S32x512_64_0 : (Rect.unit (s := S512x512) ![64, 0] S32x512.size inb_S512x512_S32x512_64_0).WholeWords (EltTy.packing .bf16)
  inb_S16_S1_3 : ∀ a, (![3] : Fin 1 → Nat) a + S1.size a ≤ S16.size a
  inb_S512x512_S32x512_96_0 : ∀ a, (![96, 0] : Fin 2 → Nat) a + S32x512.size a ≤ S512x512.size a
  wordsbf16_S512x512_S32x512_96_0 : (Rect.unit (s := S512x512) ![96, 0] S32x512.size inb_S512x512_S32x512_96_0).WholeWords (EltTy.packing .bf16)
  inb_S16_S1_4 : ∀ a, (![4] : Fin 1 → Nat) a + S1.size a ≤ S16.size a
  inb_S512x512_S32x512_128_0 : ∀ a, (![128, 0] : Fin 2 → Nat) a + S32x512.size a ≤ S512x512.size a
  wordsbf16_S512x512_S32x512_128_0 : (Rect.unit (s := S512x512) ![128, 0] S32x512.size inb_S512x512_S32x512_128_0).WholeWords (EltTy.packing .bf16)
  inb_S16_S1_5 : ∀ a, (![5] : Fin 1 → Nat) a + S1.size a ≤ S16.size a
  inb_S512x512_S32x512_160_0 : ∀ a, (![160, 0] : Fin 2 → Nat) a + S32x512.size a ≤ S512x512.size a
  wordsbf16_S512x512_S32x512_160_0 : (Rect.unit (s := S512x512) ![160, 0] S32x512.size inb_S512x512_S32x512_160_0).WholeWords (EltTy.packing .bf16)
  inb_S16_S1_6 : ∀ a, (![6] : Fin 1 → Nat) a + S1.size a ≤ S16.size a
  inb_S512x512_S32x512_192_0 : ∀ a, (![192, 0] : Fin 2 → Nat) a + S32x512.size a ≤ S512x512.size a
  wordsbf16_S512x512_S32x512_192_0 : (Rect.unit (s := S512x512) ![192, 0] S32x512.size inb_S512x512_S32x512_192_0).WholeWords (EltTy.packing .bf16)
  inb_S16_S1_7 : ∀ a, (![7] : Fin 1 → Nat) a + S1.size a ≤ S16.size a
  inb_S512x512_S32x512_224_0 : ∀ a, (![224, 0] : Fin 2 → Nat) a + S32x512.size a ≤ S512x512.size a
  wordsbf16_S512x512_S32x512_224_0 : (Rect.unit (s := S512x512) ![224, 0] S32x512.size inb_S512x512_S32x512_224_0).WholeWords (EltTy.packing .bf16)
  inb_S16_S1_8 : ∀ a, (![8] : Fin 1 → Nat) a + S1.size a ≤ S16.size a
  inb_S512x512_S32x512_256_0 : ∀ a, (![256, 0] : Fin 2 → Nat) a + S32x512.size a ≤ S512x512.size a
  wordsbf16_S512x512_S32x512_256_0 : (Rect.unit (s := S512x512) ![256, 0] S32x512.size inb_S512x512_S32x512_256_0).WholeWords (EltTy.packing .bf16)
  inb_S16_S1_9 : ∀ a, (![9] : Fin 1 → Nat) a + S1.size a ≤ S16.size a
  inb_S512x512_S32x512_288_0 : ∀ a, (![288, 0] : Fin 2 → Nat) a + S32x512.size a ≤ S512x512.size a
  wordsbf16_S512x512_S32x512_288_0 : (Rect.unit (s := S512x512) ![288, 0] S32x512.size inb_S512x512_S32x512_288_0).WholeWords (EltTy.packing .bf16)
  inb_S16_S1_10 : ∀ a, (![10] : Fin 1 → Nat) a + S1.size a ≤ S16.size a
  inb_S512x512_S32x512_320_0 : ∀ a, (![320, 0] : Fin 2 → Nat) a + S32x512.size a ≤ S512x512.size a
  wordsbf16_S512x512_S32x512_320_0 : (Rect.unit (s := S512x512) ![320, 0] S32x512.size inb_S512x512_S32x512_320_0).WholeWords (EltTy.packing .bf16)
  inb_S16_S1_11 : ∀ a, (![11] : Fin 1 → Nat) a + S1.size a ≤ S16.size a
  inb_S512x512_S32x512_352_0 : ∀ a, (![352, 0] : Fin 2 → Nat) a + S32x512.size a ≤ S512x512.size a
  wordsbf16_S512x512_S32x512_352_0 : (Rect.unit (s := S512x512) ![352, 0] S32x512.size inb_S512x512_S32x512_352_0).WholeWords (EltTy.packing .bf16)
  inb_S16_S1_12 : ∀ a, (![12] : Fin 1 → Nat) a + S1.size a ≤ S16.size a
  inb_S512x512_S32x512_384_0 : ∀ a, (![384, 0] : Fin 2 → Nat) a + S32x512.size a ≤ S512x512.size a
  wordsbf16_S512x512_S32x512_384_0 : (Rect.unit (s := S512x512) ![384, 0] S32x512.size inb_S512x512_S32x512_384_0).WholeWords (EltTy.packing .bf16)
  inb_S16_S1_13 : ∀ a, (![13] : Fin 1 → Nat) a + S1.size a ≤ S16.size a
  inb_S512x512_S32x512_416_0 : ∀ a, (![416, 0] : Fin 2 → Nat) a + S32x512.size a ≤ S512x512.size a
  wordsbf16_S512x512_S32x512_416_0 : (Rect.unit (s := S512x512) ![416, 0] S32x512.size inb_S512x512_S32x512_416_0).WholeWords (EltTy.packing .bf16)
  inb_S16_S1_14 : ∀ a, (![14] : Fin 1 → Nat) a + S1.size a ≤ S16.size a
  inb_S512x512_S32x512_448_0 : ∀ a, (![448, 0] : Fin 2 → Nat) a + S32x512.size a ≤ S512x512.size a
  wordsbf16_S512x512_S32x512_448_0 : (Rect.unit (s := S512x512) ![448, 0] S32x512.size inb_S512x512_S32x512_448_0).WholeWords (EltTy.packing .bf16)
  inb_S16_S1_15 : ∀ a, (![15] : Fin 1 → Nat) a + S1.size a ≤ S16.size a
  inb_S512x512_S32x512_480_0 : ∀ a, (![480, 0] : Fin 2 → Nat) a + S32x512.size a ≤ S512x512.size a
  wordsbf16_S512x512_S32x512_480_0 : (Rect.unit (s := S512x512) ![480, 0] S32x512.size inb_S512x512_S32x512_480_0).WholeWords (EltTy.packing .bf16)
  h_S1x32x512 : 0 < S1x32x512.numel
  shapeCasts_S1x32x512_S32x512 : S1x32x512.ShapeCasts S32x512
  h_S32x512 : 0 < S32x512.numel
  hcc0_scratch3 : 2 + S16.numel ≤ 66
  hcc0_scratch4 : 18 + S16.numel ≤ 66
  hcc0_scratch5 : 34 + S16.numel ≤ 66
  hcc0_scratch6 : 50 + S16.numel ≤ 66
  k0_dev1_lt : ∀ d0 : Dev nD, (k0_dev1 d0) < nD
  k0_dev2_lt : ∀ d0 : Dev nD, (k0_dev2 d0) < nD
  k0_off1_inb : ∀ d0 : Dev nD, ∀ a, (k0_off1 d0) a + S1x512x512.size a ≤ S1x1024x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_off2_inb : ∀ d0 : Dev nD, ∀ (r : Fin 16), ∀ a, (k0_off2 d0 (BitVec.ofNat 32 (32 * r.val))) a + S1x32x512.size a ≤ S1x1024x1024.size a
  k0_off3_inb : ∀ d0 : Dev nD, ∀ (r : Fin 16), ∀ a, (k0_off3 d0 (BitVec.ofNat 32 (32 * r.val))) a + S32x512.size a ≤ S1024x512.size a
  k0_off3_packedbf16 : ∀ d0 : Dev nD, ∀ (r : Fin 16), (Rect.unit (s := S1024x512) (k0_off3 d0 (BitVec.ofNat 32 (32 * r.val))) S32x512.size (k0_off3_inb d0 r)).PackedRows (EltTy.packing .bf16)
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off4_inb : ∀ d0 : Dev nD, ∀ (r : Fin 16), ∀ a, (k0_off4 d0 (BitVec.ofNat 32 (32 * r.val))) a + S1x32x512.size a ≤ S1x1024x1024.size a
  k0_off5_inb : ∀ d0 : Dev nD, ∀ (r : Fin 16), ∀ a, (k0_off5 d0 (BitVec.ofNat 32 (32 * r.val))) a + S32x512.size a ≤ S1024x512.size a
  k0_off5_packedbf16 : ∀ d0 : Dev nD, ∀ (r : Fin 16), (Rect.unit (s := S1024x512) (k0_off5 d0 (BitVec.ofNat 32 (32 * r.val))) S32x512.size (k0_off5_inb d0 r)).PackedRows (EltTy.packing .bf16)
  hstage0_0 : ∀ j, (stage0_0 j).IsWhole
  hstage0_1 : ∀ j, (stage0_1 j).IsWhole

variable [Facts₀]

abbrev cc0_scratch3 : DmaSems sig S16 := SemArray.consecutive 2 S16 hcc0_scratch3
abbrev cc0_scratch4 : DmaSems sig S16 := SemArray.consecutive 18 S16 hcc0_scratch4
abbrev cc0_scratch5 : DmaSems sig S16 := SemArray.consecutive 34 S16 hcc0_scratch5
abbrev cc0_scratch6 : DmaSems sig S16 := SemArray.consecutive 50 S16 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | .hbm, ⟨3, _⟩ => ⟨S1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel
  bitsLt_bf16_f32 : FTy.bits .bf16 < FTy.bits .f32

variable [Facts₀]

class Facts : Prop extends Facts₀ where

variable [Facts]
-- ==== Proof.KernelSetup.lean ====
/-
The reduce-scatter over the z axis of a 2×2×2 mesh, in two hops: the objects every other module speaks of.

Device c = 4x + 2y + z holds block z (along axis 0) of the whole input X : f32[2,1024,1024] and must end with
columns [512z, 512z+512) of X[0] + X[1].  It sends rows [512x, 512x+512), columns of the OTHER z half, of its
block to its z-neighbour (flip z) in 16 chunks of 32 rows, adds what it receives to its own rows of its own z
half, forwards each received chunk to its x-neighbour (flip x), and adds what the x-neighbour forwards to the
other 512 rows.

Semaphores (cells) of one device: the barrier semaphore (both neighbours signal it once at entry; waited 2),
and per chunk k the z send / z receive / x send / x receive DMA semaphores.  Each cell has ONE round.
-/
import proofs.«901028_g7700000000001029_dist_rs_v7x_xyz2x2x2_z_m1024_n512_bf16_1_alg».proof.Proof.Gen.Kernel
import proofs.«901028_g7700000000001029_dist_rs_v7x_xyz2x2x2_z_m1024_n512_bf16_1_alg».proof.Proof.Gen.Kernel.Skeleton
import proofs.«901028_g7700000000001029_dist_rs_v7x_xyz2x2x2_z_m1024_n512_bf16_1_alg».proof.Proof.Gen.Kernel.Launch
import proofs.«901028_g7700000000001029_dist_rs_v7x_xyz2x2x2_z_m1024_n512_bf16_1_alg».proof.Proof.Gen.Kernel.Points
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two neighbours: flip z, flip x -/

def zp (c : Dev nD) : Dev nD := ⟨k0_dev1 c, k0_dev1_lt c⟩
def xp (c : Dev nD) : Dev nD := ⟨k0_dev2 c, k0_dev2_lt c⟩

theorem zp_zp : ∀ c : Dev nD, zp (zp c) = c := by decide +kernel
theorem xp_xp : ∀ c : Dev nD, xp (xp c) = c := by decide +kernel
theorem zp_ne : ∀ c : Dev nD, zp c ≠ c := by decide +kernel
theorem xp_ne : ∀ c : Dev nD, xp c ≠ c := by decide +kernel
theorem zp_ne_xp : ∀ c : Dev nD, zp c ≠ xp c := by decide +kernel

def zpE : Dev nD ≃ Dev nD := ⟨zp, zp, zp_zp, zp_zp⟩
def xpE : Dev nD ≃ Dev nD := ⟨xp, xp, xp_xp, xp_xp⟩

/-- A device chain that names the z-neighbour, a chain that names the x-neighbour. -/
theorem dev_z {f : Dev nD → Nat} {hf : ∀ c, f c < nD} (h : ∀ c, f c = k0_dev1 c) (c : Dev nD) : (⟨f c, hf c⟩ : Dev nD) = zp c := Fin.ext (h c)
theorem dev_x {f : Dev nD → Nat} {hf : ∀ c, f c < nD} (h : ∀ c, f c = k0_dev2 c) (c : Dev nD) : (⟨f c, hf c⟩ : Dev nD) = xp c := Fin.ext (h c)

/-! ## Memrefs, chunk slices, semaphores, cells -/

abbrev xM : Memref sig .tc .vmem S1x1024x1024 .f32 := Memref.whole cc0_stg0_0
abbrev oM : Memref sig .tc .vmem S1024x512 .bf16 := Memref.whole cc0_stg1_0
abbrev zsM : Memref sig .tc .vmem S512x512 .bf16 := Memref.whole cc0_scratch0
abbrev zrM : Memref sig .tc .vmem S512x512 .bf16 := Memref.whole cc0_scratch1
abbrev xrM : Memref sig .tc .vmem S512x512 .bf16 := Memref.whole cc0_scratch2

theorem inbR (k : Fin 16) : ∀ a, (![32 * k.val, 0] : Fin 2 → Nat) a + S32x512.size a ≤ S512x512.size a := by
  intro a; have := k.isLt
  fin_cases a
  · show 32 * k.val + 32 ≤ 512; omega
  · show 0 + 512 ≤ 512; omega

/-- Rows [32k, 32k+32) of a 512×512 buffer. -/
abbrev rowRect (k : Fin 16) : Rect S512x512 := Rect.unit (s := S512x512) ![32 * k.val, 0] S32x512.size (inbR k)
/-- Chunk k of a 512×512 buffer, as the kernel slices it. -/
abbrev sl (M : Memref sig .tc .vmem S512x512 .bf16) (k : Fin 16) : Memref sig .tc .vmem S32x512 .bf16 := M.slice (rowRect k) (fun _ => rfl)

theorem inbS (k : Fin 16) : ∀ a, (![k.val] : Fin 1 → Nat) a + S1.size a ≤ S16.size a := by
  intro a; have := k.isLt
  fin_cases a
  show k.val + 1 ≤ 16; omega

/-- Entry k of an array of 16 DMA semaphores, as the kernel names it. -/
abbrev semAt (A : DmaSems sig S16) (k : Fin 16) : DmaSem sig := ((A.slice (Rect.unit (s := S16) ![k.val] S1.size (inbS k))).squeeze S_ squeezes_S1_S_).sem

/-- DMA semaphore number 2 + 16a + k: array a (0 z-send, 1 z-receive, 2 x-send, 3 x-receive), chunk k. -/
def dsem (a : Fin 4) (k : Fin 16) : DmaSem sig := ⟨2 + 16 * a.val + k.val, by have := a.isLt; have := k.isLt; show 2 + 16 * a.val + k.val < 66; omega⟩

theorem semAt3_eq (k : Fin 16) : semAt cc0_scratch3 k = dsem 0 k := by revert k; decide +kernel
theorem semAt4_eq (k : Fin 16) : semAt cc0_scratch4 k = dsem 1 k := by revert k; decide +kernel
theorem semAt5_eq (k : Fin 16) : semAt cc0_scratch5 k = dsem 2 k := by revert k; decide +kernel
theorem semAt6_eq (k : Fin 16) : semAt cc0_scratch6 k = dsem 3 k := by revert k; decide +kernel

theorem dsem_inj : ∀ a a' : Fin 4, ∀ k k' : Fin 16, dsem a k = dsem a' k' → a = a' ∧ k = k' := by decide +kernel

abbrev barS : Sem sig := (SemArray.scalar (sig.barrier 0 rfl) : Sems sig S_).sem

abbrev barCell (c : Dev nD) : GSem nD τ sig := ((c : Thread nD τ), .reg barS)
abbrev dCell (c : Dev nD) (a : Fin 4) (k : Fin 16) : GSem nD τ sig := ((c : Thread nD τ), .dma (dsem a k))

/-- The kernel's own (scoped) semaphores, as the launch indexes them. -/
abbrev osem : Fin 4 × Fin 16 → SemLoc sig := fun ak => .dma (dsem ak.1 ak.2)

/-- Array and chunk of a DMA semaphore number. -/
def aOf (s : DmaSem sig) : ℕ := (s.val - 2) / 16
def kOf (s : DmaSem sig) : Fin 16 := ⟨(s.val - 2) % 16, Nat.mod_lt _ (by decide)⟩
theorem aOf_dsem : ∀ (a : Fin 4) (k : Fin 16), aOf (dsem a k) = a.val := by decide +kernel
theorem kOf_dsem : ∀ (a : Fin 4) (k : Fin 16), kOf (dsem a k) = k := by decide +kernel
theorem aOf0 (k : Fin 16) : aOf (dsem 0 k) = 0 := aOf_dsem 0 k
theorem aOf1 (k : Fin 16) : aOf (dsem 1 k) = 1 := aOf_dsem 1 k
theorem aOf2 (k : Fin 16) : aOf (dsem 2 k) = 2 := aOf_dsem 2 k
theorem aOf3 (k : Fin 16) : aOf (dsem 3 k) = 3 := aOf_dsem 3 k
theorem two_le_dsem : ∀ (a : Fin 4) (k : Fin 16), 2 ≤ (dsem a k).val := by decide +kernel

/-- The credit of one chunk transfer. -/
abbrev N : ℕ := (sl zrM 0).view.dmaCredit

/-! ## Contents -/

/-- The input block as the pipeline stages it: the device's whole block of X. -/
def xstg (c : Dev nD) : (cc0_stg0_0 : Ref sig .tc).ty.Contents (Elt F) :=
  (win0_0.blk (0 : Fin 1)).view.read (Elt F) (m ((c : Thread nD τ).loc main_arg0))

abbrev r1 (c : Dev nD) : LoadRect S1x1024x1024 := (Rect.unit (s := S1x1024x1024) (k0_off1 c) S1x512x512.size (k0_off1_inb c)).toLoadRect

/-- What device c puts in its z send buffer: rows [512x, 512x+512), columns of the other z half, of its block. -/
def zsC (c : Dev nD) : (cc0_scratch0 : Ref sig .tc).ty.Contents (Elt F) :=
  k0_pay2 (k0_pay1 (xM.view.readAt (Elt F) (r1 c) (xstg m c)))
/-- What lands in c's z receive buffer: its z-neighbour's send buffer. -/
def zrC (c : Dev nD) : (cc0_scratch1 : Ref sig .tc).ty.Contents (Elt F) := zsC m (zp c)
/-- What lands in c's x receive buffer: its x-neighbour's z receive buffer. -/
def xrC (c : Dev nD) : (cc0_scratch2 : Ref sig .tc).ty.Contents (Elt F) := zrC m (xp c)

/-- One output chunk: the device's own 32 rows plus the received 32 rows. -/
def sumBlk (a : Vec F S1x32x512 .f32) (b : Vec F S32x512 .bf16) : FVec F S32x512 .bf16 :=
  truncf .bf16 (addf (shapeCast S32x512 a shapeCasts_S1x32x512_S32x512) (extf .f32 b bitsLt_bf16_f32)) bitsLt_bf16_f32

abbrev rx2 (c : Dev nD) (k : Fin 16) : LoadRect S1x1024x1024 := (Rect.unit (s := S1x1024x1024) (k0_off2 c (BitVec.ofNat 32 (32 * k.val))) S1x32x512.size (k0_off2_inb c k)).toLoadRect
abbrev rx4 (c : Dev nD) (k : Fin 16) : LoadRect S1x1024x1024 := (Rect.unit (s := S1x1024x1024) (k0_off4 c (BitVec.ofNat 32 (32 * k.val))) S1x32x512.size (k0_off4_inb c k)).toLoadRect
abbrev ro3 (c : Dev nD) (k : Fin 16) : Rect S1024x512 := Rect.unit (s := S1024x512) (k0_off3 c (BitVec.ofNat 32 (32 * k.val))) S32x512.size (k0_off3_inb c k)
abbrev ro5 (c : Dev nD) (k : Fin 16) : Rect S1024x512 := Rect.unit (s := S1024x512) (k0_off5 c (BitVec.ofNat 32 (32 * k.val))) S32x512.size (k0_off5_inb c k)

/-- Chunk k of the first 512 rows (the device's own x half): own rows plus the z-neighbour's. -/
def payA (c : Dev nD) (k : Fin 16) : FVec F S32x512 .bf16 :=
  sumBlk (xM.view.readAt (Elt F) (rx2 c k) (xstg m c)) (zrM.view.readAt (Elt F) (rowRect k).toLoadRect (zrC m c))
/-- Chunk k of the other 512 rows: own rows plus what the x-neighbour forwarded. -/
def payB (c : Dev nD) (k : Fin 16) : FVec F S32x512 .bf16 :=
  sumBlk (xM.view.readAt (Elt F) (rx4 c k) (xstg m c)) (xrM.view.readAt (Elt F) (rowRect k).toLoadRect (xrC m c))

/-- A store of a whole rectangle into the output staging buffer. -/
def wrO (r : Rect S1024x512) (f : (cc0_stg1_0 : Ref sig .tc).ty.Contents (Elt F)) (w : r.shape.Idx → Elt F .bf16) :
    (cc0_stg1_0 : Ref sig .tc).ty.Contents (Elt F) :=
  ((oM : Memref sig .tc .vmem S1024x512 .bf16).access r : View sig .tc _ _ _).write (Elt F) f w Finset.univ

/-- The output staging buffer after the first j of the 32 chunk stores, from contents g. -/
def outSt (c : Dev nD) (g : (cc0_stg1_0 : Ref sig .tc).ty.Contents (Elt F)) : ℕ → (cc0_stg1_0 : Ref sig .tc).ty.Contents (Elt F)
  | 0 => g
  | j + 1 =>
    if h : j < 16 then wrO (ro3 c ⟨j, h⟩) (outSt c g j) (payA m c ⟨j, h⟩)
    else wrO (ro5 c ⟨(j - 16) % 16, Nat.mod_lt _ (by decide)⟩) (outSt c g j) (payB m c ⟨(j - 16) % 16, Nat.mod_lt _ (by decide)⟩)

/-- The kernel's result on device c: all 32 chunks stored (the stores cover the buffer, so the start does not matter). -/
def outAt (c : Dev nD) : (cc0_stg1_0 : Ref sig .tc).ty.Contents (Elt F) := outSt m c (fun _ => Classical.arbitrary _) 32

/-! ## The schedule: one round per cell -/

section Schedule

/-- Chunk k of c's z send buffer at what c put there (comes back to c when the transfer has read it). -/
def zsPay (c : Dev nD) (k : Fin 16) : sProp 𝕄 :=
  (sl zsM k).view.loc (c : Thread nD τ) ↦[(sl zsM k).view.set]{fullShare} (zsC m c)
/-- Chunk k of c's z receive buffer holding the z-neighbour's chunk. -/
def zrPay (c : Dev nD) (k : Fin 16) : sProp 𝕄 :=
  (sl zrM k).view.loc (c : Thread nD τ) ↦[(sl zrM k).view.set]{fullShare} (zrC m c)
/-- The half of chunk k of c's z receive buffer lent to the forwarding transfer. -/
def xsPay (c : Dev nD) (k : Fin 16) : sProp 𝕄 :=
  (sl zrM k).view.loc (c : Thread nD τ) ↦[(sl zrM k).view.set]{fullShare.left} (zrC m c)
/-- Chunk k of c's x receive buffer holding what the x-neighbour forwarded. -/
def xrPay (c : Dev nD) (k : Fin 16) : sProp 𝕄 :=
  (sl xrM k).view.loc (c : Thread nD τ) ↦[(sl xrM k).view.set]{fullShare} (xrC m c)
/-- With its entry signal the z-neighbour hands c its z receive buffer (c writes into it); -/
def barPayZ (c : Dev nD) : sProp 𝕄 :=
  iprop(∃ f, zrM.view.loc (zp c : Thread nD τ) ↦[zrM.view.set]{fullShare} f)
/-- the x-neighbour its x receive buffer. -/
def barPayX (c : Dev nD) : sProp 𝕄 :=
  iprop(∃ f, xrM.view.loc (xp c : Thread nD τ) ↦[xrM.view.set]{fullShare} f)

theorem N_pos : 0 < N := View.dmaCredit_pos _ (by decide)

/-- Round 0 only. The barrier cell: duty `false` paid by the z-neighbour, `true` by the x-neighbour, one unit each.
    A chunk's DMA cell: the one duty `false` of the chunk's credit. -/
def rd : Rounds.Schedule (GSem nD τ sig) Bool 𝕄 where
  duties g r := if r = 0 ∧ g.1.2 = .tc then (match g.2 with | .reg _ => Finset.univ | .dma s => if 2 ≤ s.val then {false} else ∅) else ∅
  unitless _ := False
  amount g _ _ := match g.2 with | .reg _ => 1 | .dma _ => N
  payload g _ d := match g.2 with
    | .reg _ => if d then barPayX g.1.1 else barPayZ g.1.1
    | .dma s => if s.val < 2 then iprop(emp) else if aOf s = 0 then zsPay m g.1.1 (kOf s) else if aOf s = 1 then zrPay m g.1.1 (kOf s)
        else if aOf s = 2 then xsPay m g.1.1 (kOf s) else xrPay m g.1.1 (kOf s)
  amount_pos g _ _ _ := by
    cases g.2 with
    | reg _ => exact Nat.one_pos
    | dma _ => exact N_pos

instance rd_payload_storable (g : GSem nD τ sig) (r : ℕ) (d : Bool) : BI.Storable (upEmb : UEmb _ 𝕄) ((rd (F := F) m).payload g r d) := by
  show BI.Storable upEmb (match g.2 with
    | .reg _ => if d then barPayX g.1.1 else barPayZ g.1.1
    | .dma s => if s.val < 2 then iprop(emp) else if aOf s = 0 then zsPay m g.1.1 (kOf s) else if aOf s = 1 then zrPay m g.1.1 (kOf s)
        else if aOf s = 2 then xsPay m g.1.1 (kOf s) else xrPay m g.1.1 (kOf s))
  unfold barPayX barPayZ zsPay zrPay xsPay xrPay
  (repeat' split) <;> infer_instance

variable (c : Dev nD) (a : Fin 4) (k : Fin 16)

theorem duties_bar : (rd (F := F) m).duties (barCell c) 0 = Finset.univ := by dsimp only [rd]; rw [if_pos ⟨rfl, rfl⟩]
theorem duties_d : (rd (F := F) m).duties (dCell c a k) 0 = {false} := by dsimp only [rd]; rw [if_pos ⟨rfl, rfl⟩, if_pos (two_le_dsem a k)]
theorem duties_later (g : GSem nD τ sig) : ∀ r, 1 ≤ r → (rd (F := F) m).duties g r = ∅ :=
  fun r hr => by dsimp only [rd]; rw [if_neg fun h => by omega]
theorem amount_bar (d : Bool) : (rd (F := F) m).amount (barCell c) 0 d = 1 := rfl
theorem amount_d (d : Bool) : (rd (F := F) m).amount (dCell c a k) 0 d = N := rfl
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (rd (F := F) m).expect (dCell c a k) 0 = N := by
  unfold Schedule.expect Schedule.amountOf; rw [duties_d, Finset.sum_singleton, amount_d]

theorem payload_bar_false : (rd (F := F) m).payload (barCell c) 0 false = barPayZ c := rfl
theorem payload_bar_true : (rd (F := F) m).payload (barCell c) 0 true = barPayX c := rfl
theorem payload_zs (d : Bool) : (rd (F := F) m).payload (dCell c 0 k) 0 d = zsPay m c k := by
  dsimp only [rd]; rw [if_neg (by have := two_le_dsem 0 k; omega), if_pos (aOf0 k), kOf_dsem]
theorem payload_zr (d : Bool) : (rd (F := F) m).payload (dCell c 1 k) 0 d = zrPay m c k := by
  dsimp only [rd]; rw [if_neg (by have := two_le_dsem 1 k; omega), if_neg (by rw [aOf1]; decide), if_pos (aOf1 k), kOf_dsem]
theorem payload_xs (d : Bool) : (rd (F := F) m).payload (dCell c 2 k) 0 d = xsPay m c k := by
  dsimp only [rd]; rw [if_neg (by have := two_le_dsem 2 k; omega), if_neg (by rw [aOf2]; decide), if_neg (by rw [aOf2]; decide), if_pos (aOf2 k), kOf_dsem]
theorem payload_xr (d : Bool) : (rd (F := F) m).payload (dCell c 3 k) 0 d = xrPay m c k := by
  dsimp only [rd]; rw [if_neg (by have := two_le_dsem 3 k; omega), if_neg (by rw [aOf3]; decide), if_neg (by rw [aOf3]; decide), if_neg (by rw [aOf3]; decide), kOf_dsem]

/-- The barrier cell's whole round: both neighbours' buffers. -/
theorem rest_bar : bigSep ((rd (F := F) m).duties (barCell c) 0 \ ∅) (fun d => (rd (F := F) m).payload (barCell c) 0 d) = iprop(barPayZ c ∗ barPayX c) := by
  rw [Finset.sdiff_empty, duties_bar, bigSep_univ_eq_bigSepL [false, true] (by decide) (by decide), bigSepL_cons_cons, bigSepL_singleton,
    payload_bar_false, payload_bar_true]
  rfl
theorem rest_d : bigSep ((rd (F := F) m).duties (dCell c a k) 0 \ ∅) (fun d => (rd (F := F) m).payload (dCell c a k) 0 d) = (rd (F := F) m).payload (dCell c a k) 0 false := by
  rw [Finset.sdiff_empty, duties_d, bigSep_singleton]

end Schedule

/-! ## What each device owes at launch; the levels -/

/-- The z-neighbour's 16 z-receive credits; the x-neighbour's 16 x-receive credits. -/
def Ozr (c : Dev nD) : CellTallies nD τ sig Unit := ∑ k : Fin 16, tallyAt (dCell (zp c) 1 k) () N
def Oxr (c : Dev nD) : CellTallies nD τ sig Unit := ∑ k : Fin 16, tallyAt (dCell (xp c) 3 k) () N
/-- Summed so that the first signal (to the z-neighbour) peels the last summand, the second the next. -/
def O₁ (c : Dev nD) : CellTallies nD τ sig Unit := (Oxr c + Ozr c) + tallyAt (barCell (xp c)) () 1
def O₀ (c : Dev nD) : CellTallies nD τ sig Unit := O₁ c + tallyAt (barCell (zp c)) () 1

def L (g : GSem nD τ sig) : Finset Unit := if g.1.2 = .tc then {()} else ∅
/-- Barrier cells at 1, z-receive cells at 2, x-receive cells at 3, everything else (staging, sends) at 0. -/
def lv (g : GSem nD τ sig) (_ : Unit) : ℕ :=
  match g.2 with
  | .reg _ => 1
  | .dma s => if 2 ≤ s.val ∧ aOf s = 1 then 2 else if 2 ≤ s.val ∧ aOf s = 3 then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state and the proof data -/

/-- Every cell's invariant under the names the launch allocated, and that round 0 of every cell is reached. -/
def records (Kb : Dev nD → ℕ) (Kd : Dev nD × Fin 4 × Fin 16 → ℕ) : sProp 𝕄 :=
  iprop((bigSep Finset.univ fun c : Dev nD => cellInv ER (rd m) (Kb c) (barCell c))
    ∗ (bigSep Finset.univ fun x : Dev nD × Fin 4 × Fin 16 => cellInv ER (rd m) (Kd x) (dCell x.1 x.2.1 x.2.2))
    ∗ (bigSep Finset.univ fun c : Dev nD => reached ER (barCell c) 0)
    ∗ (bigSep Finset.univ fun x : Dev nD × Fin 4 × Fin 16 => reached ER (dCell x.1 x.2.1 x.2.2) 0))

instance records_persistent (Kb : Dev nD → ℕ) (Kd : Dev nD × Fin 4 × Fin 16 → ℕ) : BI.Persistent (records m Kb Kd) := by unfold records; infer_instance

/-- What stays with device c: its positions at round 0 of its 65 cells, and the tokens of the 66 duties it pays —
    both neighbours' barrier duties, its own 32 send duties, the z-neighbour's 16 z-receive and the x-neighbour's 16
    x-receive duties. -/
def linear (c : Dev nD) : sProp 𝕄 :=
  iprop(atPos ER (barCell c) 0 ∅ 0
    ∗ (bigSep Finset.univ fun ak : Fin 4 × Fin 16 => atPos ER (dCell c ak.1 ak.2) 0 ∅ 0)
    ∗ dutyTok ER (barCell (zp c)) 0 false ∗ dutyTok ER (barCell (xp c)) 0 true
    ∗ (bigSep Finset.univ fun k : Fin 16 => dutyTok ER (dCell c 0 k) 0 false)
    ∗ (bigSep Finset.univ fun k : Fin 16 => dutyTok ER (dCell (zp c) 1 k) 0 false)
    ∗ (bigSep Finset.univ fun k : Fin 16 => dutyTok ER (dCell c 2 k) 0 false)
    ∗ (bigSep Finset.univ fun k : Fin 16 => dutyTok ER (dCell (xp c) 3 k) 0 false))

def ghost (c : Dev nD) : sProp 𝕄 := iprop(∃ Kb Kd, records m Kb Kd ∗ linear c)

/-- The credit the launch deals device c: its barrier's two units, each receive cell's chunk credit. -/
def creds (c : Dev nD) : sProp 𝕄 :=
  iprop(cred (tallyAt (barCell c) () 2)
    ∗ (bigSep Finset.univ fun k : Fin 16 => cred (tallyAt (dCell c 1 k) () N))
    ∗ (bigSep Finset.univ fun k : Fin 16 => cred (tallyAt (dCell c 3 k) () N)))

def start (c : Dev nD) : sProp 𝕄 := iprop(ghost m c ∗ creds c ∗ levAts L lv)

abbrev whole (c : Dev nD) (b : Ref sig .tc) : sProp 𝕄 := iprop(∃ f : Buf (Elt F) ((c : Thread nD τ).loc b), ((c : Thread nD τ).loc b) ↦{fullShare} f)

/-- Before the point: the start, and the three scratch buffers at some contents. -/
def Φ₀ (c : Dev nD) : sProp 𝕄 := iprop(start m c ∗ whole c cc0_scratch0 ∗ whole c cc0_scratch1 ∗ whole c cc0_scratch2)
/-- After it: the three scratch buffers back whole, the 64 own cells closed at zero. -/
def Φ₁ (c : Dev nD) : sProp 𝕄 :=
  iprop((whole c cc0_scratch0 ∗ whole c cc0_scratch1 ∗ whole c cc0_scratch2) ∗ bigSep Finset.univ fun ak : Fin 4 × Fin 16 => semVal ((c : Thread nD τ), osem ak) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelProof

end
-- ==== Proof.KernelGhost.lean ====
/-
The launch's ghost step: the protocol's copy of the rounds algebra dealt to the devices (every cell's round state and
owner's position, every duty's token), each cell's invariant allocated from its counter at zero, and the tokens dealt
to the devices that pay them (a barrier duty to the neighbour it names, a receive duty to the neighbour that sends).
-/
import proofs.«901028_g7700000000001029_dist_rs_v7x_xyz2x2x2_z_m1024_n512_bf16_1_alg».proof.Proof.KernelSetup

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens, indexed -/

/-- A cell's index: a device (its barrier cell), or a device with an array and a chunk (one of its 64 chunk cells). -/
abbrev CIx : Type := Dev nD ⊕ (Dev nD × Fin 4 × Fin 16)
/-- A token's index: a device and a barrier duty, or a chunk cell (its one duty). -/
abbrev TIx : Type := (Dev nD × Bool) ⊕ (Dev nD × Fin 4 × Fin 16)

def cellAt : CIx → GSem nD τ sig
  | .inl c => barCell c
  | .inr x => dCell x.1 x.2.1 x.2.2

def tokAt : TIx → GSem nD τ sig × ℕ × Bool
  | .inl x => (barCell x.1, 0, x.2)
  | .inr x => (dCell x.1 x.2.1 x.2.2, 0, false)

theorem bar_ne_d (c c' : Dev nD) (a : Fin 4) (k : Fin 16) : barCell c ≠ dCell c' a k := fun h => by
  have := congrArg Prod.snd h; cases this

theorem dCell_inj {c c' : Dev nD} {a a' : Fin 4} {k k' : Fin 16} (h : dCell c a k = dCell c' a' k') : c = c' ∧ a = a' ∧ k = k' := by
  have h1 : c = c' := congrArg (fun g : GSem nD τ sig => g.1.1) h
  have h2 : dsem a k = dsem a' k' := SemLoc.dma.inj (congrArg Prod.snd h)
  exact ⟨h1, dsem_inj a a' k k' h2⟩

theorem cellAt_injective : Function.Injective cellAt := by
  rintro (c | ⟨c, a, k⟩) (c' | ⟨c', a', k'⟩) h
  · exact congrArg Sum.inl (congrArg (fun g : GSem nD τ sig => g.1.1) h : c = c')
  · exact absurd h (bar_ne_d c c' a' k')
  · exact absurd h.symm (bar_ne_d c' c a k)
  · obtain ⟨rfl, rfl, rfl⟩ := dCell_inj h; rfl

theorem tokAt_injective : Function.Injective tokAt := by
  rintro (⟨c, d⟩ | ⟨c, a, k⟩) (⟨c', d'⟩ | ⟨c', a', k'⟩) h
  · have h1 : c = c' := congrArg (fun x : GSem nD τ sig × ℕ × Bool => x.1.1.1) h
    have h2 : d = d' := congrArg (fun x : GSem nD τ sig × ℕ × Bool => x.2.2) h
    subst h1; subst h2; rfl
  · exact absurd (congrArg Prod.fst h) (bar_ne_d c c' a' k')
  · exact absurd (congrArg Prod.fst h).symm (bar_ne_d c' c a k)
  · obtain ⟨rfl, rfl, rfl⟩ := dCell_inj (congrArg Prod.fst h); rfl

/-- The protocol's cells: every device's barrier cell and 64 chunk cells. -/
def ringCells : Finset (GSem nD τ sig) := Finset.univ.map ⟨cellAt, cellAt_injective⟩
/-- Every duty's token as minted: (cell, round 0, duty). -/
def ringToks : Finset (GSem nD τ sig × ℕ × Bool) := Finset.univ.map ⟨tokAt, tokAt_injective⟩

/-- The launch element: the pipeline's copy and the protocol's. -/
def u₀ : UU :=
  (initOf (Pipeline.cells cfgs cellOf_inj) (Pipeline.launchToks cfgs cellOf_inj), initOf ringCells ringToks)

/-- An assertion about a cell, over the cells of device c: the barrier cell, then the 64 chunk cells. -/
abbrev own65 (Φ : GSem nD τ sig → sProp 𝕄) (c : Dev nD) : sProp 𝕄 :=
  iprop(Φ (barCell c) ∗ bigSep Finset.univ fun ak : Fin 4 × Fin 16 => Φ (dCell c ak.1 ak.2))

/-- The duty tokens of device c's own cells. -/
def toks (c : Dev nD) : sProp 𝕄 :=
  iprop(dutyTok ER (barCell c) 0 false ∗ dutyTok ER (barCell c) 0 true
    ∗ bigSep Finset.univ fun ak : Fin 4 × Fin 16 => dutyTok ER (dCell c ak.1 ak.2) 0 false)

/-- What the launch element deals device c before the cells' invariants exist. -/
def G (m : (ℓ : Loc nD τ sig) → Buf (Elt F) ℓ) (c : Dev nD) : sProp 𝕄 :=
  iprop(own65 (fun g => roundState ER (rd m) g 0) c ∗ own65 (fun g => reached ER g 0) c ∗ own65 (fun g => atPos ER g 0 ∅ 0) c ∗ toks c)

/-- The cells of all devices, device by device, are the barrier cells and the chunk cells. -/
theorem cells_two (Φ : GSem nD τ sig → sProp 𝕄) :
    bigSep Finset.univ (own65 Φ)
      = iprop((bigSep Finset.univ fun c : Dev nD => Φ (barCell c)) ∗ bigSep Finset.univ fun x : Dev nD × Fin 4 × Fin 16 => Φ (dCell x.1 x.2.1 x.2.2)) := by
  rw [bigSep_univ_prod (fun x : Dev nD × Fin 4 × Fin 16 => Φ (dCell x.1 x.2.1 x.2.2))]
  exact bigSep_sep' Finset.univ (fun c : Dev nD => Φ (barCell c)) (fun c : Dev nD => bigSep Finset.univ fun ak : Fin 4 × Fin 16 => Φ (dCell c ak.1 ak.2))

/-- An assertion over all the cells is the same dealt device by device. -/
theorem cells_deal (Φ : GSem nD τ sig → sProp 𝕄) : bigSep ringCells Φ = bigSep Finset.univ (own65 Φ) := by
  rw [cells_two]
  unfold ringCells
  rw [bigSep_map, bigSep_univ_sum]
  rfl

theorem bigSep_bool (Φ : Bool → sProp 𝕄) : bigSep Finset.univ Φ = iprop(Φ false ∗ Φ true) :=
  bigSep_univ_eq_bigSepL [false, true] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- All the tokens minted, dealt to the devices whose cells they belong to. -/
theorem toks_deal : bigSep ringToks (fun x => (dutyTok ER x.1 x.2.1 x.2.2 : sProp 𝕄)) ⊢ bigSep Finset.univ fun c : Dev nD => toks c := by
  unfold ringToks
  rw [bigSep_map, bigSep_univ_sum, bigSep_univ_prod, bigSep_univ_prod]
  refine (Entails.of_eq (bigSep_sep' _ _ _).symm).trans (bigSep_mono fun c _ => ?_)
  rw [bigSep_bool]
  show iprop((dutyTok ER (barCell c) 0 false ∗ dutyTok ER (barCell c) 0 true)
      ∗ bigSep Finset.univ fun ak : Fin 4 × Fin 16 => dutyTok ER (dCell c ak.1 ak.2) 0 false) ⊢ (toks c : sProp 𝕄)
  unfold toks
  iintro ⟨⟨H1, H2⟩, H3⟩
  isplitl [H1]; · iexact H1
  isplitl [H2]; · iexact H2
  iexact H3

/-- Funding: the protocol's launch element is every device's share. -/
theorem fund_ring (m : (ℓ : Loc nD τ sig) → Buf (Elt F) ℓ) : BI.own (ER (initOf ringCells ringToks)) ⊢ (|==> bigSep Finset.univ (G m) : sProp 𝕄) := by
  iintro HX
  imod (Rounds.fund ER (rd m) ringCells ringToks) $$ HX with ⟨Hst, Hr, Hat, Htok⟩
  imodintro
  ihave Hst' := (Entails.of_eq (cells_deal fun g => roundState ER (rd m) g 0)) $$ Hst
  ihave Hr' := (Entails.of_eq (cells_deal fun g => reached ER g 0)) $$ Hr
  ihave Hat' := (Entails.of_eq (cells_deal fun g => atPos ER g 0 ∅ 0)) $$ Hat
  ihave Htok' := (toks_deal (F := F)) $$ Htok
  unfold G; simp only [bigSep_sep']
  isplitl [Hst']; · iexact Hst'
  isplitl [Hr']; · iexact Hr'
  isplitl [Hat']; · iexact Hat'
  iexact Htok'

theorem hu₀ (m : (ℓ : Loc nD τ sig) → Buf (Elt F) ℓ) : (ownU (u₀ : UU) : sProp 𝕄)
    ⊢ |={Set.univ}=> iprop(BI.own (EP (initOf (Pipeline.cells cfgs cellOf_inj) (Pipeline.launchToks cfgs cellOf_inj))) ∗ bigSep Finset.univ (G (F := F) m)) := by
  unfold u₀
  iintro Hu
  ihave H := (ownU_pair _ _) $$ Hu
  icases H with ⟨HP, HX⟩
  imod (fund_ring m) $$ HX with HG
  imodintro
  isplitl [HP] <;> iassumption

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells: each invariant allocated from the cell's counter at zero and its round state at zero. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop(own65 (fun g => iprop(∃ κ : ℕ, cellInv ER (rd m) κ g)) c
          ∗ own65 (fun g => reached ER g 0) c ∗ own65 (fun g => atPos ER g 0 ∅ 0) c ∗ toks c) := by
  unfold G Pipeline.ownSems0
  rw [unscopedSems0_eq]
  iintro ⟨Hos, Hus, ⟨HstB, HstD⟩, Hr, Hat, Htok⟩
  imod ((Rounds.body_intro ER (rd m) (barCell c)).trans inv_alloc) $$ [Hus HstB] with HinvB
  · isplitl [Hus] <;> iassumption
  imod (show iprop((bigSep Finset.univ fun ak : Fin 4 × Fin 16 => semVal (dCell c ak.1 ak.2) 0) ∗ bigSep Finset.univ fun ak : Fin 4 × Fin 16 => roundState ER (rd m) (dCell c ak.1 ak.2) 0)
      ⊢ (|={Set.univ}=> bigSep Finset.univ fun ak : Fin 4 × Fin 16 => iprop(∃ κ : ℕ, cellInv ER (rd m) κ (dCell c ak.1 ak.2)) : sProp 𝕄) from by
        rw [← bigSep_sep']
        exact (bigSep_mono fun ak _ => (Rounds.body_intro ER (rd m) (dCell c ak.1 ak.2)).trans inv_alloc).trans (bigSep_fupd _ _)) $$ [Hos HstD] with HinvD
  · isplitl [Hos] <;> iassumption
  imodintro
  isplitl [HinvB HinvD]
  · isplitl [HinvB] <;> iassumption
  isplitl [Hr]; · iexact Hr
  isplitl [Hat]; · iexact Hat
  iexact Htok

theorem ghost_intro (m : (ℓ : Loc nD τ sig) → Buf (Elt F) ℓ) (Kb : Dev nD → ℕ) (Kd : Dev nD × Fin 4 × Fin 16 → ℕ) (c : Dev nD) :
    iprop(records m Kb Kd ∗ linear c) ⊢ ghost m c := by
  unfold ghost
  iintro ⟨HR, HL⟩
  iexists Kb, Kd
  isplitl [HR]; · iexact HR
  iexact HL

/-- The tokens of the duties device c pays. -/
def payToks (c : Dev nD) : sProp 𝕄 :=
  iprop(dutyTok ER (barCell (zp c)) 0 false ∗ dutyTok ER (barCell (xp c)) 0 true
    ∗ (bigSep Finset.univ fun k : Fin 16 => dutyTok ER (dCell c 0 k) 0 false)
    ∗ (bigSep Finset.univ fun k : Fin 16 => dutyTok ER (dCell (zp c) 1 k) 0 false)
    ∗ (bigSep Finset.univ fun k : Fin 16 => dutyTok ER (dCell c 2 k) 0 false)
    ∗ (bigSep Finset.univ fun k : Fin 16 => dutyTok ER (dCell (xp c) 3 k) 0 false))

/-- A device's own tokens, array by array. -/
theorem toks_split (c : Dev nD) : (toks c : sProp 𝕄) = iprop(dutyTok ER (barCell c) 0 false ∗ dutyTok ER (barCell c) 0 true
    ∗ (bigSep Finset.univ fun k : Fin 16 => dutyTok ER (dCell c 0 k) 0 false)
    ∗ (bigSep Finset.univ fun k : Fin 16 => dutyTok ER (dCell c 1 k) 0 false)
    ∗ (bigSep Finset.univ fun k : Fin 16 => dutyTok ER (dCell c 2 k) 0 false)
    ∗ (bigSep Finset.univ fun k : Fin 16 => dutyTok ER (dCell c 3 k) 0 false)) := by
  unfold toks; rw [bigSep_univ_prod, bigSep_fin4]

/-- The tokens dealt around: a barrier's duty false to the z-neighbour, its duty true to the x-neighbour, a z-receive
    token to the z-neighbour, an x-receive token to the x-neighbour (both neighbour maps are involutions); the send
    tokens stay. -/
theorem toks_around : (bigSep Finset.univ fun c : Dev nD => (toks c : sProp 𝕄)) ⊢ bigSep Finset.univ fun c : Dev nD => payToks c := by
  rw [bigSep_congr (s := Finset.univ) fun (c : Dev nD) _ => toks_split (F := F) c]
  unfold payToks
  simp only [bigSep_sep']
  rw [bigSep_univ_equiv zpE (fun c : Dev nD => (dutyTok ER (barCell c) 0 false : sProp 𝕄)),
    bigSep_univ_equiv xpE (fun c : Dev nD => (dutyTok ER (barCell c) 0 true : sProp 𝕄)),
    bigSep_univ_equiv zpE (fun c : Dev nD => (bigSep Finset.univ fun k : Fin 16 => dutyTok ER (dCell c 1 k) 0 false : sProp 𝕄)),
    bigSep_univ_equiv xpE (fun c : Dev nD => (bigSep Finset.univ fun k : Fin 16 => dutyTok ER (dCell c 3 k) 0 false : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop(own65 (fun g => iprop(∃ κ : ℕ, cellInv ER (rd m) κ g)) c
          ∗ own65 (fun g => reached ER g 0) c ∗ own65 (fun g => atPos ER g 0 ∅ 0) c ∗ toks c) : sProp 𝕄)
      ⊢ bigSep Finset.univ (ghost m) := by
  rw [bigSep_sep' Finset.univ (fun c : Dev nD => own65 (fun g => iprop(∃ κ : ℕ, cellInv ER (rd m) κ g)) c),
    bigSep_sep' Finset.univ (fun c : Dev nD => own65 (fun g => (reached ER g 0 : sProp 𝕄)) c),
    bigSep_sep' Finset.univ (fun c : Dev nD => own65 (fun g => (atPos ER g 0 ∅ 0 : sProp 𝕄)) c),
    cells_two (fun g => iprop(∃ κ : ℕ, cellInv ER (rd m) κ g)), cells_two (fun g => (reached ER g 0 : sProp 𝕄))]
  iintro ⟨⟨HIb, HId⟩, ⟨#HRb, #HRd⟩, Hat, Htok⟩
  ihave HKb := (BI.bigSep_exists_pi Finset.univ (fun (c : Dev nD) (κ : ℕ) => (cellInv ER (rd m) κ (barCell c) : sProp 𝕄))) $$ HIb
  icases HKb with ⟨%Kb, #HIb⟩
  ihave HKd := (BI.bigSep_exists_pi Finset.univ (fun (x : Dev nD × Fin 4 × Fin 16) (κ : ℕ) => (cellInv ER (rd m) κ (dCell x.1 x.2.1 x.2.2) : sProp 𝕄))) $$ HId
  icases HKd with ⟨%Kd, #HId⟩
  ihave Htk := (toks_around (F := F)) $$ Htok
  iapply (bigSep_with_persistent (R := records m Kb Kd) fun c _ => ghost_intro m Kb Kd c)
  isplitr
  · unfold records
    isplitl; · iexact HIb
    isplitl; · iexact HId
    isplitl; · iexact HRb
    iexact HRd
  · iapply ((Entails.of_eq (bigSep_sep' Finset.univ (fun c : Dev nD => own65 (fun g => (atPos ER g 0 ∅ 0 : sProp 𝕄)) c) payToks).symm).trans
      (bigSep_mono fun c _ => show _ ⊢ linear c from by
        unfold linear payToks
        iintro ⟨⟨H1, H2⟩, H3⟩
        isplitl [H1]; · iexact H1
        isplitl [H2]; · iexact H2
        iexact H3))
    isplitl [Hat]; · iexact Hat
    iexact Htk

/-- The global step: own AND unscoped (barrier) semaphores of every device at once, to every device's ghost state. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-- info: 'Cert.KernelProof.hu₀' depends on axioms: [propext, Classical.choice, Quot.sound] -/
#guard_msgs in #print axioms hu₀

/-- info: 'Cert.KernelProof.glob' depends on axioms: [propext, Classical.choice, Quot.sound] -/
#guard_msgs in #print axioms glob

end Cert.KernelProof

end
-- ==== Proof.KernelSteps.lean ====
/-
The protocol's steps at a symbolic device and chunk: what one remote transfer, one wait and one chunk's sum do to
the resources a device holds.
-/
import proofs.«901028_g7700000000001029_dist_rs_v7x_xyz2x2x2_z_m1024_n512_bf16_1_alg».proof.Proof.KernelSetup
import Idealize.ShloMosaic.Lib.Pipeline.Value

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A chunk copied between two 512×512 buffers

On the chunk's elements (rows [32k, 32k+32)) the destination written with the source's chunk IS the source. -/

theorem copy_zs_zr (k : Fin 16) (fd : (sl zrM k).view.ty.Contents (Elt F)) (fs : (cc0_scratch0 : Ref sig .tc).ty.Contents (Elt F)) :
    ∀ i ∈ (sl zrM k).view.set, (sl zrM k).view.write (Elt F) fd ((sl zsM k).view.read (Elt F) fs) Finset.univ i = (fs : (cc0_scratch1 : Ref sig .tc).ty.Contents (Elt F)) i := by
  intro i hi
  obtain ⟨y, rfl⟩ := View.exists_emb_of_mem_set _ hi
  rw [View.write_emb_of_mem _ _ (Finset.mem_univ y), View.read_apply]
  simp only [cast_cast, cast_eq]
  rfl

theorem copy_zr_xr (k : Fin 16) (fd : (sl xrM k).view.ty.Contents (Elt F)) (fs : (cc0_scratch1 : Ref sig .tc).ty.Contents (Elt F)) :
    ∀ i ∈ (sl xrM k).view.set, (sl xrM k).view.write (Elt F) fd ((sl zrM k).view.read (Elt F) fs) Finset.univ i = (fs : (cc0_scratch2 : Ref sig .tc).ty.Contents (Elt F)) i := by
  intro i hi
  obtain ⟨y, rfl⟩ := View.exists_emb_of_mem_set _ hi
  rw [View.write_emb_of_mem _ _ (Finset.mem_univ y), View.read_apply]
  simp only [cast_cast, cast_eq]
  rfl

/-- A chunk's credit does not depend on the chunk or the buffer. -/
theorem cr_zs (k : Fin 16) : (sl zsM k).view.dmaCredit = N := rfl
theorem cr_zr (k : Fin 16) : (sl zrM k).view.dmaCredit = N := rfl
theorem cr_xr (k : Fin 16) : (sl xrM k).view.dmaCredit = N := rfl

/-! ## The two transfers -/

/-- Chunk k of the send buffer goes to the z-neighbour n's receive buffer: the device pays its own z-send duty (the
    chunk comes back with it) and the neighbour's z-receive duty (the neighbour's chunk then holds this device's). -/
theorem step_zsend (Kd : Dev nD × Fin 4 × Fin 16 → ℕ) (c n : Dev nD) (hn : n = zp c) (k : Fin 16)
    {hsc : ((sl zrM k) : Memref sig (Dev.tc n : Thread nD τ).2.kind .vmem S32x512 .bf16).view.ref.isScScratch = false}
    {hsrc : (sl zsM k).view.WordExact} {hdst : (sl zrM k).view.WordExact}
    {hsem : DmaTarget.Typed .vmem (.dma (semAt cc0_scratch4 k)) (.remote (Dev.tc n : Thread nD τ) (sl zrM k) (.dma (semAt cc0_scratch3 k)) hsc)}
    {α : Type} {Q : α → sProp 𝕄} {kont : PUnit → Prog (TpuEff nD τ sig (Elt F) Λ₀ .tc) α}
    (fd : Buf (Elt F) ((sl zrM k).view.loc (zp c : Thread nD τ))) (O : CellTallies nD τ sig Unit) (W : Waits sig Unit) :
    iprop(cellInv ER (rd m) (Kd (c, 0, k)) (dCell c 0 k) ∗ cellInv ER (rd m) (Kd (zp c, 1, k)) (dCell (zp c) 1 k)
        ∗ ((sl zsM k).view.loc (c : Thread nD τ) ↦[(sl zsM k).view.set]{fullShare} zsC m c)
        ∗ ((sl zrM k).view.loc (zp c : Thread nD τ) ↦[(sl zrM k).view.set]{fullShare} fd)
        ∗ owes (c : Thread nD τ) (O + tallyAt (dCell (zp c) 1 k) () N) W
        ∗ dutyTok ER (dCell c 0 k) 0 false ∗ reached ER (dCell c 0 k) 0
        ∗ dutyTok ER (dCell (zp c) 1 k) 0 false ∗ reached ER (dCell (zp c) 1 k) 0)
      ⊢ iprop(((cred (tallyAt (dCell c 0 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl zsM k) (.remote (Dev.tc n : Thread nD τ) (sl zrM k) (.dma (semAt cc0_scratch3 k)) hsc) (.dma (semAt cc0_scratch4 k)) hsrc hdst hsem) kont) Q) := by
  subst hn
  unfold dCell
  rw [← semAt3_eq k, ← semAt4_eq k]
  exact Rounds.wp_send_pointsTo 𝒱₀ ER (rd m) (c : Thread nD τ) none (κ₁ := Kd (c, 0, k)) (κ₂ := Kd (zp c, 1, k))
    (r₁ := 0) (r₂ := 0) (d₁ := false) (d₂ := false) (fd := fd)
    (by rw [semAt3_eq]; rw [duties_d]; exact Finset.mem_singleton_self _) (by rw [semAt4_eq]; rw [duties_d]; exact Finset.mem_singleton_self _)
    () () N rfl (by rw [semAt3_eq]; exact amount_d m c 0 k false) (by rw [semAt4_eq]; exact amount_d m (zp c) 1 k false) O rfl (W := W)
    (by rw [semAt3_eq, payload_zs]; exact BI.Entails.refl _)
    (by rw [semAt4_eq, payload_zr]; unfold zrPay zrC; rw [zp_zp]
        exact Entails.of_eq (BI.Region.is_congr (copy_zs_zr k fd (zsC m c))))

/-- Chunk k of the receive buffer, read at the left half share, is forwarded to the x-neighbour n's x receive buffer:
    the device pays its own x-send duty (the half comes back with it) and the neighbour's x-receive duty. -/
theorem step_xsend (Kd : Dev nD × Fin 4 × Fin 16 → ℕ) (c n : Dev nD) (hn : n = xp c) (k : Fin 16)
    {hsc : ((sl xrM k) : Memref sig (Dev.tc n : Thread nD τ).2.kind .vmem S32x512 .bf16).view.ref.isScScratch = false}
    {hsrc : (sl zrM k).view.WordExact} {hdst : (sl xrM k).view.WordExact}
    {hsem : DmaTarget.Typed .vmem (.dma (semAt cc0_scratch6 k)) (.remote (Dev.tc n : Thread nD τ) (sl xrM k) (.dma (semAt cc0_scratch5 k)) hsc)}
    {α : Type} {Q : α → sProp 𝕄} {kont : PUnit → Prog (TpuEff nD τ sig (Elt F) Λ₀ .tc) α}
    (fd : Buf (Elt F) ((sl xrM k).view.loc (xp c : Thread nD τ))) (O : CellTallies nD τ sig Unit) (W : Waits sig Unit) :
    iprop(cellInv ER (rd m) (Kd (c, 2, k)) (dCell c 2 k) ∗ cellInv ER (rd m) (Kd (xp c, 3, k)) (dCell (xp c) 3 k)
        ∗ ((sl zrM k).view.loc (c : Thread nD τ) ↦[(sl zrM k).view.set]{fullShare.left} zrC m c)
        ∗ ((sl xrM k).view.loc (xp c : Thread nD τ) ↦[(sl xrM k).view.set]{fullShare} fd)
        ∗ owes (c : Thread nD τ) (O + tallyAt (dCell (xp c) 3 k) () N) W
        ∗ dutyTok ER (dCell c 2 k) 0 false ∗ reached ER (dCell c 2 k) 0
        ∗ dutyTok ER (dCell (xp c) 3 k) 0 false ∗ reached ER (dCell (xp c) 3 k) 0)
      ⊢ iprop(((cred (tallyAt (dCell c 2 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl zrM k) (.remote (Dev.tc n : Thread nD τ) (sl xrM k) (.dma (semAt cc0_scratch5 k)) hsc) (.dma (semAt cc0_scratch6 k)) hsrc hdst hsem) kont) Q) := by
  subst hn
  unfold dCell
  rw [← semAt5_eq k, ← semAt6_eq k]
  exact Rounds.wp_send_pointsTo 𝒱₀ ER (rd m) (c : Thread nD τ) none (κ₁ := Kd (c, 2, k)) (κ₂ := Kd (xp c, 3, k))
    (r₁ := 0) (r₂ := 0) (d₁ := false) (d₂ := false) (fd := fd)
    (by rw [semAt5_eq]; rw [duties_d]; exact Finset.mem_singleton_self _) (by rw [semAt6_eq]; rw [duties_d]; exact Finset.mem_singleton_self _)
    () () N rfl (by rw [semAt5_eq]; exact amount_d m c 2 k false) (by rw [semAt6_eq]; exact amount_d m (xp c) 3 k false) O rfl (W := W)
    (by rw [semAt5_eq, payload_xs]; exact BI.Entails.refl _)
    (by rw [semAt6_eq, payload_xr]; unfold xrPay xrC; rw [xp_xp]
        exact Entails.of_eq (BI.Region.is_congr (copy_zr_xr k fd (zrC m c))))

/-! ## A wait on one of the device's own chunk cells -/

/-- The wait for the chunk's credit on cell (a, k): the cell's one duty's payload comes with it; the device is then at
    round 1 of the cell. `A` is the semaphore array the kernel indexes, `dst` the view whose credit the wait names. -/
theorem step_wait (Kd : Dev nD × Fin 4 × Fin 16 → ℕ) (c : Dev nD) (a : Fin 4) (k : Fin 16) (A : DmaSems sig S16) (hA : semAt A k = dsem a k)
    {sp' : Space} {s' : Shape} {e' : EltTy} {src : Memref sig .tc sp' s' e'} {dst : Memref sig .tc .vmem S32x512 .bf16} (hcr : dst.view.dmaCredit = N)
    {hsrc : src.view.WordExact} {hdst : dst.view.WordExact}
    {α : Type} {Q : α → sProp 𝕄} {kont : PUnit → Prog (TpuEff nD τ sig (Elt F) Λ₀ .tc) α}
    (O : CellTallies nD τ sig Unit) (W : Waits sig Unit) :
    iprop(cellInv ER (rd m) (Kd (c, a, k)) (dCell c a k) ∗ cred (tallyAt (dCell c a k) () N) ∗ owes (c : Thread nD τ) O W
        ∗ MayWait (c : Thread nD τ) (.dma (dsem a k)) () O ∗ atPos ER (dCell c a k) 0 ∅ 0)
      ⊢ iprop(((owes (c : Thread nD τ) O (insert (SemLoc.dma (dsem a k), ()) W) ∗ atPos ER (dCell c a k) 1 ∅ 0 ∗ reached ER (dCell c a k) 1
              ∗ (rd m).payload (dCell c a k) 0 false)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt A k) src dst hsrc hdst) kont) Q) := by
  rw [hA, ← rest_d m c a k]
  unfold dCell
  rw [← hcr]
  exact Rounds.wp_wait_rest_token 𝒱₀ ER (rd m) (c : Thread nD τ) none (κ := Kd (c, a, k))
    (wpE_waitDma2_eq 𝒱₀ (c : Thread nD τ) none Set.univ) (Set.mem_univ _) () (O := O) (W := W) (R := 0) (m := 0) (T := ∅)
    (by rw [Nat.zero_add, hcr]; exact (expect_d m c a k).symm)

/-! ## One chunk's sum: three loads and a store -/

theorem zr_within (k : Fin 16) : (zrM : Memref sig .tc .vmem S512x512 .bf16).view.setOn (rowRect k).toLoadRect.set ⊆ (sl zrM k).view.set :=
  fun i hi => by rw [show (sl zrM k).view.set = (rowRect k).set.map (zrM : Memref sig .tc .vmem S512x512 .bf16).view.emb from View.set_slice _ _]; exact hi
theorem xr_within (k : Fin 16) : (xrM : Memref sig .tc .vmem S512x512 .bf16).view.setOn (rowRect k).toLoadRect.set ⊆ (sl xrM k).view.set :=
  fun i hi => by rw [show (sl xrM k).view.set = (rowRect k).set.map (xrM : Memref sig .tc .vmem S512x512 .bf16).view.emb from View.set_slice _ _]; exact hi

/-- Chunk k of the device's own x half: its own 32 rows plus rows k of the z receive buffer (held at any share),
    stored into the output staging buffer. -/
theorem step_sumA (c : Dev nD) (k : Fin 16) (pay : Vec F S1x32x512 .f32 → Vec F S32x512 .bf16 → FVec F S32x512 .bf16) (hpay : pay = sumBlk)
    {hl1 : (xM : Memref sig .tc .vmem S1x1024x1024 .f32).view.LoadsAt (rx2 c k)} {hl2 : (zrM : Memref sig .tc .vmem S512x512 .bf16).view.LoadsAt (rowRect k).toLoadRect}
    {hl3 : (oM : Memref sig .tc .vmem S1024x512 .bf16).view.LoadsAt (ro3 c k).toLoadRect}
    {hx : ((oM : Memref sig .tc .vmem S1024x512 .bf16).access (ro3 c k)).Stores Finset.univ} {hm : (Finset.univ : Finset (ro3 c k).shape.Idx) = Finset.univ ∨ ∀ a, (ro3 c k).stride a = 1}
    {α : Type} {Q : α → sProp 𝕄} {kont : PUnit → Prog (TpuEff nD τ sig (Elt F) Λ₀ .tc) α}
    (q : PosShare TreeShare) (g : (cc0_stg1_0 : Ref sig .tc).ty.Contents (Elt F)) :
    iprop((((c : Thread nD τ).loc cc0_stg0_0) ↦{fullShare} xstg m c)
        ∗ ((sl zrM k).view.loc (c : Thread nD τ) ↦[(sl zrM k).view.set]{q} zrC m c)
        ∗ (((c : Thread nD τ).loc cc0_stg1_0) ↦{fullShare} g))
      ⊢ iprop((((((c : Thread nD τ).loc cc0_stg0_0) ↦{fullShare} xstg m c)
            ∗ ((sl zrM k).view.loc (c : Thread nD τ) ↦[(sl zrM k).view.set]{q} zrC m c)
            ∗ (((c : Thread nD τ).loc cc0_stg1_0) ↦{fullShare} wrO (ro3 c k) g (payA m c k)))
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.load xM (rx2 c k) hl1) fun v1 => .op (.load zrM (rowRect k).toLoadRect hl2) fun v2 => .op (.load oM (ro3 c k).toLoadRect hl3) fun v3 =>
              .op (.store oM (ro3 c k) (pay v1 v2) Finset.univ hx hm) kont) Q) := by
  subst hpay
  iintro ⟨Hx, Hzr, Hout⟩ Hk
  iapply (wp_load 𝒱₀ (c : Thread nD τ) none Set.univ (m := xM) (Finset.subset_univ _)) $$ Hx; iintro Hx
  iapply (wp_load 𝒱₀ (c : Thread nD τ) none Set.univ (m := zrM) (zr_within k)) $$ Hzr; iintro Hzr
  iapply (wp_load 𝒱₀ (c : Thread nD τ) none Set.univ (m := oM) (Finset.subset_univ _)) $$ Hout; iintro Hout
  iapply (wp_store 𝒱₀ (c : Thread nD τ) none Set.univ (m := oM) (r := ro3 c k) (Mk := Finset.univ) (Finset.subset_univ _)) $$ Hout; iintro Hout
  iapply Hk
  isplitl [Hx]; · iexact Hx
  isplitl [Hzr]; · iexact Hzr
  iexact Hout

/-- Chunk k of the other x half: own rows plus rows k of the x receive buffer. -/
theorem step_sumB (c : Dev nD) (k : Fin 16) (pay : Vec F S1x32x512 .f32 → Vec F S32x512 .bf16 → FVec F S32x512 .bf16) (hpay : pay = sumBlk)
    {hl1 : (xM : Memref sig .tc .vmem S1x1024x1024 .f32).view.LoadsAt (rx4 c k)} {hl2 : (xrM : Memref sig .tc .vmem S512x512 .bf16).view.LoadsAt (rowRect k).toLoadRect}
    {hl3 : (oM : Memref sig .tc .vmem S1024x512 .bf16).view.LoadsAt (ro5 c k).toLoadRect}
    {hx : ((oM : Memref sig .tc .vmem S1024x512 .bf16).access (ro5 c k)).Stores Finset.univ} {hm : (Finset.univ : Finset (ro5 c k).shape.Idx) = Finset.univ ∨ ∀ a, (ro5 c k).stride a = 1}
    {α : Type} {Q : α → sProp 𝕄} {kont : PUnit → Prog (TpuEff nD τ sig (Elt F) Λ₀ .tc) α}
    (q : PosShare TreeShare) (g : (cc0_stg1_0 : Ref sig .tc).ty.Contents (Elt F)) :
    iprop((((c : Thread nD τ).loc cc0_stg0_0) ↦{fullShare} xstg m c)
        ∗ ((sl xrM k).view.loc (c : Thread nD τ) ↦[(sl xrM k).view.set]{q} xrC m c)
        ∗ (((c : Thread nD τ).loc cc0_stg1_0) ↦{fullShare} g))
      ⊢ iprop((((((c : Thread nD τ).loc cc0_stg0_0) ↦{fullShare} xstg m c)
            ∗ ((sl xrM k).view.loc (c : Thread nD τ) ↦[(sl xrM k).view.set]{q} xrC m c)
            ∗ (((c : Thread nD τ).loc cc0_stg1_0) ↦{fullShare} wrO (ro5 c k) g (payB m c k)))
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.load xM (rx4 c k) hl1) fun v1 => .op (.load xrM (rowRect k).toLoadRect hl2) fun v2 => .op (.load oM (ro5 c k).toLoadRect hl3) fun v3 =>
              .op (.store oM (ro5 c k) (pay v1 v2) Finset.univ hx hm) kont) Q) := by
  subst hpay
  iintro ⟨Hx, Hxr, Hout⟩ Hk
  iapply (wp_load 𝒱₀ (c : Thread nD τ) none Set.univ (m := xM) (Finset.subset_univ _)) $$ Hx; iintro Hx
  iapply (wp_load 𝒱₀ (c : Thread nD τ) none Set.univ (m := xrM) (xr_within k)) $$ Hxr; iintro Hxr
  iapply (wp_load 𝒱₀ (c : Thread nD τ) none Set.univ (m := oM) (Finset.subset_univ _)) $$ Hout; iintro Hout
  iapply (wp_store 𝒱₀ (c : Thread nD τ) none Set.univ (m := oM) (r := ro5 c k) (Mk := Finset.univ) (Finset.subset_univ _)) $$ Hout; iintro Hout
  iapply Hk
  isplitl [Hx]; · iexact Hx
  isplitl [Hxr]; · iexact Hxr
  iexact Hout

/-! ## The levels: what a device may wait for while it owes -/

/-- The x-neighbour's x-receive credit of chunk j; the z-neighbour's z-receive credit. -/
abbrev T3 (c : Dev nD) (j : Fin 16) : CellTallies nD τ sig Unit := tallyAt (dCell (xp c) 3 j) () N
abbrev T1 (c : Dev nD) (j : Fin 16) : CellTallies nD τ sig Unit := tallyAt (dCell (zp c) 1 j) () N

theorem tally_pos {g₀ g : GSem nD τ sig} {u : Unit} {n : ℕ} (h : 0 < (tallyAt g₀ () n : CellTallies nD τ sig Unit) g u) : g = g₀ := by
  rw [tallyAt_apply] at h
  by_contra hn
  rw [if_neg (fun h' => hn h'.1)] at h
  exact Nat.lt_irrefl 0 h

theorem listsum_pos (cell : Fin 16 → GSem nD τ sig) (l : List (Fin 16)) {g : GSem nD τ sig} {u : Unit}
    (h : 0 < ((l.map fun j => (tallyAt (cell j) () N : CellTallies nD τ sig Unit)).sum) g u) : ∃ j, g = cell j := by
  induction l with
  | nil => exact absurd h (Nat.lt_irrefl 0)
  | cons a l ih =>
    rw [List.map_cons, List.sum_cons] at h
    rcases Pipeline.add_pos_cases h with h1 | h2
    · exact ⟨a, tally_pos h1⟩
    · exact ih h2

theorem lv_bar (c : Dev nD) : lv (barCell c) () = 1 := rfl
theorem lv_zr (c : Dev nD) (k : Fin 16) : lv (dCell c 1 k) () = 2 := by
  show (if 2 ≤ (dsem 1 k).val ∧ aOf (dsem 1 k) = 1 then 2 else if 2 ≤ (dsem 1 k).val ∧ aOf (dsem 1 k) = 3 then 3 else 0) = 2
  rw [if_pos ⟨two_le_dsem 1 k, aOf1 k⟩]
theorem lv_xr (c : Dev nD) (k : Fin 16) : lv (dCell c 3 k) () = 3 := by
  show (if 2 ≤ (dsem 3 k).val ∧ aOf (dsem 3 k) = 1 then 2 else if 2 ≤ (dsem 3 k).val ∧ aOf (dsem 3 k) = 3 then 3 else 0) = 3
  rw [if_neg (fun h => by have := aOf3 k; omega), if_pos ⟨two_le_dsem 3 k, aOf3 k⟩]

/-- At its barrier wait a device owes receive credits only: cells above its barrier cell. -/
theorem mayWait_bar (c : Dev nD) (l3 l1 : List (Fin 16)) :
    (levAts L lv : sProp 𝕄) ⊢ MayWait (c : Thread nD τ) (.reg barS) () ((l3.map (T3 c)).sum + (l1.map (T1 c)).sum) :=
  Pipeline.mayWait_of_levAts (by rw [L_tc]; exact Finset.mem_singleton_self _) fun g i hg => by
    rcases Pipeline.add_pos_cases hg with h | h
    · obtain ⟨j, rfl⟩ := listsum_pos (fun j => dCell (xp c) 3 j) l3 h
      exact ⟨by rw [L_tc]; exact Finset.mem_singleton_self _, by rw [lv_xr]; show (1 : ℕ) < 3; decide⟩
    · obtain ⟨j, rfl⟩ := listsum_pos (fun j => dCell (zp c) 1 j) l1 h
      exact ⟨by rw [L_tc]; exact Finset.mem_singleton_self _, by rw [lv_zr]; show (1 : ℕ) < 2; decide⟩

/-- At a z-receive wait it owes x-receive credits only. -/
theorem mayWait_zr (c : Dev nD) (k : Fin 16) (l3 : List (Fin 16)) :
    (levAts L lv : sProp 𝕄) ⊢ MayWait (c : Thread nD τ) (.dma (dsem 1 k)) () ((l3.map (T3 c)).sum) :=
  Pipeline.mayWait_of_levAts (by rw [L_tc]; exact Finset.mem_singleton_self _) fun g i hg => by
    obtain ⟨j, rfl⟩ := listsum_pos (fun j => dCell (xp c) 3 j) l3 hg
    exact ⟨by rw [L_tc]; exact Finset.mem_singleton_self _, by rw [lv_xr]; show lv (dCell c 1 k) () < 3; rw [lv_zr]; decide⟩

/-! ## Lists of chunks, and the records read at a cell -/

abbrev ks : List (Fin 16) := [0, 1, 2, 3, 4, 5, 6, 7, 8, 9, 10, 11, 12, 13, 14, 15]
theorem ks_univ : (Finset.univ : Finset (Fin 16)) = ks.toFinset := by decide
theorem ks_nodup : ks.Nodup := by decide

theorem toL (Φ : Fin 16 → sProp 𝕄) : bigSep Finset.univ Φ = bigSepL ks Φ := bigSep_univ_eq_bigSepL ks ks_univ ks_nodup Φ

/-- A family over (array, chunk) as four lists of chunks. -/
theorem lists4 (Φ : Fin 4 → Fin 16 → sProp 𝕄) :
    bigSep Finset.univ (fun ak : Fin 4 × Fin 16 => Φ ak.1 ak.2) = iprop(bigSepL ks (Φ 0) ∗ bigSepL ks (Φ 1) ∗ bigSepL ks (Φ 2) ∗ bigSepL ks (Φ 3)) := by
  rw [bigSep_univ_prod, bigSep_univ_eq_bigSepL [(0 : Fin 4), 1, 2, 3] (by decide) (by decide), bigSepL_cons_cons, bigSepL_cons_cons, bigSepL_cons_cons, bigSepL_singleton,
    toL, toL, toL, toL]
  rfl

variable (Kb : Dev nD → ℕ) (Kd : Dev nD × Fin 4 × Fin 16 → ℕ)

theorem inv_b (c : Dev nD) : records m Kb Kd ⊢ cellInv ER (rd m) (Kb c) (barCell c) := by
  have h : (bigSep Finset.univ fun c : Dev nD => (cellInv ER (rd m) (Kb c) (barCell c) : sProp 𝕄)) ⊢ cellInv ER (rd m) (Kb c) (barCell c) := bigSep_elim (Finset.mem_univ c)
  unfold records; iintro ⟨H, -, -, -⟩; iapply h; iexact H
theorem inv_d (c : Dev nD) (a : Fin 4) (k : Fin 16) : records m Kb Kd ⊢ cellInv ER (rd m) (Kd (c, a, k)) (dCell c a k) := by
  have h : (bigSep Finset.univ fun x : Dev nD × Fin 4 × Fin 16 => (cellInv ER (rd m) (Kd x) (dCell x.1 x.2.1 x.2.2) : sProp 𝕄)) ⊢ cellInv ER (rd m) (Kd (c, a, k)) (dCell c a k) := bigSep_elim (Finset.mem_univ (c, a, k))
  unfold records; iintro ⟨-, H, -, -⟩; iapply h; iexact H
theorem rch_b (c : Dev nD) : records m Kb Kd ⊢ (reached ER (barCell c) 0 : sProp 𝕄) := by
  have h : (bigSep Finset.univ fun c : Dev nD => (reached ER (barCell c) 0 : sProp 𝕄)) ⊢ reached ER (barCell c) 0 := bigSep_elim (Finset.mem_univ c)
  unfold records; iintro ⟨-, -, H, -⟩; iapply h; iexact H
theorem rch_d (c : Dev nD) (a : Fin 4) (k : Fin 16) : records m Kb Kd ⊢ (reached ER (dCell c a k) 0 : sProp 𝕄) := by
  have h : (bigSep Finset.univ fun x : Dev nD × Fin 4 × Fin 16 => (reached ER (dCell x.1 x.2.1 x.2.2) 0 : sProp 𝕄)) ⊢ reached ER (dCell c a k) 0 := bigSep_elim (Finset.mem_univ (c, a, k))
  unfold records; iintro ⟨-, -, -, H⟩; iapply h; iexact H

/-! ## What a device owes, as lists -/

theorem Oxr_list (c : Dev nD) : Oxr c = (ks.map (T3 c)).sum := by
  unfold Oxr; rw [Fin.sum_univ_def]; rfl
theorem Ozr_list (c : Dev nD) : Ozr c = (ks.map (T1 c)).sum := by
  unfold Ozr; rw [Fin.sum_univ_def]; rfl

theorem owes_peel1 (c : Dev nD) (A : CellTallies nD τ sig Unit) (k : Fin 16) (l : List (Fin 16)) (W : Waits sig Unit) :
    (owes (c : Thread nD τ) (A + ((k :: l).map (T1 c)).sum) W : sProp 𝕄) ⊢ owes (c : Thread nD τ) ((A + (l.map (T1 c)).sum) + T1 c k) W :=
  Entails.of_eq (by rw [List.map_cons, List.sum_cons, add_comm (T1 c k), add_assoc])
theorem owes_peel3 (c : Dev nD) (k : Fin 16) (l : List (Fin 16)) (W : Waits sig Unit) :
    (owes (c : Thread nD τ) (((k :: l).map (T3 c)).sum) W : sProp 𝕄) ⊢ owes (c : Thread nD τ) ((l.map (T3 c)).sum + T3 c k) W :=
  Entails.of_eq (by rw [List.map_cons, List.sum_cons, add_comm])
theorem owes_nil1 (c : Dev nD) (A : CellTallies nD τ sig Unit) (W : Waits sig Unit) :
    (owes (c : Thread nD τ) (A + (([] : List (Fin 16)).map (T1 c)).sum) W : sProp 𝕄) ⊢ owes (c : Thread nD τ) A W :=
  Entails.of_eq (by rw [List.map_nil, List.sum_nil, add_zero])
theorem owes_nil3 (c : Dev nD) (W : Waits sig Unit) :
    (owes (c : Thread nD τ) ((([] : List (Fin 16)).map (T3 c)).sum) W : sProp 𝕄) ⊢ owes (c : Thread nD τ) 0 W :=
  Entails.of_eq (by rw [List.map_nil, List.sum_nil])

/-- The head of a list of chunks. -/
theorem peelL (k : Fin 16) (l : List (Fin 16)) (Φ : Fin 16 → sProp 𝕄) : bigSepL (k :: l) Φ = iprop(Φ k ∗ bigSepL l Φ) := bigSepL_cons k l Φ

/-- A list grown at its end. -/
theorem bigSepL_snoc (l : List (Fin 16)) (k : Fin 16) (Φ : Fin 16 → sProp 𝕄) : iprop(bigSepL l Φ ∗ Φ k) ⊢ bigSepL (l ++ [k]) Φ := by
  induction l with
  | nil => rw [List.nil_append, bigSepL_singleton, bigSepL_nil]; iintro ⟨-, H⟩; iexact H
  | cons a l ih =>
    rw [List.cons_append, peelL, peelL]
    iintro ⟨⟨Ha, Hl⟩, Hk⟩
    isplitl [Ha]; · iexact Ha
    iapply ih
    isplitl [Hl]; · iexact Hl
    iexact Hk

end Cert.KernelProof

end
-- ==== Proof.KernelOut.lean ====
/-
The output staging buffer after the 32 chunk stores.

The buffer has 1024 rows of 512 entries.  Store j < 16 writes the 32 rows starting at row 512·x + 32·j (x the
device's coordinate on the x axis, c / 4), store 16 + k the 32 rows starting at row 32·k + 512 − 512·x: the 32
row bands are pairwise disjoint and together they are all 1024 rows.  So after the 32 stores every entry of the
buffer is the entry of the block whose band holds its row, whatever the buffer held before.
-/
import proofs.«901028_g7700000000001029_dist_rs_v7x_xyz2x2x2_z_m1024_n512_bf16_1_alg».proof.Proof.KernelSetup
import Idealize.ShloMosaic.Lib.Pipeline.Value

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One store, read at an index -/

/-- At an index of the stored rectangle the store leaves the block's entry. -/
theorem wrO_emb (r : Rect S1024x512) (f : (cc0_stg1_0 : Ref sig .tc).ty.Contents (Elt F)) (w : r.shape.Idx → Elt F .bf16)
    (y : r.shape.Idx) : wrO r f w (r.emb y) = w y := by
  have h := View.write_emb_of_mem (v := ((oM : Memref sig .tc .vmem S1024x512 .bf16).access r : View sig .tc _ _ _))
    (Val := Elt F) f w (M := Finset.univ) (x := y) (Finset.mem_univ _)
  exact h

/-- At an index that is no index of the stored rectangle the store changes nothing. -/
theorem wrO_off (r : Rect S1024x512) (f : (cc0_stg1_0 : Ref sig .tc).ty.Contents (Elt F)) (w : r.shape.Idx → Elt F .bf16)
    (i : S1024x512.Idx) (h : ∀ y : r.shape.Idx, r.emb y ≠ i) : wrO r f w i = f i := by
  unfold wrO View.write
  rw [preimage?_eq_none (emb := ((oM : Memref sig .tc .vmem S1024x512 .bf16).access r : View sig .tc _ _ _).emb) (y := i)
    (fun x => h x)]

/-! ## The row bands -/

theorem off3_row (c : Dev nD) (k : Fin 16) :
    k0_off3 c (BitVec.ofNat 32 (32 * k.val)) (0 : Fin 2) = 512 * (c.val / 4) + 32 * k.val := congrFun (k0_off3_eq c k) 0
theorem off3_col (c : Dev nD) (k : Fin 16) : k0_off3 c (BitVec.ofNat 32 (32 * k.val)) (1 : Fin 2) = 0 := congrFun (k0_off3_eq c k) 1
theorem off5_row (c : Dev nD) (k : Fin 16) :
    k0_off5 c (BitVec.ofNat 32 (32 * k.val)) (0 : Fin 2) = (32 * k.val + 512) - 512 * (c.val / 4) := congrFun (k0_off5_eq c k) 0
theorem off5_col (c : Dev nD) (k : Fin 16) : k0_off5 c (BitVec.ofNat 32 (32 * k.val)) (1 : Fin 2) = 0 := congrFun (k0_off5_eq c k) 1

/-- The row of an index of band k of the first sixteen. -/
theorem ro3_row (c : Dev nD) (k : Fin 16) (y : (ro3 c k).shape.Idx) :
    ((ro3 c k).emb y (0 : Fin 2)).val = 512 * (c.val / 4) + 32 * k.val + (y (0 : Fin 2)).val := by
  rw [Rect.emb_apply]; show k0_off3 c (BitVec.ofNat 32 (32 * k.val)) (0 : Fin 2) + 1 * (y (0 : Fin 2)).val = _
  rw [off3_row, Nat.one_mul]
/-- The row of an index of band k of the other sixteen. -/
theorem ro5_row (c : Dev nD) (k : Fin 16) (y : (ro5 c k).shape.Idx) :
    ((ro5 c k).emb y (0 : Fin 2)).val = (32 * k.val + 512) - 512 * (c.val / 4) + (y (0 : Fin 2)).val := by
  rw [Rect.emb_apply]; show k0_off5 c (BitVec.ofNat 32 (32 * k.val)) (0 : Fin 2) + 1 * (y (0 : Fin 2)).val = _
  rw [off5_row, Nat.one_mul]

theorem ro3_lt (c : Dev nD) (k : Fin 16) (y : (ro3 c k).shape.Idx) : (y (0 : Fin 2)).val < 32 := (y (0 : Fin 2)).isLt
theorem ro5_lt (c : Dev nD) (k : Fin 16) (y : (ro5 c k).shape.Idx) : (y (0 : Fin 2)).val < 32 := (y (0 : Fin 2)).isLt

/-- An index whose coordinates lie in a unit-stride rectangle's span on every axis is an index of the rectangle. -/
theorem exists_emb_unit {s : Shape} (off size : Fin s.rank → Nat) (inb : ∀ a, off a + size a ≤ s.size a) (i : s.Idx)
    (h : ∀ a, off a ≤ (i a).val ∧ (i a).val < off a + size a) :
    ∃ y : (Rect.unit off size inb).shape.Idx, i = (Rect.unit off size inb).emb y :=
  ⟨fun a => ⟨(i a).val - off a, by have := h a; show (i a).val - off a < size a; omega⟩, funext fun a => Fin.ext (by
    rw [Rect.emb_apply]; show (i a).val = off a + 1 * ((i a).val - off a); have := h a; omega)⟩

/-- Every index of the buffer lies in one of the 32 bands. -/
theorem out_cover (c : Dev nD) (i : S1024x512.Idx) : (∃ k y, i = (ro3 c k).emb y) ∨ (∃ k y, i = (ro5 c k).emb y) := by
  have hc := c.isLt
  have h0 : (i (0 : Fin 2)).val < 1024 := (i (0 : Fin 2)).isLt
  have h1 : (i (1 : Fin 2)).val < 512 := (i (1 : Fin 2)).isLt
  have hx : c.val / 4 = 0 ∨ c.val / 4 = 1 := by have : c.val < 8 := hc; omega
  by_cases hb : 512 * (c.val / 4) ≤ (i (0 : Fin 2)).val ∧ (i (0 : Fin 2)).val < 512 * (c.val / 4) + 512
  · left
    refine ⟨⟨((i (0 : Fin 2)).val - 512 * (c.val / 4)) / 32, by omega⟩, ?_⟩
    refine exists_emb_unit _ _ _ i (Fin.forall_fin_two.mpr ⟨?_, ?_⟩)
    · rw [off3_row]; show _ ∧ _ < _ + 32; dsimp only; omega
    · rw [off3_col]; show _ ∧ _ < _ + 512; omega
  · right
    refine ⟨⟨((i (0 : Fin 2)).val - (512 - 512 * (c.val / 4))) / 32, by omega⟩, ?_⟩
    refine exists_emb_unit _ _ _ i (Fin.forall_fin_two.mpr ⟨?_, ?_⟩)
    · rw [off5_row]; show _ ∧ _ < _ + 32; dsimp only; omega
    · rw [off5_col]; show _ ∧ _ < _ + 512; omega

/-! ## The stores one at a time -/

theorem outSt_succ_A (c : Dev nD) (g : (cc0_stg1_0 : Ref sig .tc).ty.Contents (Elt F)) (k : Fin 16) :
    outSt m c g (k.val + 1) = wrO (ro3 c k) (outSt m c g k.val) (payA m c k) := by
  show (if h : k.val < 16 then wrO (ro3 c ⟨k.val, h⟩) (outSt m c g k.val) (payA m c ⟨k.val, h⟩) else _) = _
  rw [dif_pos k.isLt]

theorem outSt_succ_B (c : Dev nD) (g : (cc0_stg1_0 : Ref sig .tc).ty.Contents (Elt F)) (k : Fin 16) :
    outSt m c g (16 + k.val + 1) = wrO (ro5 c k) (outSt m c g (16 + k.val)) (payB m c k) := by
  have e : ∀ p, (⟨(16 + k.val - 16) % 16, p⟩ : Fin 16) = k := fun p => Fin.ext (by have := k.isLt; show (16 + k.val - 16) % 16 = k.val; omega)
  show (if h : 16 + k.val < 16 then _ else wrO (ro5 c ⟨(16 + k.val - 16) % 16, _⟩) (outSt m c g (16 + k.val)) (payB m c ⟨(16 + k.val - 16) % 16, _⟩)) = _
  rw [dif_neg (by omega), e]

/-! ## The bands are pairwise disjoint -/

theorem ne_of_row {i i' : S1024x512.Idx} (h : (i (0 : Fin 2)).val ≠ (i' (0 : Fin 2)).val) : i ≠ i' := fun e => h (by rw [e])

theorem ro3_ne_ro3 (c : Dev nD) {j k : Fin 16} (hjk : j ≠ k) (y' : (ro3 c j).shape.Idx) (y : (ro3 c k).shape.Idx) :
    (ro3 c j).emb y' ≠ (ro3 c k).emb y :=
  ne_of_row (by
    rw [ro3_row, ro3_row]
    have := ro3_lt c j y'; have := ro3_lt c k y; have : j.val ≠ k.val := fun h => hjk (Fin.ext h); omega)

theorem ro5_ne_ro5 (c : Dev nD) {j k : Fin 16} (hjk : j ≠ k) (y' : (ro5 c j).shape.Idx) (y : (ro5 c k).shape.Idx) :
    (ro5 c j).emb y' ≠ (ro5 c k).emb y :=
  ne_of_row (by
    rw [ro5_row, ro5_row]
    have := ro5_lt c j y'; have := ro5_lt c k y; have : j.val ≠ k.val := fun h => hjk (Fin.ext h)
    have := j.isLt; have := k.isLt; have : c.val < 8 := c.isLt; omega)

theorem ro5_ne_ro3 (c : Dev nD) (j k : Fin 16) (y' : (ro5 c j).shape.Idx) (y : (ro3 c k).shape.Idx) :
    (ro5 c j).emb y' ≠ (ro3 c k).emb y :=
  ne_of_row (by
    rw [ro5_row, ro3_row]
    have := ro5_lt c j y'; have := ro3_lt c k y
    have := j.isLt; have := k.isLt; have : c.val < 8 := c.isLt; omega)

/-! ## The buffer after n stores, at an index of a band already stored -/

/-- Among the first sixteen stores: once band k is stored its entries stay. -/
theorem outSt_A_le (c : Dev nD) (g : (cc0_stg1_0 : Ref sig .tc).ty.Contents (Elt F)) (k : Fin 16) (y : (ro3 c k).shape.Idx) :
    ∀ n, n ≤ 16 → k.val < n → outSt m c g n ((ro3 c k).emb y) = payA m c k y := by
  intro n
  induction n with
  | zero => intro _ h; omega
  | succ n ih =>
    intro hn hk
    have hn' : n < 16 := hn
    refine (congrFun (outSt_succ_A m c g ⟨n, hn'⟩) _).trans ?_
    by_cases e : k = ⟨n, hn'⟩
    · subst e; exact wrO_emb _ _ _ y
    · rw [wrO_off _ _ _ _ (fun y' => ro3_ne_ro3 c (Ne.symm e) y' y)]
      exact ih (by omega) (by have : k.val ≠ n := fun h => e (Fin.ext h); omega)

/-- The other sixteen stores leave the first sixteen bands alone. -/
theorem outSt_A_ge (c : Dev nD) (g : (cc0_stg1_0 : Ref sig .tc).ty.Contents (Elt F)) (k : Fin 16) (y : (ro3 c k).shape.Idx) :
    ∀ j, j ≤ 16 → outSt m c g (16 + j) ((ro3 c k).emb y) = payA m c k y := by
  intro j
  induction j with
  | zero => intro _; exact outSt_A_le m c g k y 16 (Nat.le_refl _) k.isLt
  | succ j ih =>
    intro hj
    have hj' : j < 16 := hj
    refine (congrFun (outSt_succ_B m c g ⟨j, hj'⟩) _).trans ?_
    rw [wrO_off _ _ _ _ (fun y' => ro5_ne_ro3 c _ k y' y)]
    exact ih (by omega)

/-- Among the other sixteen stores: once band k is stored its entries stay. -/
theorem outSt_B_ge (c : Dev nD) (g : (cc0_stg1_0 : Ref sig .tc).ty.Contents (Elt F)) (k : Fin 16) (y : (ro5 c k).shape.Idx) :
    ∀ j, j ≤ 16 → k.val < j → outSt m c g (16 + j) ((ro5 c k).emb y) = payB m c k y := by
  intro j
  induction j with
  | zero => intro _ h; omega
  | succ j ih =>
    intro hj hk
    have hj' : j < 16 := hj
    refine (congrFun (outSt_succ_B m c g ⟨j, hj'⟩) _).trans ?_
    by_cases e : k = ⟨j, hj'⟩
    · subst e; exact wrO_emb _ _ _ y
    · rw [wrO_off _ _ _ _ (fun y' => ro5_ne_ro5 c (Ne.symm e) y' y)]
      exact ih (by omega) (by have : k.val ≠ j := fun h => e (Fin.ext h); omega)

/-! ## The result -/

/-- After all 32 stores an entry of one of the first sixteen bands is its block's entry, whatever the start, -/
theorem outSt_32_A (c : Dev nD) (g : (cc0_stg1_0 : Ref sig .tc).ty.Contents (Elt F)) (k : Fin 16) (y : (ro3 c k).shape.Idx) :
    outSt m c g 32 ((ro3 c k).emb y) = payA m c k y := outSt_A_ge m c g k y 16 (Nat.le_refl _)
/-- and an entry of one of the other sixteen bands likewise. -/
theorem outSt_32_B (c : Dev nD) (g : (cc0_stg1_0 : Ref sig .tc).ty.Contents (Elt F)) (k : Fin 16) (y : (ro5 c k).shape.Idx) :
    outSt m c g 32 ((ro5 c k).emb y) = payB m c k y := outSt_B_ge m c g k y 16 (Nat.le_refl _) k.isLt

theorem outAt_A (c : Dev nD) (k : Fin 16) (y : (ro3 c k).shape.Idx) : outAt m c ((ro3 c k).emb y) = payA m c k y :=
  outSt_32_A m c _ k y
theorem outAt_B (c : Dev nD) (k : Fin 16) (y : (ro5 c k).shape.Idx) : outAt m c ((ro5 c k).emb y) = payB m c k y :=
  outSt_32_B m c _ k y

/-- All 1024 rows are overwritten, so the start does not matter. -/
theorem outSt_cover (c : Dev nD) (g : (cc0_stg1_0 : Ref sig .tc).ty.Contents (Elt F)) : outSt m c g 32 = outAt m c := by
  funext i
  rcases out_cover c i with ⟨k, y, rfl⟩ | ⟨k, y, rfl⟩
  · rw [outSt_32_A, outAt_A]
  · rw [outSt_32_B, outAt_B]

/-- info: 'Cert.KernelProof.outSt_cover' depends on axioms: [propext, Classical.choice, Quot.sound] -/
#guard_msgs in #print axioms outSt_cover

end Cert.KernelProof

end
-- ==== Proof.KernelAux.lean ====
/-
Two families of facts for the body proof of the two-hop reduce-scatter.

1. A 512×512 scratch buffer is the separating conjunction of its 16 chunks of 32 rows: the chunks' rows are
   pairwise different rows, and row r lies in chunk r / 32.
2. Once a device's 64 chunk cells stand at round 1, where the schedule has no duty left, each cell's invariant
   can be closed, which leaves its counter at zero.
-/
import proofs.«901028_g7700000000001029_dist_rs_v7x_xyz2x2x2_z_m1024_n512_bf16_1_alg».proof.Proof.KernelSetup
import proofs.«901028_g7700000000001029_dist_rs_v7x_xyz2x2x2_z_m1024_n512_bf16_1_alg».proof.Proof.KernelSteps
import Idealize.ShloMosaic.Rules.PointsTo
import Idealize.ShloMosaic.Lib.Rounds
import Idealize.ShloMosaic.Lib.Pipeline.Kit

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A 512×512 buffer is its sixteen chunks of 32 rows -/

/-- Chunks k ≠ k' are separated on the row axis: one's 32 rows end before the other's begin. -/
theorem rowRect_disjoint {k k' : Fin 16} (h : k ≠ k') : Disjoint (rowRect k).set (rowRect k').set := by
  refine Rect.unit_disjoint (s := S512x512) (0 : Fin 2) ?_
  have hne : k.val ≠ k'.val := fun e => h (Fin.ext e)
  show 32 * k.val + 32 ≤ 32 * k'.val ∨ 32 * k'.val + 32 ≤ 32 * k.val
  omega

/-- Row r < 512 lies in chunk r / 32; the column is unconstrained. -/
theorem rowRect_mem (i : S512x512.Idx) : ∃ k : Fin 16, i ∈ (rowRect k).set := by
  have h0 : ((i (0 : Fin 2) : Fin 512) : Nat) < 512 := (i (0 : Fin 2)).isLt
  have h1 : ((i (1 : Fin 2) : Fin 512) : Nat) < 512 := (i (1 : Fin 2)).isLt
  refine ⟨⟨(i (0 : Fin 2) : Nat) / 32, by omega⟩, Rect.mem_set_unit.mpr ?_⟩
  refine Fin.forall_fin_two.mpr ⟨?_, ?_⟩
  · show 32 * ((i (0 : Fin 2) : Nat) / 32) ≤ (i (0 : Fin 2) : Nat) ∧ (i (0 : Fin 2) : Nat) < 32 * ((i (0 : Fin 2) : Nat) / 32) + 32
    omega
  · show 0 ≤ (i (1 : Fin 2) : Nat) ∧ (i (1 : Fin 2) : Nat) < 0 + 512
    omega

/-- The elements of chunk k of a whole 512×512 buffer are the chunk's rectangle. -/
theorem set_sl_zs (k : Fin 16) : (sl zsM k).view.set = (rowRect k).set := View.set_slice_whole cc0_scratch0 (rowRect k)
theorem set_sl_zr (k : Fin 16) : (sl zrM k).view.set = (rowRect k).set := View.set_slice_whole cc0_scratch1 (rowRect k)
theorem set_sl_xr (k : Fin 16) : (sl xrM k).view.set = (rowRect k).set := View.set_slice_whole cc0_scratch2 (rowRect k)

theorem chunks_zs (c : Dev nD) (q : PosShare TreeShare) (f : Buf (Elt F) ((c : Thread nD τ).loc cc0_scratch0)) :
    (((c : Thread nD τ).loc cc0_scratch0) ↦{q} f : sProp 𝕄)
      ⊣⊢ bigSepL ks fun k => ((sl zsM k).view.loc (c : Thread nD τ) ↦[(sl zsM k).view.set]{q} f) := by
  refine BIBase.BiEntails.of_eq ?_
  rw [← bigSep_univ_eq_bigSepL ks ks_univ ks_nodup]
  have h : (((c : Thread nD τ).loc cc0_scratch0) ↦[Finset.univ.biUnion fun k : Fin 16 => (sl zsM k).view.set]{q} f : sProp 𝕄)
      = bigSep Finset.univ fun k : Fin 16 => ((sl zsM k).view.loc (c : Thread nD τ) ↦[(sl zsM k).view.set]{q} f) :=
    pointsTo_biUnion Finset.univ _ fun k _ k' _ hkk => by rw [set_sl_zs, set_sl_zs]; exact rowRect_disjoint hkk
  rw [← h]
  refine congrArg (fun I => (((c : Thread nD τ).loc cc0_scratch0) ↦[I]{q} f : sProp 𝕄)) (Finset.ext fun i => ?_)
  simp only [Finset.mem_biUnion, Finset.mem_univ, true_and, true_iff]
  obtain ⟨k, hk⟩ := rowRect_mem i
  exact ⟨k, by rw [set_sl_zs]; exact hk⟩

theorem chunks_zr (c : Dev nD) (q : PosShare TreeShare) (f : Buf (Elt F) ((c : Thread nD τ).loc cc0_scratch1)) :
    (((c : Thread nD τ).loc cc0_scratch1) ↦{q} f : sProp 𝕄)
      ⊣⊢ bigSepL ks fun k => ((sl zrM k).view.loc (c : Thread nD τ) ↦[(sl zrM k).view.set]{q} f) := by
  refine BIBase.BiEntails.of_eq ?_
  rw [← bigSep_univ_eq_bigSepL ks ks_univ ks_nodup]
  have h : (((c : Thread nD τ).loc cc0_scratch1) ↦[Finset.univ.biUnion fun k : Fin 16 => (sl zrM k).view.set]{q} f : sProp 𝕄)
      = bigSep Finset.univ fun k : Fin 16 => ((sl zrM k).view.loc (c : Thread nD τ) ↦[(sl zrM k).view.set]{q} f) :=
    pointsTo_biUnion Finset.univ _ fun k _ k' _ hkk => by rw [set_sl_zr, set_sl_zr]; exact rowRect_disjoint hkk
  rw [← h]
  refine congrArg (fun I => (((c : Thread nD τ).loc cc0_scratch1) ↦[I]{q} f : sProp 𝕄)) (Finset.ext fun i => ?_)
  simp only [Finset.mem_biUnion, Finset.mem_univ, true_and, true_iff]
  obtain ⟨k, hk⟩ := rowRect_mem i
  exact ⟨k, by rw [set_sl_zr]; exact hk⟩

theorem chunks_xr (c : Dev nD) (q : PosShare TreeShare) (f : Buf (Elt F) ((c : Thread nD τ).loc cc0_scratch2)) :
    (((c : Thread nD τ).loc cc0_scratch2) ↦{q} f : sProp 𝕄)
      ⊣⊢ bigSepL ks fun k => ((sl xrM k).view.loc (c : Thread nD τ) ↦[(sl xrM k).view.set]{q} f) := by
  refine BIBase.BiEntails.of_eq ?_
  rw [← bigSep_univ_eq_bigSepL ks ks_univ ks_nodup]
  have h : (((c : Thread nD τ).loc cc0_scratch2) ↦[Finset.univ.biUnion fun k : Fin 16 => (sl xrM k).view.set]{q} f : sProp 𝕄)
      = bigSep Finset.univ fun k : Fin 16 => ((sl xrM k).view.loc (c : Thread nD τ) ↦[(sl xrM k).view.set]{q} f) :=
    pointsTo_biUnion Finset.univ _ fun k _ k' _ hkk => by rw [set_sl_xr, set_sl_xr]; exact rowRect_disjoint hkk
  rw [← h]
  refine congrArg (fun I => (((c : Thread nD τ).loc cc0_scratch2) ↦[I]{q} f : sProp 𝕄)) (Finset.ext fun i => ?_)
  simp only [Finset.mem_biUnion, Finset.mem_univ, true_and, true_iff]
  obtain ⟨k, hk⟩ := rowRect_mem i
  exact ⟨k, by rw [set_sl_xr]; exact hk⟩

/-! ## Closing a device's 64 chunk cells -/

variable (m : (ℓ : Loc nD τ sig) → Buf (Elt F) ℓ)

/-- One cell: past round 0 the schedule has no duty, so the cell at round 1 with nothing taken closes, its counter at zero. -/
theorem close_cell (Kb : Dev nD → ℕ) (Kd : Dev nD × Fin 4 × Fin 16 → ℕ) (c : Dev nD) (ak : Fin 4 × Fin 16) :
    iprop(records m Kb Kd ∗ atPos ER (dCell c ak.1 ak.2) 1 ∅ 0)
      ⊢ (iprop(|={Set.univ}=> semVal ((c : Thread nD τ), osem ak) 0) : sProp 𝕄) :=
  (sep_mono_left (inv_d m Kb Kd c ak.1 ak.2)).trans
    (Rounds.cell_close ER (rd m) (Set.mem_univ (Kd (c, ak.1, ak.2))) (fun h => h) (R := 1) (duties_later m (dCell c ak.1 ak.2)))

/-- The four listed families of positions are the one family over (array, chunk). -/
theorem atPos_lists (c : Dev nD) :
    (iprop((bigSepL ks fun k => atPos ER (dCell c 0 k) 1 ∅ 0) ∗ (bigSepL ks fun k => atPos ER (dCell c 1 k) 1 ∅ 0)
        ∗ (bigSepL ks fun k => atPos ER (dCell c 2 k) 1 ∅ 0) ∗ (bigSepL ks fun k => atPos ER (dCell c 3 k) 1 ∅ 0)) : sProp 𝕄)
      = bigSep Finset.univ fun ak : Fin 4 × Fin 16 => atPos ER (dCell c ak.1 ak.2) 1 ∅ 0 := by
  rw [bigSep_univ_prod, bigSep_univ_eq_bigSepL ([0, 1, 2, 3] : List (Fin 4)) (by decide) (by decide)]
  simp only [bigSepL_cons_cons, bigSepL_singleton, bigSep_univ_eq_bigSepL ks ks_univ ks_nodup]
  rfl

/-- All 64: the records are persistent, so each position meets its own cell's invariant, and the 64 updates combine. -/
theorem close_cells (Kb : Dev nD → ℕ) (Kd : Dev nD × Fin 4 × Fin 16 → ℕ) (c : Dev nD) :
    iprop(records m Kb Kd ∗ (bigSepL ks fun k => atPos ER (dCell c 0 k) 1 ∅ 0) ∗ (bigSepL ks fun k => atPos ER (dCell c 1 k) 1 ∅ 0)
        ∗ (bigSepL ks fun k => atPos ER (dCell c 2 k) 1 ∅ 0) ∗ (bigSepL ks fun k => atPos ER (dCell c 3 k) 1 ∅ 0))
      ⊢ |={Set.univ}=> (bigSep Finset.univ fun ak : Fin 4 × Fin 16 => semVal ((c : Thread nD τ), osem ak) 0 : sProp 𝕄) := by
  rw [atPos_lists]
  exact (bigSep_with_persistent fun ak _ => close_cell m Kb Kd c ak).trans (bigSep_fupd _ _)

/-- info: 'Cert.KernelProof.chunks_zs' depends on axioms: [propext, Classical.choice, Quot.sound] -/
#guard_msgs in #print axioms chunks_zs
/-- info: 'Cert.KernelProof.chunks_zr' depends on axioms: [propext, Classical.choice, Quot.sound] -/
#guard_msgs in #print axioms chunks_zr
/-- info: 'Cert.KernelProof.chunks_xr' depends on axioms: [propext, Classical.choice, Quot.sound] -/
#guard_msgs in #print axioms chunks_xr
/-- info: 'Cert.KernelProof.close_cells' depends on axioms: [propext, Classical.choice, Quot.sound] -/
#guard_msgs in #print axioms close_cells

end Cert.KernelProof

end
-- ==== Proof.KernelBody.lean ====
/-
One device's body: from the start (ghost state, launch credit, levels, the three scratch buffers, the two staging
buffers) through the entry handshake, the 16 z transfers, the 16 forwarded chunks with their sums, the 16 sums of
the x-neighbour's chunks and the 32 send waits, to the scratch buffers back whole, the own cells closed and the
output staging buffer at the computed contents.
-/
import proofs.«901028_g7700000000001029_dist_rs_v7x_xyz2x2x2_z_m1024_n512_bf16_1_alg».proof.Proof.KernelSteps
import proofs.«901028_g7700000000001029_dist_rs_v7x_xyz2x2x2_z_m1024_n512_bf16_1_alg».proof.Proof.KernelOut
import proofs.«901028_g7700000000001029_dist_rs_v7x_xyz2x2x2_z_m1024_n512_bf16_1_alg».proof.Proof.KernelAux

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer held whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from at the one grid point. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it leaves. -/
def bodyPost (c : Dev nD) : sProp 𝕄 :=
  iprop(Φ₁ c ∗ (dats m 0 c).owesAt () t₀.succ ∗ stg c cc0_stg0_0 (xstg m c) ∗ stg c cc0_stg1_0 (outAt m c))

/-! ## The entry handshake's payloads -/

omit [FloatOps F] in
theorem set_zr : (zrM : Memref sig .tc .vmem S512x512 .bf16).view.set = Finset.univ := View.set_whole _
omit [FloatOps F] in
theorem set_xr : (xrM : Memref sig .tc .vmem S512x512 .bf16).view.set = Finset.univ := View.set_whole _

/-- A device hands its z receive buffer to its z-neighbour (whose barrier cell's duty `false` it pays); -/
theorem barZ_give (c : Dev nD) (f : Buf (Elt F) ((c : Thread nD τ).loc cc0_scratch1)) :
    ((((c : Thread nD τ).loc cc0_scratch1) ↦{fullShare} f) : sProp 𝕄) ⊢ (rd m).payload (barCell (zp c)) 0 false := by
  rw [payload_bar_false]; unfold barPayZ; rw [zp_zp, set_zr]
  iintro H; iexists f; iexact H
/-- its x receive buffer to its x-neighbour (duty `true`). -/
theorem barX_give (c : Dev nD) (f : Buf (Elt F) ((c : Thread nD τ).loc cc0_scratch2)) :
    ((((c : Thread nD τ).loc cc0_scratch2) ↦{fullShare} f) : sProp 𝕄) ⊢ (rd m).payload (barCell (xp c)) 0 true := by
  rw [payload_bar_true]; unfold barPayX; rw [xp_xp, set_xr]
  iintro H; iexists f; iexact H
/-- With its barrier's two units a device holds both neighbours' receive buffers. -/
theorem bar_take (c : Dev nD) :
    bigSep ((rd (F := F) m).duties (barCell c) 0 \ ∅) (fun d => (rd (F := F) m).payload (barCell c) 0 d)
      ⊢ iprop(whole (F := F) (zp c) cc0_scratch1 ∗ whole (F := F) (xp c) cc0_scratch2) := by
  rw [rest_bar]; unfold barPayZ barPayX; rw [set_zr, set_xr]

omit [FloatOps F] in
theorem hz2 : (![0, 0] : Fin 2 → Nat) = fun _ => 0 := funext fun a => by fin_cases a <;> rfl

/-! ## The chunk cells' payloads, spelt out -/

theorem pay_zs (c : Dev nD) (k : Fin 16) (d : Bool) : (rd (F := F) m).payload (dCell c 0 k) 0 d
    = (((sl zsM k).view.loc (c : Thread nD τ) ↦[(sl zsM k).view.set]{fullShare} (zsC m c)) : sProp 𝕄) := payload_zs m c k d
theorem pay_zr (c : Dev nD) (k : Fin 16) (d : Bool) : (rd (F := F) m).payload (dCell c 1 k) 0 d
    = (((sl zrM k).view.loc (c : Thread nD τ) ↦[(sl zrM k).view.set]{fullShare} (zrC m c)) : sProp 𝕄) := payload_zr m c k d
theorem pay_xs (c : Dev nD) (k : Fin 16) (d : Bool) : (rd (F := F) m).payload (dCell c 2 k) 0 d
    = (((sl zrM k).view.loc (c : Thread nD τ) ↦[(sl zrM k).view.set]{fullShare.left} (zrC m c)) : sProp 𝕄) := payload_xs m c k d
theorem pay_xr (c : Dev nD) (k : Fin 16) (d : Bool) : (rd (F := F) m).payload (dCell c 3 k) 0 d
    = (((sl xrM k).view.loc (c : Thread nD τ) ↦[(sl xrM k).view.set]{fullShare} (xrC m c)) : sProp 𝕄) := payload_xr m c k d

/-- What the device owes at the end: nothing, whatever waits it recorded. -/
theorem owes_fin (c : Dev nD) (W : Waits sig Unit) :
    (owes (c : Thread nD τ) 0 W : sProp 𝕄) ⊢ (dats m 0 c).owesAt () t₀.succ := by
  unfold Dat.owesAt Pipeline.owesWithin
  rw [show (dats m 0 c).owed t₀.succ = 0 from rfl]
  iintro H
  iexists W
  isplitr; · ipureintro; exact fun _ _ => Or.inl trivial
  iexact H

/-! ## Bookkeeping for the lists of chunks -/

theorem nilOf (P : sProp 𝕄) (Φ : Fin 16 → sProp 𝕄) : P ⊢ bigSepL [] Φ := by rw [bigSepL_nil]; iintro -; iempintro
theorem accL (k : Fin 16) (l : List (Fin 16)) (Φ : Fin 16 → sProp 𝕄) : iprop(Φ k ∗ bigSepL l Φ) ⊢ bigSepL (k :: l) Φ :=
  Entails.of_eq (peelL k l Φ).symm
abbrev rks : List (Fin 16) := [15, 14, 13, 12, 11, 10, 9, 8, 7, 6, 5, 4, 3, 2, 1, 0]
theorem revL (Φ : Fin 16 → sProp 𝕄) : bigSepL rks Φ = bigSepL ks Φ :=
  (bigSep_univ_eq_bigSepL rks (by decide) (by decide) Φ).symm.trans (toL Φ)

theorem pts_halves {ℓ : Loc nD τ sig} (I : Finset (Idx ℓ)) (f : Buf (Elt F) ℓ) :
    (ℓ ↦[I]{fullShare} f : sProp 𝕄) ⊣⊢ iprop((ℓ ↦[I]{fullShare.left} f) ∗ (ℓ ↦[I]{fullShare.right} f)) :=
  BI.Region.is_share (IsOp.posShare_halves fullShare).mem_op

/-! ## The output staging buffer, store by store -/

theorem out_start (c : Dev nD) (g : (cc0_stg1_0 : Ref sig .tc).ty.Contents (Elt F)) :
    ((((c : Thread nD τ).loc cc0_stg1_0) ↦{fullShare} g) : sProp 𝕄) ⊢ (((c : Thread nD τ).loc cc0_stg1_0) ↦{fullShare} outSt m c g 0) := .rfl
theorem out_stepA (c : Dev nD) (g : (cc0_stg1_0 : Ref sig .tc).ty.Contents (Elt F)) (k : Fin 16) (n : ℕ) (hn : n = k.val) :
    ((((c : Thread nD τ).loc cc0_stg1_0) ↦{fullShare} wrO (ro3 c k) (outSt m c g n) (payA m c k)) : sProp 𝕄)
      ⊢ (((c : Thread nD τ).loc cc0_stg1_0) ↦{fullShare} outSt m c g (n + 1)) := by
  subst hn; rw [outSt_succ_A]
theorem out_stepB (c : Dev nD) (g : (cc0_stg1_0 : Ref sig .tc).ty.Contents (Elt F)) (k : Fin 16) (n : ℕ) (hn : n = 16 + k.val) :
    ((((c : Thread nD τ).loc cc0_stg1_0) ↦{fullShare} wrO (ro5 c k) (outSt m c g n) (payB m c k)) : sProp 𝕄)
      ⊢ (((c : Thread nD τ).loc cc0_stg1_0) ↦{fullShare} outSt m c g (n + 1)) := by
  subst hn; rw [outSt_succ_B]
theorem out_end (c : Dev nD) (g : (cc0_stg1_0 : Ref sig .tc).ty.Contents (Elt F)) (n : ℕ) (hn : n = 32) :
    ((((c : Thread nD τ).loc cc0_stg1_0) ↦{fullShare} outSt m c g n) : sProp 𝕄) ⊢ (((c : Thread nD τ).loc cc0_stg1_0) ↦{fullShare} outAt m c) := by
  subst hn; rw [outSt_cover]

/-! ## The four kinds of step, each on the chunk at the head of its lists -/

/-- One more printed part laid out: its effects in sequence, its returned values passed on. -/
local macro "open_part " n:ident s:ident : tactic => `(tactic| (
  simp only [$n:ident]
  unfold $s:ident
  simp only [semSignalWord, semWaitWord, Prog.lift, Prog.bind_op, Prog.bind_ret, Prog.pure_eq_ret]))

set_option hygiene false in
/-- Chunk k of the send buffer goes to the z-neighbour. -/
local macro "zsend_step " k:term:max e:term:max : tactic => `(tactic| (
  ihave Hq1 := (Entails.of_eq (peelL _ _ _)) $$ HtZS; icases Hq1 with ⟨Ht1, HtZS⟩
  ihave Hq2 := (Entails.of_eq (peelL _ _ _)) $$ HtZR; icases Hq2 with ⟨Ht2, HtZR⟩
  ihave Hq3 := (Entails.of_eq (peelL _ _ _)) $$ Hzs; icases Hq3 with ⟨Hs, Hzs⟩
  ihave Hq4 := (Entails.of_eq (peelL _ _ _)) $$ HzrP; icases Hq4 with ⟨Hd, HzrP⟩
  ihave HO := (owes_peel1 c _ $k _ _) $$ HO
  iapply (step_zsend m Kd c _ (dev_z (fun c => ($e c).trans (k0_dev1_eq c).symm) c) $k fz _ _) $$ [HO Ht1 Ht2 Hs Hd]
  · isplitr; · iapply (inv_d m Kb Kd c 0 $k); iexact Hrec
    isplitr; · iapply (inv_d m Kb Kd (zp c) 1 $k); iexact Hrec
    isplitl [Hs]; · iexact Hs
    isplitl [Hd]; · iexact Hd
    isplitl [HO]; · iexact HO
    isplitl [Ht1]; · iexact Ht1
    isplitr; · iapply (rch_d m Kb Kd c 0 $k); iexact Hrec
    isplitl [Ht2]; · iexact Ht2
    iapply (rch_d m Kb Kd (zp c) 1 $k); iexact Hrec
  iintro ⟨Hcz, HO⟩
  ihave HcZS := (accL $k _ (fun k : Fin 16 => cred (tallyAt (dCell c 0 k) () N))) $$ [Hcz HcZS]
  · isplitl [Hcz]; · iexact Hcz
    iexact HcZS))

set_option hygiene false in
/-- The z-neighbour's chunk k has landed: forward it to the x-neighbour at half its share, add it to the own rows. -/
local macro "mid_step " k:term:max e:term:max : tactic => `(tactic| (
  ihave Hq1 := (Entails.of_eq (peelL _ _ _)) $$ HcZR; icases Hq1 with ⟨Hc1, HcZR⟩
  ihave Hq2 := (Entails.of_eq (peelL _ _ _)) $$ HaZR; icases Hq2 with ⟨Ha1, HaZR⟩
  iapply (Rounds.wp_wait_rest_token 𝒱₀ ER (rd m) (c : Thread nD τ) none (sm := SemLoc.dma (dsem 1 $k)) (κ := Kd (c, 1, $k))
      (wpE_waitDma2_eq 𝒱₀ (c : Thread nD τ) none Set.univ) (Set.mem_univ _) () (R := 0) (m := 0) (T := ∅)
      (by rw [Nat.zero_add]; exact (expect_d m c 1 $k).symm)) $$ [Hc1 HO Ha1]
  · isplitr; · iapply (inv_d m Kb Kd c 1 $k); iexact Hrec
    isplitl [Hc1]; · iexact Hc1
    isplitl [HO]; · iexact HO
    isplitr; · iapply (mayWait_zr c $k _); iexact Hlev
    iexact Ha1
  iintro ⟨HO, Ha1, -, Hpay⟩
  ihave HaZR1 := (accL $k _ (fun k : Fin 16 => atPos ER (dCell c 1 k) 1 ∅ 0)) $$ [Ha1 HaZR1]
  · isplitl [Ha1]; · iexact Ha1
    iexact HaZR1
  ihave Hpay := (Entails.of_eq ((rest_d m c 1 $k).trans (pay_zr m c $k false))) $$ Hpay
  ihave Hh := (pts_halves _ _).1 $$ Hpay; icases Hh with ⟨HL, HR⟩
  ihave Hq3 := (Entails.of_eq (peelL _ _ _)) $$ HtXS; icases Hq3 with ⟨Ht1, HtXS⟩
  ihave Hq4 := (Entails.of_eq (peelL _ _ _)) $$ HtXR; icases Hq4 with ⟨Ht2, HtXR⟩
  ihave Hq5 := (Entails.of_eq (peelL _ _ _)) $$ HxrP; icases Hq5 with ⟨Hd, HxrP⟩
  ihave HO := (owes_peel3 c $k _ _) $$ HO
  iapply (step_xsend m Kd c _ (dev_x (fun c => ($e c).trans (k0_dev2_eq c).symm) c) $k fx _ _) $$ [HO Ht1 Ht2 HL Hd]
  · isplitr; · iapply (inv_d m Kb Kd c 2 $k); iexact Hrec
    isplitr; · iapply (inv_d m Kb Kd (xp c) 3 $k); iexact Hrec
    isplitl [HL]; · iexact HL
    isplitl [Hd]; · iexact Hd
    isplitl [HO]; · iexact HO
    isplitl [Ht1]; · iexact Ht1
    isplitr; · iapply (rch_d m Kb Kd c 2 $k); iexact Hrec
    isplitl [Ht2]; · iexact Ht2
    iapply (rch_d m Kb Kd (xp c) 3 $k); iexact Hrec
  iintro ⟨Hcx, HO⟩
  ihave HcXS := (accL $k _ (fun k : Fin 16 => cred (tallyAt (dCell c 2 k) () N))) $$ [Hcx HcXS]
  · isplitl [Hcx]; · iexact Hcx
    iexact HcXS
  iapply (step_sumA m c $k _ (by rfl) fullShare.right _) $$ [Hx HR Hout]
  · isplitl [Hx]; · iexact Hx
    isplitl [HR]; · iexact HR
    iexact Hout
  iintro ⟨Hx, HR, Hout⟩
  ihave Hout := (out_stepA m c g1 $k _ (by rfl)) $$ Hout
  ihave HzrH := (accL $k _ (fun k : Fin 16 => ((sl zrM k).view.loc (c : Thread nD τ) ↦[(sl zrM k).view.set]{fullShare.right} zrC m c))) $$ [HR HzrH]
  · isplitl [HR]; · iexact HR
    iexact HzrH))

set_option hygiene false in
/-- The x-neighbour's forwarded chunk k has landed: add it to the own rows of the other half. -/
local macro "fin_step " k:term:max : tactic => `(tactic| (
  ihave Hq1 := (Entails.of_eq (peelL _ _ _)) $$ HcXR; icases Hq1 with ⟨Hc1, HcXR⟩
  ihave Hq2 := (Entails.of_eq (peelL _ _ _)) $$ HaXR; icases Hq2 with ⟨Ha1, HaXR⟩
  iapply (Rounds.wp_wait_rest_token 𝒱₀ ER (rd m) (c : Thread nD τ) none (sm := SemLoc.dma (dsem 3 $k)) (κ := Kd (c, 3, $k))
      (wpE_waitDma2_eq 𝒱₀ (c : Thread nD τ) none Set.univ) (Set.mem_univ _) () (R := 0) (m := 0) (T := ∅)
      (by rw [Nat.zero_add]; exact (expect_d m c 3 $k).symm)) $$ [Hc1 HO Ha1]
  · isplitr; · iapply (inv_d m Kb Kd c 3 $k); iexact Hrec
    isplitl [Hc1]; · iexact Hc1
    isplitl [HO]; · iexact HO
    isplitr; · rw [MayWait_zero]; iempintro
    iexact Ha1
  iintro ⟨HO, Ha1, -, Hpay⟩
  ihave HaXR1 := (accL $k _ (fun k : Fin 16 => atPos ER (dCell c 3 k) 1 ∅ 0)) $$ [Ha1 HaXR1]
  · isplitl [Ha1]; · iexact Ha1
    iexact HaXR1
  ihave Hpay := (Entails.of_eq ((rest_d m c 3 $k).trans (pay_xr m c $k false))) $$ Hpay
  iapply (step_sumB m c $k _ (by rfl) fullShare _) $$ [Hx Hpay Hout]
  · isplitl [Hx]; · iexact Hx
    isplitl [Hpay]; · iexact Hpay
    iexact Hout
  iintro ⟨Hx, Hpay, Hout⟩
  ihave Hout := (out_stepB m c g1 $k _ (by rfl)) $$ Hout
  ihave HxrS := (accL $k _ (fun k : Fin 16 => ((sl xrM k).view.loc (c : Thread nD τ) ↦[(sl xrM k).view.set]{fullShare} xrC m c))) $$ [Hpay HxrS]
  · isplitl [Hpay]; · iexact Hpay
    iexact HxrS))

set_option hygiene false in
/-- Both transfers out of chunk k have read their sources: the send chunk and the lent half come back. -/
local macro "drain_step " k:term:max : tactic => `(tactic| (
  ihave Hq1 := (Entails.of_eq (peelL _ _ _)) $$ HcZS; icases Hq1 with ⟨Hc1, HcZS⟩
  ihave Hq2 := (Entails.of_eq (peelL _ _ _)) $$ HaZS; icases Hq2 with ⟨Ha1, HaZS⟩
  iapply (Rounds.wp_wait_rest_token 𝒱₀ ER (rd m) (c : Thread nD τ) none (sm := SemLoc.dma (dsem 0 $k)) (κ := Kd (c, 0, $k))
      (wpE_waitDma2_eq 𝒱₀ (c : Thread nD τ) none Set.univ) (Set.mem_univ _) () (R := 0) (m := 0) (T := ∅)
      (by rw [Nat.zero_add]; exact (expect_d m c 0 $k).symm)) $$ [Hc1 HO Ha1]
  · isplitr; · iapply (inv_d m Kb Kd c 0 $k); iexact Hrec
    isplitl [Hc1]; · iexact Hc1
    isplitl [HO]; · iexact HO
    isplitr; · rw [MayWait_zero]; iempintro
    iexact Ha1
  iintro ⟨HO, Ha1, -, Hpay⟩
  ihave HaZS1 := (accL $k _ (fun k : Fin 16 => atPos ER (dCell c 0 k) 1 ∅ 0)) $$ [Ha1 HaZS1]
  · isplitl [Ha1]; · iexact Ha1
    iexact HaZS1
  ihave Hpay := (Entails.of_eq ((rest_d m c 0 $k).trans (pay_zs m c $k false))) $$ Hpay
  ihave HzsB := (accL $k _ (fun k : Fin 16 => ((sl zsM k).view.loc (c : Thread nD τ) ↦[(sl zsM k).view.set]{fullShare} zsC m c))) $$ [Hpay HzsB]
  · isplitl [Hpay]; · iexact Hpay
    iexact HzsB
  ihave Hq3 := (Entails.of_eq (peelL _ _ _)) $$ HcXS; icases Hq3 with ⟨Hc1, HcXS⟩
  ihave Hq4 := (Entails.of_eq (peelL _ _ _)) $$ HaXS; icases Hq4 with ⟨Ha1, HaXS⟩
  iapply (Rounds.wp_wait_rest_token 𝒱₀ ER (rd m) (c : Thread nD τ) none (sm := SemLoc.dma (dsem 2 $k)) (κ := Kd (c, 2, $k))
      (wpE_waitDma2_eq 𝒱₀ (c : Thread nD τ) none Set.univ) (Set.mem_univ _) () (R := 0) (m := 0) (T := ∅)
      (by rw [Nat.zero_add]; exact (expect_d m c 2 $k).symm)) $$ [Hc1 HO Ha1]
  · isplitr; · iapply (inv_d m Kb Kd c 2 $k); iexact Hrec
    isplitl [Hc1]; · iexact Hc1
    isplitl [HO]; · iexact HO
    isplitr; · rw [MayWait_zero]; iempintro
    iexact Ha1
  iintro ⟨HO, Ha1, -, Hpay⟩
  ihave HaXS1 := (accL $k _ (fun k : Fin 16 => atPos ER (dCell c 2 k) 1 ∅ 0)) $$ [Ha1 HaXS1]
  · isplitl [Ha1]; · iexact Ha1
    iexact HaXS1
  ihave Hpay := (Entails.of_eq ((rest_d m c 2 $k).trans (pay_xs m c $k false))) $$ Hpay
  ihave Hq5 := (Entails.of_eq (peelL _ _ _)) $$ HzrH; icases Hq5 with ⟨HR, HzrH⟩
  ihave Hf := (pts_halves _ _).2 $$ [Hpay HR]
  · isplitl [Hpay]; · iexact Hpay
    iexact HR
  ihave HzrF := (accL $k _ (fun k : Fin 16 => ((sl zrM k).view.loc (c : Thread nD τ) ↦[(sl zrM k).view.set]{fullShare} zrC m c))) $$ [Hf HzrF]
  · isplitl [Hf]; · iexact Hf
    iexact HzrF))

set_option maxRecDepth 65536 in
set_option maxHeartbeats 4000000 in
/-- The body, one rule per effect in program order. -/
theorem sound_body (c : Dev nD) :
    bodyPre m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6)
      (fun _ => bodyPost m c) := by
  simp only [cc0_body_eq_skeleton]; unfold cc0_body_skel
  unfold bodyPre Φ₀ start ghost linear creds
  iintro ⟨⟨⟨⟨%Kb, %Kd, #Hrec, HaB, HaD, HtBZ, HtBX, HtZS, HtZR, HtXS, HtXR⟩, ⟨HcB, HcZR, HcXR⟩, #Hlev⟩, ⟨%f0, Hzs⟩, ⟨%f1, Hzr⟩, ⟨%f2, Hxr⟩⟩,
    Ho, ⟨%d0, %g0, %hg0, Hx⟩, ⟨%d1, %g1, %hg1, Hout⟩⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  -- the first 60 statements: the device's coordinates, the two entry signals, the load of the block to send
  simp only [k0_part1_eq_skeleton]; unfold k0_part1_skel
  simp only [semSignalWord, semWaitWord, Prog.lift, Prog.bind_op, Prog.bind_ret, Prog.pure_eq_ret, wp_deviceId]
  -- the signal to the z-neighbour's barrier: its duty `false`, with this device's z receive buffer
  iapply (Rounds.wp_signal 𝒱₀ ER (rd m) (c : Thread nD τ) none (dst := (zp c : Thread nD τ)) (κ := Kb (zp c))
      (d := false) (by rw [duties_bar]; exact Finset.mem_univ _) ((amount_bar m (zp c) false).trans (by decide)) () (O₁ c) rfl)
    $$ [HO HtBZ Hzr]
  · isplitr; · iapply (inv_b m Kb Kd (zp c)); iexact Hrec
    isplitl [HO]; · iexact HO
    isplitl [HtBZ]; · iexact HtBZ
    isplitl [Hzr]; · iapply (barZ_give m c f1); iexact Hzr
    iapply (rch_b m Kb Kd (zp c)); iexact Hrec
  iintro HO
  -- the signal to the x-neighbour's barrier: its duty `true`, with this device's x receive buffer
  unfold O₁
  iapply (Rounds.wp_signal 𝒱₀ ER (rd m) (c : Thread nD τ) none (dst := (xp c : Thread nD τ)) (κ := Kb (xp c))
      (d := true) (by rw [duties_bar]; exact Finset.mem_univ _) ((amount_bar m (xp c) true).trans (by decide)) () (Oxr c + Ozr c) rfl)
    $$ [HO HtBX Hxr]
  · isplitr; · iapply (inv_b m Kb Kd (xp c)); iexact Hrec
    isplitl [HO]; · iexact HO
    isplitl [HtBX]; · iexact HtBX
    isplitl [Hxr]; · iapply (barX_give m c f2); iexact Hxr
    iapply (rch_b m Kb Kd (xp c)); iexact Hrec
  iintro HO
  -- the load of the block to send, and the dead load of the send buffer
  iapply (wp_load 𝒱₀ (c : Thread nD τ) none Set.univ (m := xM) (Finset.subset_univ _)) $$ Hx; iintro Hx
  iapply (wp_load 𝒱₀ (c : Thread nD τ) none Set.univ (m := zsM) (Finset.subset_univ _)) $$ Hzs; iintro Hzs
  -- statements 61–120: the send buffer stored, the barrier wait, the first two z transfers
  simp only [k0_part2_eq_skeleton]; unfold k0_part2_skel
  simp only [semSignalWord, semWaitWord, Prog.lift, Prog.bind_op, Prog.bind_ret, Prog.pure_eq_ret]
  iapply (wp_store 𝒱₀ (c : Thread nD τ) none Set.univ (m := zsM) (r := Rect.unit (s := S512x512) ![0, 0] S512x512.size inb_S512x512_S512x512_0_0)
    (Mk := Finset.univ) (Finset.subset_univ _)) $$ Hzs; iintro Hzs
  rw [show ((zsM : Memref sig .tc .vmem S512x512 .bf16).access (Rect.unit (s := S512x512) ![0, 0] S512x512.size inb_S512x512_S512x512_0_0) : View sig .tc _ _ _).write (Elt F) f0
      (k0_pay2 (k0_pay1 ((xM : Memref sig .tc .vmem S1x1024x1024 .f32).view.readAt (Elt F) (r1 c) (xstg m c)))) Finset.univ = zsC m c from
    Memref.write_access_unit_zero_univ (Elt F) cc0_scratch0 hz2 _ f0 _]
  -- the wait for 2 on its own barrier, owing the 32 receive credits: both neighbours' receive buffers come with it
  rw [Oxr_list c, Ozr_list c]
  iapply (Rounds.wp_wait_rest_token 𝒱₀ ER (rd m) (c : Thread nD τ) none (κ := Kb c)
      (wpE_semWait_eq 𝒱₀ (c : Thread nD τ) none Set.univ) (Set.mem_univ _) () (O := (ks.map (T3 c)).sum + (ks.map (T1 c)).sum) (W := W) (R := 0) (m := 0) (T := ∅)
      (by rw [expect_bar]; decide)) $$ [HcB HO HaB]
  · isplitr; · iapply (inv_b m Kb Kd c); iexact Hrec
    isplitl [HcB]; · iexact HcB
    isplitl [HO]; · iexact HO
    isplitr; · iapply (mayWait_bar c ks ks); iexact Hlev
    iexact HaB
  iintro ⟨HO, HaB, -, Hpay⟩
  ihave Hp := (bar_take m c) $$ Hpay
  icases Hp with ⟨⟨%fz, HzrP⟩, ⟨%fx, HxrP⟩⟩
  -- the three buffers by chunks; the tokens, positions and credits by chunks
  ihave Hzs := (chunks_zs c fullShare (zsC m c)).1 $$ Hzs
  ihave HzrP := (chunks_zr (zp c) fullShare fz).1 $$ HzrP
  ihave HxrP := (chunks_xr (xp c) fullShare fx).1 $$ HxrP
  ihave HtZS := (Entails.of_eq (toL _)) $$ HtZS
  ihave HtZR := (Entails.of_eq (toL _)) $$ HtZR
  ihave HtXS := (Entails.of_eq (toL _)) $$ HtXS
  ihave HtXR := (Entails.of_eq (toL _)) $$ HtXR
  ihave HcZR := (Entails.of_eq (toL _)) $$ HcZR
  ihave HcXR := (Entails.of_eq (toL _)) $$ HcXR
  ihave HaD := (Entails.of_eq (lists4 fun a k => atPos ER (dCell c a k) 0 ∅ 0)) $$ HaD
  icases HaD with ⟨HaZS, HaZR, HaXS, HaXR⟩
  -- the accumulating lists start empty; the output buffer before any store
  ihave HcZS := (nilOf _ (fun k : Fin 16 => cred (tallyAt (dCell c 0 k) () N))) $$ Hlev
  ihave HcXS := (nilOf _ (fun k : Fin 16 => cred (tallyAt (dCell c 2 k) () N))) $$ Hlev
  ihave HaZS1 := (nilOf _ (fun k : Fin 16 => atPos ER (dCell c 0 k) 1 ∅ 0)) $$ Hlev
  ihave HaZR1 := (nilOf _ (fun k : Fin 16 => atPos ER (dCell c 1 k) 1 ∅ 0)) $$ Hlev
  ihave HaXS1 := (nilOf _ (fun k : Fin 16 => atPos ER (dCell c 2 k) 1 ∅ 0)) $$ Hlev
  ihave HaXR1 := (nilOf _ (fun k : Fin 16 => atPos ER (dCell c 3 k) 1 ∅ 0)) $$ Hlev
  ihave HzrH := (nilOf _ (fun k : Fin 16 => ((sl zrM k).view.loc (c : Thread nD τ) ↦[(sl zrM k).view.set]{fullShare.right} zrC m c))) $$ Hlev
  ihave HzrF := (nilOf _ (fun k : Fin 16 => ((sl zrM k).view.loc (c : Thread nD τ) ↦[(sl zrM k).view.set]{fullShare} zrC m c))) $$ Hlev
  ihave HzsB := (nilOf _ (fun k : Fin 16 => ((sl zsM k).view.loc (c : Thread nD τ) ↦[(sl zsM k).view.set]{fullShare} zsC m c))) $$ Hlev
  ihave HxrS := (nilOf _ (fun k : Fin 16 => ((sl xrM k).view.loc (c : Thread nD τ) ↦[(sl xrM k).view.set]{fullShare} xrC m c))) $$ Hlev
  ihave Hout := (out_start m c g1) $$ Hout
  -- the 16 z transfers
  zsend_step 0 k0_dev3_eq
  zsend_step 1 k0_dev4_eq
  open_part k0_part3_eq_skeleton k0_part3_skel
  zsend_step 2 k0_dev5_eq
  zsend_step 3 k0_dev6_eq
  open_part k0_part4_eq_skeleton k0_part4_skel
  zsend_step 4 k0_dev7_eq
  zsend_step 5 k0_dev8_eq
  zsend_step 6 k0_dev9_eq
  open_part k0_part5_eq_skeleton k0_part5_skel
  zsend_step 7 k0_dev10_eq
  zsend_step 8 k0_dev11_eq
  zsend_step 9 k0_dev12_eq
  open_part k0_part6_eq_skeleton k0_part6_skel
  zsend_step 10 k0_dev13_eq
  zsend_step 11 k0_dev14_eq
  open_part k0_part7_eq_skeleton k0_part7_skel
  zsend_step 12 k0_dev15_eq
  zsend_step 13 k0_dev16_eq
  zsend_step 14 k0_dev17_eq
  open_part k0_part8_eq_skeleton k0_part8_skel
  zsend_step 15 k0_dev18_eq
  ihave HO := (owes_nil1 c _ _) $$ HO
  -- per chunk: the z-neighbour's chunk waited for, forwarded, summed
  open_part k0_part9_eq_skeleton k0_part9_skel
  mid_step 0 k0_dev19_eq
  open_part k0_part10_eq_skeleton k0_part10_skel
  mid_step 1 k0_dev20_eq
  open_part k0_part11_eq_skeleton k0_part11_skel
  mid_step 2 k0_dev21_eq
  open_part k0_part12_eq_skeleton k0_part12_skel
  mid_step 3 k0_dev22_eq
  open_part k0_part13_eq_skeleton k0_part13_skel
  mid_step 4 k0_dev23_eq
  open_part k0_part14_eq_skeleton k0_part14_skel
  mid_step 5 k0_dev24_eq
  open_part k0_part15_eq_skeleton k0_part15_skel
  mid_step 6 k0_dev25_eq
  open_part k0_part16_eq_skeleton k0_part16_skel
  mid_step 7 k0_dev26_eq
  open_part k0_part17_eq_skeleton k0_part17_skel
  mid_step 8 k0_dev27_eq
  open_part k0_part18_eq_skeleton k0_part18_skel
  open_part k0_part19_eq_skeleton k0_part19_skel
  mid_step 9 k0_dev28_eq
  open_part k0_part20_eq_skeleton k0_part20_skel
  mid_step 10 k0_dev29_eq
  open_part k0_part21_eq_skeleton k0_part21_skel
  mid_step 11 k0_dev30_eq
  open_part k0_part22_eq_skeleton k0_part22_skel
  mid_step 12 k0_dev31_eq
  open_part k0_part23_eq_skeleton k0_part23_skel
  mid_step 13 k0_dev32_eq
  open_part k0_part24_eq_skeleton k0_part24_skel
  mid_step 14 k0_dev33_eq
  open_part k0_part25_eq_skeleton k0_part25_skel
  mid_step 15 k0_dev34_eq
  ihave HO := (owes_nil3 c _) $$ HO
  -- per chunk: the x-neighbour's forwarded chunk waited for and summed
  open_part k0_part26_eq_skeleton k0_part26_skel
  fin_step 0
  fin_step 1
  open_part k0_part27_eq_skeleton k0_part27_skel
  fin_step 2
  open_part k0_part28_eq_skeleton k0_part28_skel
  fin_step 3
  open_part k0_part29_eq_skeleton k0_part29_skel
  fin_step 4
  fin_step 5
  open_part k0_part30_eq_skeleton k0_part30_skel
  fin_step 6
  open_part k0_part31_eq_skeleton k0_part31_skel
  fin_step 7
  fin_step 8
  open_part k0_part32_eq_skeleton k0_part32_skel
  fin_step 9
  open_part k0_part33_eq_skeleton k0_part33_skel
  fin_step 10
  fin_step 11
  open_part k0_part34_eq_skeleton k0_part34_skel
  fin_step 12
  open_part k0_part35_eq_skeleton k0_part35_skel
  fin_step 13
  open_part k0_part36_eq_skeleton k0_part36_skel
  fin_step 14
  fin_step 15
  -- the 32 send waits, in the order the accumulated lists were built
  ihave HcZS := (Entails.of_eq (revL _)) $$ HcZS
  ihave HcXS := (Entails.of_eq (revL _)) $$ HcXS
  ihave HzrH := (Entails.of_eq (revL _)) $$ HzrH
  open_part k0_part37_eq_skeleton k0_part37_skel
  drain_step 0
  drain_step 1
  drain_step 2
  open_part k0_part38_eq_skeleton k0_part38_skel
  drain_step 3
  drain_step 4
  open_part k0_part39_eq_skeleton k0_part39_skel
  drain_step 5
  drain_step 6
  drain_step 7
  open_part k0_part40_eq_skeleton k0_part40_skel
  drain_step 8
  drain_step 9
  open_part k0_part41_eq_skeleton k0_part41_skel
  drain_step 10
  drain_step 11
  drain_step 12
  open_part k0_part42_eq_skeleton k0_part42_skel
  drain_step 13
  drain_step 14
  drain_step 15
  -- the program's end: the 64 own cells closed, the three buffers rejoined, the output buffer at its contents
  rw [wp_ret]
  ihave HaZS1 := (Entails.of_eq (revL _)) $$ HaZS1
  ihave HaZR1 := (Entails.of_eq (revL _)) $$ HaZR1
  ihave HaXS1 := (Entails.of_eq (revL _)) $$ HaXS1
  ihave HaXR1 := (Entails.of_eq (revL _)) $$ HaXR1
  imod (close_cells m Kb Kd c) $$ [HaZS1 HaZR1 HaXS1 HaXR1] with Hz
  · isplitr; · iexact Hrec
    isplitl [HaZS1]; · iexact HaZS1
    isplitl [HaZR1]; · iexact HaZR1
    isplitl [HaXS1]; · iexact HaXS1
    iexact HaXR1
  imodintro
  ihave HzsB := (Entails.of_eq (revL _)) $$ HzsB
  ihave HzrF := (Entails.of_eq (revL _)) $$ HzrF
  ihave HxrS := (Entails.of_eq (revL _)) $$ HxrS
  ihave Hzs := (chunks_zs c fullShare (zsC m c)).2 $$ HzsB
  ihave Hzr := (chunks_zr c fullShare (zrC m c)).2 $$ HzrF
  ihave Hxr := (chunks_xr c fullShare (xrC m c)).2 $$ HxrS
  ihave Hout := (out_end m c g1 _ (by rfl)) $$ Hout
  ihave HO := (owes_fin m c _) $$ HO
  unfold bodyPost Φ₁
  isplitl [Hzs Hzr Hxr Hz]
  · isplitl [Hzs Hzr Hxr]
    · isplitl [Hzs]; · iexists _; iexact Hzs
      isplitl [Hzr]; · iexists _; iexact Hzr
      iexists _; iexact Hxr
    · iexact Hz
  isplitl [HO]; · iexact HO
  isplitl [Hx]
  · iexists _; isplitr; · (ipureintro; rfl)
    iexact Hx
  iexists _; isplitr; · (ipureintro; rfl)
  iexact Hout

set_option maxRecDepth 65536 in
set_option maxHeartbeats 1600000 in
/-- The library's body obligation on device c. -/
theorem body_obligation (c : Dev nD) : BodyObligation (dats (F := F) m 0 c) (defs₀ (F := F)) 𝒱₀ () Set.univ := fun t => by
  obtain rfl : t = t₀ := fin_N t
  rw [bigSep_W0, bigSep_W0]
  simp only [owns_whole_eq]
  show bodyPre m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6)
      (fun _ => bodyPost m c)
  exact sound_body m c

end Cert.KernelProof

end
-- ==== Proof.KernelLaunch.lean ====
/-
The launch of the two-hop reduce-scatter: from one device's body to the run of the whole mesh.

Each device owes, at launch, one unit to each neighbour's barrier cell and one chunk credit to every z-receive
cell of its z-neighbour and every x-receive cell of its x-neighbour.  Both neighbour maps are involutions, so
summed over the payers every barrier cell is owed two units and every receive cell one chunk credit: that is the
credit the launch deals the cell's owner.  The pipeline's own staging waits sit at level 0, below every cell a
device owes (barrier cells at 1, z-receive cells at 2, x-receive cells at 3), which is the deadlock argument for
them.  The launch theorem then gives the run, with each device's arrays at the proof data's final contents; the
input array ends as it began, and the result array is the output staging buffer written back whole.
-/
import proofs.«901028_g7700000000001029_dist_rs_v7x_xyz2x2x2_z_m1024_n512_bf16_1_alg».proof.Proof.KernelGhost
import proofs.«901028_g7700000000001029_dist_rs_v7x_xyz2x2x2_z_m1024_n512_bf16_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout facts -/

/-- The 64 chunk semaphores are scoped, pairwise distinct, and none is a staging semaphore. -/
theorem ownSemFacts : Pipeline.OwnSemFacts cfg0.spec osem := by decide +kernel

theorem share_eq (c : Dev nD) (w : Fin cfg0.W) : (dats m 0 c).share w = fullShare := by unfold Dat.share; split <;> rfl

/-! ## The launch credit

Device `d` owes the cell `(f d, s)` for an involution `f`; summed over `d`, the cell `(c, s)` is owed by `f c` alone. -/

omit [FloatOps F] in
/-- The z-neighbours' dues: one chunk credit on each z-receive cell. -/
theorem launch_zr (c : Dev nD) :
    (Pipeline.launchCred Ozr c : sProp 𝕄) ⊢ bigSep Finset.univ fun k : Fin 16 => cred (tallyAt (dCell c 1 k) () N) := by
  have h : (Pipeline.launchCred Ozr c : sProp 𝕄) = bigSep Finset.univ fun k : Fin 16 => Pipeline.launchCred (fun d => tallyAt (dCell (zp d) 1 k) () N) c :=
    Pipeline.launchCred_sum (Finset.univ : Finset (Fin 16)) (fun k d => tallyAt (dCell (zp d) 1 k) () N) c
  rw [h]
  exact bigSep_mono fun k _ => Pipeline.launchCred_tallyAt (.dma (dsem 1 k)) zp zp zp_zp zp_zp () N c

omit [FloatOps F] in
/-- The x-neighbours' dues: one chunk credit on each x-receive cell. -/
theorem launch_xr (c : Dev nD) :
    (Pipeline.launchCred Oxr c : sProp 𝕄) ⊢ bigSep Finset.univ fun k : Fin 16 => cred (tallyAt (dCell c 3 k) () N) := by
  have h : (Pipeline.launchCred Oxr c : sProp 𝕄) = bigSep Finset.univ fun k : Fin 16 => Pipeline.launchCred (fun d => tallyAt (dCell (xp d) 3 k) () N) c :=
    Pipeline.launchCred_sum (Finset.univ : Finset (Fin 16)) (fun k d => tallyAt (dCell (xp d) 3 k) () N) c
  rw [h]
  exact bigSep_mono fun k _ => Pipeline.launchCred_tallyAt (.dma (dsem 3 k)) xp xp xp_xp xp_xp () N c

omit [FloatOps F] in
/-- Both neighbours' entry signals: two units on the barrier cell. -/
theorem launch_bar (c : Dev nD) :
    iprop(Pipeline.launchCred (fun d => tallyAt (barCell (xp d)) () 1) c ∗ Pipeline.launchCred (fun d => tallyAt (barCell (zp d)) () 1) c)
      ⊢ (cred (tallyAt (barCell c) () 2) : sProp 𝕄) :=
  (BI.sep_mono (Pipeline.launchCred_tallyAt (.reg barS) xp xp xp_xp xp_xp () 1 c) (Pipeline.launchCred_tallyAt (.reg barS) zp zp zp_zp zp_zp () 1 c)).trans
    ((cred_add _ _).2.trans (Entails.of_eq (congrArg cred (tallyAt_add (barCell c) () 1 1))))

omit [FloatOps F] in
/-- What the launch deals device c under the tallies `O₀`. -/
theorem launch_creds (c : Dev nD) : (Pipeline.launchCred O₀ c : sProp 𝕄) ⊢ creds c := by
  rw [show (Pipeline.launchCred O₀ c : sProp 𝕄)
      = Pipeline.launchCred (fun d => ((Oxr d + Ozr d) + tallyAt (barCell (xp d)) () 1) + tallyAt (barCell (zp d)) () 1) c from rfl,
    Pipeline.launchCred_add, Pipeline.launchCred_add, Pipeline.launchCred_add]
  unfold creds
  iintro ⟨⟨⟨Hx, Hz⟩, Hbx⟩, Hbz⟩
  isplitl [Hbx Hbz]
  · iapply (launch_bar (F := F) c)
    isplitl [Hbx] <;> iassumption
  isplitl [Hz]
  · iapply (launch_zr (F := F) c); iexact Hz
  · iapply (launch_xr (F := F) c); iexact Hx

/-! ## The levels: the staging waits lie below everything a device owes -/

theorem launch_lv_bar : ∀ (c : Dev nD) (u : Unit), lv (barCell c) u = 1 := fun _ _ => rfl
theorem launch_lv_zr : ∀ (c : Dev nD) (k : Fin 16) (u : Unit), lv (dCell c 1 k) u = 2 := by decide +kernel
theorem launch_lv_xr : ∀ (c : Dev nD) (k : Fin 16) (u : Unit), lv (dCell c 3 k) u = 3 := by decide +kernel

/-- A device owes only receive cells of its two neighbours and their barrier cells. -/
theorem launch_owed_pos {c : Dev nD} {g : GSem nD τ sig} {u : Unit} (h : 0 < O₀ c g u) :
    (∃ k, g = dCell (xp c) 3 k) ∨ (∃ k, g = dCell (zp c) 1 k) ∨ g = barCell (xp c) ∨ g = barCell (zp c) := by
  unfold O₀ O₁ Oxr Ozr at h
  rcases Pipeline.add_pos_cases h with h | h
  · rcases Pipeline.add_pos_cases h with h | h
    · rcases Pipeline.add_pos_cases h with h | h
      · obtain ⟨k, -, hk⟩ := Pipeline.sum_pos_exists h
        exact .inl ⟨k, (Pipeline.tallyAt_pos hk).1⟩
      · obtain ⟨k, -, hk⟩ := Pipeline.sum_pos_exists h
        exact .inr (.inl ⟨k, (Pipeline.tallyAt_pos hk).1⟩)
    · exact .inr (.inr (.inl (Pipeline.tallyAt_pos h).1))
  · exact .inr (.inr (.inr (Pipeline.tallyAt_pos h).1))

omit [FloatOps F] in
/-- A wait on a staging semaphore (numbers 0 and 1, level 0) while the device owes all of `O₀ c` or nothing. -/
theorem launch_mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases launch_owed_pos hg with ⟨k, rfl⟩ | ⟨k, rfl⟩ | rfl | rfl <;> (rw [L_tc]; exact Finset.mem_singleton_self _))
      (fun p hp => by
        rw [Finset.mem_singleton.mp hp]
        show (if 2 ≤ q.val ∧ aOf q = 1 then 2 else if 2 ≤ q.val ∧ aOf q = 3 then 3 else 0) ≤ 0
        rw [if_neg (fun h => absurd h.1 (by omega)), if_neg (fun h => absurd h.1 (by omega))])
      (fun g u hg => by
        rcases launch_owed_pos hg with ⟨k, rfl⟩ | ⟨k, rfl⟩ | rfl | rfl
        · rw [launch_lv_xr]; decide
        · rw [launch_lv_zr]; decide
        · rw [launch_lv_bar]; decide
        · rw [launch_lv_bar]; decide)
  · rw [MayWait_zero]; iintro -; iempintro

/-- The pipeline's staging waits: the device owes `O₀ c` at the point's start and nothing at its end. -/
theorem launch_waits (c : Dev nD) : (levAts L lv : sProp 𝕄) ⊢ Pipeline.cellsWaits cfgs (dats m) () 0 c :=
  Pipeline.cellsWaits_intro cfgs (dats m) () 0 c fun w s t =>
    launch_mayWait_stage c _ (by fin_cases w <;> fin_cases s <;> decide) _ (by
      rcases t with ⟨_ | _, ht⟩
      · exact Or.inl rfl
      · exact Or.inr rfl)

/-! ## The theorem's side conditions -/

/-- From what the launch hands a device to the point's start. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (launch_creds (F := F) c) $$ Hcr
  imodintro
  unfold start
  isplitl
  · isplitl [HG]; · iexact HG
    isplitl [Hc]; · iexact Hc
    iexact Hlev
  · iempintro

/-- The scoped buffers that are no staging buffer are the three scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1, H2⟩
  isplitl [Hs]; · iexact Hs
  isplitl [H0]; · iexact H0
  isplitl [H1]; · iexact H1
  iexact H2

/-- At the end the scratch buffers are back whole and the 64 own cells stand at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ Pipeline.ownSems0
  iintro ⟨Hr, Hs⟩
  isplitr; · iempintro
  isplitl [Hs]; · iexact Hs
  iexact Hr

/-! ## The run -/

/-- Device c's arrays after the one grid point. -/
def finalA (c : Dev nD) (w : Fin cfg0.W) : Buf (Elt F) ((cfg0.win w).arr.view.loc (c : Thread nD τ)) := (dats m 0 c).arrAt w cfg0.N

set_option maxRecDepth 65536 in
set_option maxHeartbeats 1600000 in
/-- On the mesh of eight devices, for any float values, from any memory with zero counters: every weakly fair
    execution of the program terminates, and in every final state each device's two arrays hold `finalA`: the input
    block as it began (`finalA_x`) and the result array at the computed contents (`finalA_out`). -/
theorem run_main (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := launch_waits m)
    (G := G m) (G' := ghost m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array ends unchanged: an input window is never written back. -/
theorem finalA_x (c : Dev nD) : finalA m c (0 : Fin 2) = m (win0_0.arr.view.loc (c : Thread nD τ)) :=
  (dats (F := F) m 0 c).arrAt_in (0 : Fin 2) rfl _

omit [FloatOps F] in
/-- The result window's block is the whole array: writing it back, unmasked, replaces the array's contents by the payload. -/
theorem launch_write_back (f w : (main_v1 : Ref sig .tc).ty.Contents (Elt F)) :
    ((cfg0.win (1 : Fin 2)).blk t₀).view.write (Elt F) f ((cfg0.win (1 : Fin 2)).cut (cfg0.grid.coords t₀) w) Finset.univ = w :=
  Memref.write_access_unit_zero_univ (Elt F) main_v1 (funext fun a => Nat.zero_mul _) _ f w

section

-- Only the identity "what the body leaves in the result window is `outAt`" is used, never the form of `outAt`
-- (32 nested chunk stores): it is kept folded.
attribute [local irreducible] outAt

/-- The result array ends at the output staging buffer's contents: the one grid point writes the window back whole. -/
theorem finalA_out (c : Dev nD) : finalA m c (1 : Fin 2) = outAt m c := by
  have h := (dats (F := F) m 0 c).arrAt_succ (1 : Fin 2) t₀
  rw [flush0_1 t₀, if_pos rfl] at h
  exact h.trans (launch_write_back _ _)

end

/-- info: 'Cert.KernelProof.run_main' depends on axioms: [propext, Classical.choice, Quot.sound] -/
#guard_msgs in #print axioms run_main

end Cert.KernelProof

end
-- ==== Proof.KernelIdealSetup.lean ====
/-
The reduce-scatter over the z axis of a 2×2×2 mesh, in two hops: the objects every other module speaks of.

Device c = 4x + 2y + z holds block z (along axis 0) of the whole input X : f32[2,1024,1024] and must end with
columns [512z, 512z+512) of X[0] + X[1].  It sends rows [512x, 512x+512), columns of the OTHER z half, of its
block to its z-neighbour (flip z) in 16 chunks of 32 rows, adds what it receives to its own rows of its own z
half, forwards each received chunk to its x-neighbour (flip x), and adds what the x-neighbour forwards to the
other 512 rows.

Semaphores (cells) of one device: the barrier semaphore (both neighbours signal it once at entry; waited 2),
and per chunk k the z send / z receive / x send / x receive DMA semaphores.  Each cell has ONE round.
-/
import proofs.«901028_g7700000000001029_dist_rs_v7x_xyz2x2x2_z_m1024_n512_bf16_1_alg».proof.Proof.Gen.KernelIdeal
import proofs.«901028_g7700000000001029_dist_rs_v7x_xyz2x2x2_z_m1024_n512_bf16_1_alg».proof.Proof.Gen.KernelIdeal.Skeleton
import proofs.«901028_g7700000000001029_dist_rs_v7x_xyz2x2x2_z_m1024_n512_bf16_1_alg».proof.Proof.Gen.KernelIdeal.Launch
import proofs.«901028_g7700000000001029_dist_rs_v7x_xyz2x2x2_z_m1024_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The two neighbours: flip z, flip x -/

def zp (c : Dev nD) : Dev nD := ⟨k0_dev1 c, k0_dev1_lt c⟩
def xp (c : Dev nD) : Dev nD := ⟨k0_dev2 c, k0_dev2_lt c⟩

theorem zp_zp : ∀ c : Dev nD, zp (zp c) = c := by decide +kernel
theorem xp_xp : ∀ c : Dev nD, xp (xp c) = c := by decide +kernel
theorem zp_ne : ∀ c : Dev nD, zp c ≠ c := by decide +kernel
theorem xp_ne : ∀ c : Dev nD, xp c ≠ c := by decide +kernel
theorem zp_ne_xp : ∀ c : Dev nD, zp c ≠ xp c := by decide +kernel

def zpE : Dev nD ≃ Dev nD := ⟨zp, zp, zp_zp, zp_zp⟩
def xpE : Dev nD ≃ Dev nD := ⟨xp, xp, xp_xp, xp_xp⟩

/-- A device chain that names the z-neighbour, a chain that names the x-neighbour. -/
theorem dev_z {f : Dev nD → Nat} {hf : ∀ c, f c < nD} (h : ∀ c, f c = k0_dev1 c) (c : Dev nD) : (⟨f c, hf c⟩ : Dev nD) = zp c := Fin.ext (h c)
theorem dev_x {f : Dev nD → Nat} {hf : ∀ c, f c < nD} (h : ∀ c, f c = k0_dev2 c) (c : Dev nD) : (⟨f c, hf c⟩ : Dev nD) = xp c := Fin.ext (h c)

/-! ## Memrefs, chunk slices, semaphores, cells -/

abbrev xM : Memref sig .tc .vmem S1x1024x1024 .f32 := Memref.whole cc0_stg0_0
abbrev oM : Memref sig .tc .vmem S1024x512 .bf16 := Memref.whole cc0_stg1_0
abbrev zsM : Memref sig .tc .vmem S512x512 .bf16 := Memref.whole cc0_scratch0
abbrev zrM : Memref sig .tc .vmem S512x512 .bf16 := Memref.whole cc0_scratch1
abbrev xrM : Memref sig .tc .vmem S512x512 .bf16 := Memref.whole cc0_scratch2

theorem inbR (k : Fin 16) : ∀ a, (![32 * k.val, 0] : Fin 2 → Nat) a + S32x512.size a ≤ S512x512.size a := by
  intro a; have := k.isLt
  fin_cases a
  · show 32 * k.val + 32 ≤ 512; omega
  · show 0 + 512 ≤ 512; omega

/-- Rows [32k, 32k+32) of a 512×512 buffer. -/
abbrev rowRect (k : Fin 16) : Rect S512x512 := Rect.unit (s := S512x512) ![32 * k.val, 0] S32x512.size (inbR k)
/-- Chunk k of a 512×512 buffer, as the kernel slices it. -/
abbrev sl (M : Memref sig .tc .vmem S512x512 .bf16) (k : Fin 16) : Memref sig .tc .vmem S32x512 .bf16 := M.slice (rowRect k) (fun _ => rfl)

theorem inbS (k : Fin 16) : ∀ a, (![k.val] : Fin 1 → Nat) a + S1.size a ≤ S16.size a := by
  intro a; have := k.isLt
  fin_cases a
  show k.val + 1 ≤ 16; omega

/-- Entry k of an array of 16 DMA semaphores, as the kernel names it. -/
abbrev semAt (A : DmaSems sig S16) (k : Fin 16) : DmaSem sig := ((A.slice (Rect.unit (s := S16) ![k.val] S1.size (inbS k))).squeeze S_ squeezes_S1_S_).sem

/-- DMA semaphore number 2 + 16a + k: array a (0 z-send, 1 z-receive, 2 x-send, 3 x-receive), chunk k. -/
def dsem (a : Fin 4) (k : Fin 16) : DmaSem sig := ⟨2 + 16 * a.val + k.val, by have := a.isLt; have := k.isLt; show 2 + 16 * a.val + k.val < 66; omega⟩

theorem semAt3_eq (k : Fin 16) : semAt cc0_scratch3 k = dsem 0 k := by revert k; decide +kernel
theorem semAt4_eq (k : Fin 16) : semAt cc0_scratch4 k = dsem 1 k := by revert k; decide +kernel
theorem semAt5_eq (k : Fin 16) : semAt cc0_scratch5 k = dsem 2 k := by revert k; decide +kernel
theorem semAt6_eq (k : Fin 16) : semAt cc0_scratch6 k = dsem 3 k := by revert k; decide +kernel

theorem dsem_inj : ∀ a a' : Fin 4, ∀ k k' : Fin 16, dsem a k = dsem a' k' → a = a' ∧ k = k' := by decide +kernel

abbrev barS : Sem sig := (SemArray.scalar (sig.barrier 0 rfl) : Sems sig S_).sem

abbrev barCell (c : Dev nD) : GSem nD τ sig := ((c : Thread nD τ), .reg barS)
abbrev dCell (c : Dev nD) (a : Fin 4) (k : Fin 16) : GSem nD τ sig := ((c : Thread nD τ), .dma (dsem a k))

/-- The kernel's own (scoped) semaphores, as the launch indexes them. -/
abbrev osem : Fin 4 × Fin 16 → SemLoc sig := fun ak => .dma (dsem ak.1 ak.2)

/-- Array and chunk of a DMA semaphore number. -/
def aOf (s : DmaSem sig) : ℕ := (s.val - 2) / 16
def kOf (s : DmaSem sig) : Fin 16 := ⟨(s.val - 2) % 16, Nat.mod_lt _ (by decide)⟩
theorem aOf_dsem : ∀ (a : Fin 4) (k : Fin 16), aOf (dsem a k) = a.val := by decide +kernel
theorem kOf_dsem : ∀ (a : Fin 4) (k : Fin 16), kOf (dsem a k) = k := by decide +kernel
theorem aOf0 (k : Fin 16) : aOf (dsem 0 k) = 0 := aOf_dsem 0 k
theorem aOf1 (k : Fin 16) : aOf (dsem 1 k) = 1 := aOf_dsem 1 k
theorem aOf2 (k : Fin 16) : aOf (dsem 2 k) = 2 := aOf_dsem 2 k
theorem aOf3 (k : Fin 16) : aOf (dsem 3 k) = 3 := aOf_dsem 3 k
theorem two_le_dsem : ∀ (a : Fin 4) (k : Fin 16), 2 ≤ (dsem a k).val := by decide +kernel

/-- The credit of one chunk transfer. -/
abbrev N : ℕ := (sl zrM 0).view.dmaCredit

/-! ## Contents -/

/-- The input block as the pipeline stages it: the device's whole block of X. -/
def xstg (c : Dev nD) : (cc0_stg0_0 : Ref sig .tc).ty.Contents (Elt F) :=
  (win0_0.blk (0 : Fin 1)).view.read (Elt F) (m ((c : Thread nD τ).loc main_arg0))

abbrev r1 (c : Dev nD) : LoadRect S1x1024x1024 := (Rect.unit (s := S1x1024x1024) (k0_off1 c) S1x512x512.size (k0_off1_inb c)).toLoadRect

/-- What device c puts in its z send buffer: rows [512x, 512x+512), columns of the other z half, of its block. -/
def zsC (c : Dev nD) : (cc0_scratch0 : Ref sig .tc).ty.Contents (Elt F) :=
  k0_pay2 (k0_pay1 (xM.view.readAt (Elt F) (r1 c) (xstg m c)))
/-- What lands in c's z receive buffer: its z-neighbour's send buffer. -/
def zrC (c : Dev nD) : (cc0_scratch1 : Ref sig .tc).ty.Contents (Elt F) := zsC m (zp c)
/-- What lands in c's x receive buffer: its x-neighbour's z receive buffer. -/
def xrC (c : Dev nD) : (cc0_scratch2 : Ref sig .tc).ty.Contents (Elt F) := zrC m (xp c)

/-- One output chunk: the device's own 32 rows plus the received 32 rows. -/
def sumBlk (a : Vec F S1x32x512 .f32) (b : Vec F S32x512 .bf16) : FVec F S32x512 .bf16 :=
  truncf .bf16 (addf (shapeCast S32x512 a shapeCasts_S1x32x512_S32x512) (extf .f32 b bitsLt_bf16_f32)) bitsLt_bf16_f32

abbrev rx2 (c : Dev nD) (k : Fin 16) : LoadRect S1x1024x1024 := (Rect.unit (s := S1x1024x1024) (k0_off2 c (BitVec.ofNat 32 (32 * k.val))) S1x32x512.size (k0_off2_inb c k)).toLoadRect
abbrev rx4 (c : Dev nD) (k : Fin 16) : LoadRect S1x1024x1024 := (Rect.unit (s := S1x1024x1024) (k0_off4 c (BitVec.ofNat 32 (32 * k.val))) S1x32x512.size (k0_off4_inb c k)).toLoadRect
abbrev ro3 (c : Dev nD) (k : Fin 16) : Rect S1024x512 := Rect.unit (s := S1024x512) (k0_off3 c (BitVec.ofNat 32 (32 * k.val))) S32x512.size (k0_off3_inb c k)
abbrev ro5 (c : Dev nD) (k : Fin 16) : Rect S1024x512 := Rect.unit (s := S1024x512) (k0_off5 c (BitVec.ofNat 32 (32 * k.val))) S32x512.size (k0_off5_inb c k)

/-- Chunk k of the first 512 rows (the device's own x half): own rows plus the z-neighbour's. -/
def payA (c : Dev nD) (k : Fin 16) : FVec F S32x512 .bf16 :=
  sumBlk (xM.view.readAt (Elt F) (rx2 c k) (xstg m c)) (zrM.view.readAt (Elt F) (rowRect k).toLoadRect (zrC m c))
/-- Chunk k of the other 512 rows: own rows plus what the x-neighbour forwarded. -/
def payB (c : Dev nD) (k : Fin 16) : FVec F S32x512 .bf16 :=
  sumBlk (xM.view.readAt (Elt F) (rx4 c k) (xstg m c)) (xrM.view.readAt (Elt F) (rowRect k).toLoadRect (xrC m c))

/-- A store of a whole rectangle into the output staging buffer. -/
def wrO (r : Rect S1024x512) (f : (cc0_stg1_0 : Ref sig .tc).ty.Contents (Elt F)) (w : r.shape.Idx → Elt F .bf16) :
    (cc0_stg1_0 : Ref sig .tc).ty.Contents (Elt F) :=
  ((oM : Memref sig .tc .vmem S1024x512 .bf16).access r : View sig .tc _ _ _).write (Elt F) f w Finset.univ

/-- The output staging buffer after the first j of the 32 chunk stores, from contents g. -/
def outSt (c : Dev nD) (g : (cc0_stg1_0 : Ref sig .tc).ty.Contents (Elt F)) : ℕ → (cc0_stg1_0 : Ref sig .tc).ty.Contents (Elt F)
  | 0 => g
  | j + 1 =>
    if h : j < 16 then wrO (ro3 c ⟨j, h⟩) (outSt c g j) (payA m c ⟨j, h⟩)
    else wrO (ro5 c ⟨(j - 16) % 16, Nat.mod_lt _ (by decide)⟩) (outSt c g j) (payB m c ⟨(j - 16) % 16, Nat.mod_lt _ (by decide)⟩)

/-- The kernel's result on device c: all 32 chunks stored (the stores cover the buffer, so the start does not matter). -/
def outAt (c : Dev nD) : (cc0_stg1_0 : Ref sig .tc).ty.Contents (Elt F) := outSt m c (fun _ => Classical.arbitrary _) 32

/-! ## The schedule: one round per cell -/

section Schedule

/-- Chunk k of c's z send buffer at what c put there (comes back to c when the transfer has read it). -/
def zsPay (c : Dev nD) (k : Fin 16) : sProp 𝕄 :=
  (sl zsM k).view.loc (c : Thread nD τ) ↦[(sl zsM k).view.set]{fullShare} (zsC m c)
/-- Chunk k of c's z receive buffer holding the z-neighbour's chunk. -/
def zrPay (c : Dev nD) (k : Fin 16) : sProp 𝕄 :=
  (sl zrM k).view.loc (c : Thread nD τ) ↦[(sl zrM k).view.set]{fullShare} (zrC m c)
/-- The half of chunk k of c's z receive buffer lent to the forwarding transfer. -/
def xsPay (c : Dev nD) (k : Fin 16) : sProp 𝕄 :=
  (sl zrM k).view.loc (c : Thread nD τ) ↦[(sl zrM k).view.set]{fullShare.left} (zrC m c)
/-- Chunk k of c's x receive buffer holding what the x-neighbour forwarded. -/
def xrPay (c : Dev nD) (k : Fin 16) : sProp 𝕄 :=
  (sl xrM k).view.loc (c : Thread nD τ) ↦[(sl xrM k).view.set]{fullShare} (xrC m c)
/-- With its entry signal the z-neighbour hands c its z receive buffer (c writes into it); -/
def barPayZ (c : Dev nD) : sProp 𝕄 :=
  iprop(∃ f, zrM.view.loc (zp c : Thread nD τ) ↦[zrM.view.set]{fullShare} f)
/-- the x-neighbour its x receive buffer. -/
def barPayX (c : Dev nD) : sProp 𝕄 :=
  iprop(∃ f, xrM.view.loc (xp c : Thread nD τ) ↦[xrM.view.set]{fullShare} f)

theorem N_pos : 0 < N := View.dmaCredit_pos _ (by decide)

/-- Round 0 only. The barrier cell: duty `false` paid by the z-neighbour, `true` by the x-neighbour, one unit each.
    A chunk's DMA cell: the one duty `false` of the chunk's credit. -/
def rd : Rounds.Schedule (GSem nD τ sig) Bool 𝕄 where
  duties g r := if r = 0 ∧ g.1.2 = .tc then (match g.2 with | .reg _ => Finset.univ | .dma s => if 2 ≤ s.val then {false} else ∅) else ∅
  unitless _ := False
  amount g _ _ := match g.2 with | .reg _ => 1 | .dma _ => N
  payload g _ d := match g.2 with
    | .reg _ => if d then barPayX g.1.1 else barPayZ g.1.1
    | .dma s => if s.val < 2 then iprop(emp) else if aOf s = 0 then zsPay m g.1.1 (kOf s) else if aOf s = 1 then zrPay m g.1.1 (kOf s)
        else if aOf s = 2 then xsPay m g.1.1 (kOf s) else xrPay m g.1.1 (kOf s)
  amount_pos g _ _ _ := by
    cases g.2 with
    | reg _ => exact Nat.one_pos
    | dma _ => exact N_pos

instance rd_payload_storable (g : GSem nD τ sig) (r : ℕ) (d : Bool) : BI.Storable (upEmb : UEmb _ 𝕄) ((rd (F := F) m).payload g r d) := by
  show BI.Storable upEmb (match g.2 with
    | .reg _ => if d then barPayX g.1.1 else barPayZ g.1.1
    | .dma s => if s.val < 2 then iprop(emp) else if aOf s = 0 then zsPay m g.1.1 (kOf s) else if aOf s = 1 then zrPay m g.1.1 (kOf s)
        else if aOf s = 2 then xsPay m g.1.1 (kOf s) else xrPay m g.1.1 (kOf s))
  unfold barPayX barPayZ zsPay zrPay xsPay xrPay
  (repeat' split) <;> infer_instance

variable (c : Dev nD) (a : Fin 4) (k : Fin 16)

theorem duties_bar : (rd (F := F) m).duties (barCell c) 0 = Finset.univ := by dsimp only [rd]; rw [if_pos ⟨rfl, rfl⟩]
theorem duties_d : (rd (F := F) m).duties (dCell c a k) 0 = {false} := by dsimp only [rd]; rw [if_pos ⟨rfl, rfl⟩, if_pos (two_le_dsem a k)]
theorem duties_later (g : GSem nD τ sig) : ∀ r, 1 ≤ r → (rd (F := F) m).duties g r = ∅ :=
  fun r hr => by dsimp only [rd]; rw [if_neg fun h => by omega]
theorem amount_bar (d : Bool) : (rd (F := F) m).amount (barCell c) 0 d = 1 := rfl
theorem amount_d (d : Bool) : (rd (F := F) m).amount (dCell c a k) 0 d = N := rfl
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_d : (rd (F := F) m).expect (dCell c a k) 0 = N := by
  unfold Schedule.expect Schedule.amountOf; rw [duties_d, Finset.sum_singleton, amount_d]

theorem payload_bar_false : (rd (F := F) m).payload (barCell c) 0 false = barPayZ c := rfl
theorem payload_bar_true : (rd (F := F) m).payload (barCell c) 0 true = barPayX c := rfl
theorem payload_zs (d : Bool) : (rd (F := F) m).payload (dCell c 0 k) 0 d = zsPay m c k := by
  dsimp only [rd]; rw [if_neg (by have := two_le_dsem 0 k; omega), if_pos (aOf0 k), kOf_dsem]
theorem payload_zr (d : Bool) : (rd (F := F) m).payload (dCell c 1 k) 0 d = zrPay m c k := by
  dsimp only [rd]; rw [if_neg (by have := two_le_dsem 1 k; omega), if_neg (by rw [aOf1]; decide), if_pos (aOf1 k), kOf_dsem]
theorem payload_xs (d : Bool) : (rd (F := F) m).payload (dCell c 2 k) 0 d = xsPay m c k := by
  dsimp only [rd]; rw [if_neg (by have := two_le_dsem 2 k; omega), if_neg (by rw [aOf2]; decide), if_neg (by rw [aOf2]; decide), if_pos (aOf2 k), kOf_dsem]
theorem payload_xr (d : Bool) : (rd (F := F) m).payload (dCell c 3 k) 0 d = xrPay m c k := by
  dsimp only [rd]; rw [if_neg (by have := two_le_dsem 3 k; omega), if_neg (by rw [aOf3]; decide), if_neg (by rw [aOf3]; decide), if_neg (by rw [aOf3]; decide), kOf_dsem]

/-- The barrier cell's whole round: both neighbours' buffers. -/
theorem rest_bar : bigSep ((rd (F := F) m).duties (barCell c) 0 \ ∅) (fun d => (rd (F := F) m).payload (barCell c) 0 d) = iprop(barPayZ c ∗ barPayX c) := by
  rw [Finset.sdiff_empty, duties_bar, bigSep_univ_eq_bigSepL [false, true] (by decide) (by decide), bigSepL_cons_cons, bigSepL_singleton,
    payload_bar_false, payload_bar_true]
  rfl
theorem rest_d : bigSep ((rd (F := F) m).duties (dCell c a k) 0 \ ∅) (fun d => (rd (F := F) m).payload (dCell c a k) 0 d) = (rd (F := F) m).payload (dCell c a k) 0 false := by
  rw [Finset.sdiff_empty, duties_d, bigSep_singleton]

end Schedule

/-! ## What each device owes at launch; the levels -/

/-- The z-neighbour's 16 z-receive credits; the x-neighbour's 16 x-receive credits. -/
def Ozr (c : Dev nD) : CellTallies nD τ sig Unit := ∑ k : Fin 16, tallyAt (dCell (zp c) 1 k) () N
def Oxr (c : Dev nD) : CellTallies nD τ sig Unit := ∑ k : Fin 16, tallyAt (dCell (xp c) 3 k) () N
/-- Summed so that the first signal (to the z-neighbour) peels the last summand, the second the next. -/
def O₁ (c : Dev nD) : CellTallies nD τ sig Unit := (Oxr c + Ozr c) + tallyAt (barCell (xp c)) () 1
def O₀ (c : Dev nD) : CellTallies nD τ sig Unit := O₁ c + tallyAt (barCell (zp c)) () 1

def L (g : GSem nD τ sig) : Finset Unit := if g.1.2 = .tc then {()} else ∅
/-- Barrier cells at 1, z-receive cells at 2, x-receive cells at 3, everything else (staging, sends) at 0. -/
def lv (g : GSem nD τ sig) (_ : Unit) : ℕ :=
  match g.2 with
  | .reg _ => 1
  | .dma s => if 2 ≤ s.val ∧ aOf s = 1 then 2 else if 2 ≤ s.val ∧ aOf s = 3 then 3 else 0

theorem L_of_ne (g : GSem nD τ sig) (h : g.1.2 ≠ .tc) : L g = ∅ := if_neg h
theorem L_tc (c : Dev nD) (sm : SemLoc sig) : L ((c : Thread nD τ), sm) = {()} := if_pos rfl

/-! ## The ghost state and the proof data -/

/-- Every cell's invariant under the names the launch allocated, and that round 0 of every cell is reached. -/
def records (Kb : Dev nD → ℕ) (Kd : Dev nD × Fin 4 × Fin 16 → ℕ) : sProp 𝕄 :=
  iprop((bigSep Finset.univ fun c : Dev nD => cellInv ER (rd m) (Kb c) (barCell c))
    ∗ (bigSep Finset.univ fun x : Dev nD × Fin 4 × Fin 16 => cellInv ER (rd m) (Kd x) (dCell x.1 x.2.1 x.2.2))
    ∗ (bigSep Finset.univ fun c : Dev nD => reached ER (barCell c) 0)
    ∗ (bigSep Finset.univ fun x : Dev nD × Fin 4 × Fin 16 => reached ER (dCell x.1 x.2.1 x.2.2) 0))

instance records_persistent (Kb : Dev nD → ℕ) (Kd : Dev nD × Fin 4 × Fin 16 → ℕ) : BI.Persistent (records m Kb Kd) := by unfold records; infer_instance

/-- What stays with device c: its positions at round 0 of its 65 cells, and the tokens of the 66 duties it pays —
    both neighbours' barrier duties, its own 32 send duties, the z-neighbour's 16 z-receive and the x-neighbour's 16
    x-receive duties. -/
def linear (c : Dev nD) : sProp 𝕄 :=
  iprop(atPos ER (barCell c) 0 ∅ 0
    ∗ (bigSep Finset.univ fun ak : Fin 4 × Fin 16 => atPos ER (dCell c ak.1 ak.2) 0 ∅ 0)
    ∗ dutyTok ER (barCell (zp c)) 0 false ∗ dutyTok ER (barCell (xp c)) 0 true
    ∗ (bigSep Finset.univ fun k : Fin 16 => dutyTok ER (dCell c 0 k) 0 false)
    ∗ (bigSep Finset.univ fun k : Fin 16 => dutyTok ER (dCell (zp c) 1 k) 0 false)
    ∗ (bigSep Finset.univ fun k : Fin 16 => dutyTok ER (dCell c 2 k) 0 false)
    ∗ (bigSep Finset.univ fun k : Fin 16 => dutyTok ER (dCell (xp c) 3 k) 0 false))

def ghost (c : Dev nD) : sProp 𝕄 := iprop(∃ Kb Kd, records m Kb Kd ∗ linear c)

/-- The credit the launch deals device c: its barrier's two units, each receive cell's chunk credit. -/
def creds (c : Dev nD) : sProp 𝕄 :=
  iprop(cred (tallyAt (barCell c) () 2)
    ∗ (bigSep Finset.univ fun k : Fin 16 => cred (tallyAt (dCell c 1 k) () N))
    ∗ (bigSep Finset.univ fun k : Fin 16 => cred (tallyAt (dCell c 3 k) () N)))

def start (c : Dev nD) : sProp 𝕄 := iprop(ghost m c ∗ creds c ∗ levAts L lv)

abbrev whole (c : Dev nD) (b : Ref sig .tc) : sProp 𝕄 := iprop(∃ f : Buf (Elt F) ((c : Thread nD τ).loc b), ((c : Thread nD τ).loc b) ↦{fullShare} f)

/-- Before the point: the start, and the three scratch buffers at some contents. -/
def Φ₀ (c : Dev nD) : sProp 𝕄 := iprop(start m c ∗ whole c cc0_scratch0 ∗ whole c cc0_scratch1 ∗ whole c cc0_scratch2)
/-- After it: the three scratch buffers back whole, the 64 own cells closed at zero. -/
def Φ₁ (c : Dev nD) : sProp 𝕄 :=
  iprop((whole c cc0_scratch0 ∗ whole c cc0_scratch1 ∗ whole c cc0_scratch2) ∗ bigSep Finset.univ fun ak : Fin 4 × Fin 16 => semVal ((c : Thread nD τ), osem ak) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

end Cert.KernelIdealProof

end
-- ==== Proof.KernelIdealGhost.lean ====
/-
The launch's ghost step: the protocol's copy of the rounds algebra dealt to the devices (every cell's round state and
owner's position, every duty's token), each cell's invariant allocated from its counter at zero, and the tokens dealt
to the devices that pay them (a barrier duty to the neighbour it names, a receive duty to the neighbour that sends).
-/
import proofs.«901028_g7700000000001029_dist_rs_v7x_xyz2x2x2_z_m1024_n512_bf16_1_alg».proof.Proof.KernelIdealSetup

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the tokens, indexed -/

/-- A cell's index: a device (its barrier cell), or a device with an array and a chunk (one of its 64 chunk cells). -/
abbrev CIx : Type := Dev nD ⊕ (Dev nD × Fin 4 × Fin 16)
/-- A token's index: a device and a barrier duty, or a chunk cell (its one duty). -/
abbrev TIx : Type := (Dev nD × Bool) ⊕ (Dev nD × Fin 4 × Fin 16)

def cellAt : CIx → GSem nD τ sig
  | .inl c => barCell c
  | .inr x => dCell x.1 x.2.1 x.2.2

def tokAt : TIx → GSem nD τ sig × ℕ × Bool
  | .inl x => (barCell x.1, 0, x.2)
  | .inr x => (dCell x.1 x.2.1 x.2.2, 0, false)

theorem bar_ne_d (c c' : Dev nD) (a : Fin 4) (k : Fin 16) : barCell c ≠ dCell c' a k := fun h => by
  have := congrArg Prod.snd h; cases this

theorem dCell_inj {c c' : Dev nD} {a a' : Fin 4} {k k' : Fin 16} (h : dCell c a k = dCell c' a' k') : c = c' ∧ a = a' ∧ k = k' := by
  have h1 : c = c' := congrArg (fun g : GSem nD τ sig => g.1.1) h
  have h2 : dsem a k = dsem a' k' := SemLoc.dma.inj (congrArg Prod.snd h)
  exact ⟨h1, dsem_inj a a' k k' h2⟩

theorem cellAt_injective : Function.Injective cellAt := by
  rintro (c | ⟨c, a, k⟩) (c' | ⟨c', a', k'⟩) h
  · exact congrArg Sum.inl (congrArg (fun g : GSem nD τ sig => g.1.1) h : c = c')
  · exact absurd h (bar_ne_d c c' a' k')
  · exact absurd h.symm (bar_ne_d c' c a k)
  · obtain ⟨rfl, rfl, rfl⟩ := dCell_inj h; rfl

theorem tokAt_injective : Function.Injective tokAt := by
  rintro (⟨c, d⟩ | ⟨c, a, k⟩) (⟨c', d'⟩ | ⟨c', a', k'⟩) h
  · have h1 : c = c' := congrArg (fun x : GSem nD τ sig × ℕ × Bool => x.1.1.1) h
    have h2 : d = d' := congrArg (fun x : GSem nD τ sig × ℕ × Bool => x.2.2) h
    subst h1; subst h2; rfl
  · exact absurd (congrArg Prod.fst h) (bar_ne_d c c' a' k')
  · exact absurd (congrArg Prod.fst h).symm (bar_ne_d c' c a k)
  · obtain ⟨rfl, rfl, rfl⟩ := dCell_inj (congrArg Prod.fst h); rfl

/-- The protocol's cells: every device's barrier cell and 64 chunk cells. -/
def ringCells : Finset (GSem nD τ sig) := Finset.univ.map ⟨cellAt, cellAt_injective⟩
/-- Every duty's token as minted: (cell, round 0, duty). -/
def ringToks : Finset (GSem nD τ sig × ℕ × Bool) := Finset.univ.map ⟨tokAt, tokAt_injective⟩

/-- The launch element: the pipeline's copy and the protocol's. -/
def u₀ : UU :=
  (initOf (Pipeline.cells cfgs cellOf_inj) (Pipeline.launchToks cfgs cellOf_inj), initOf ringCells ringToks)

/-- An assertion about a cell, over the cells of device c: the barrier cell, then the 64 chunk cells. -/
abbrev own65 (Φ : GSem nD τ sig → sProp 𝕄) (c : Dev nD) : sProp 𝕄 :=
  iprop(Φ (barCell c) ∗ bigSep Finset.univ fun ak : Fin 4 × Fin 16 => Φ (dCell c ak.1 ak.2))

/-- The duty tokens of device c's own cells. -/
def toks (c : Dev nD) : sProp 𝕄 :=
  iprop(dutyTok ER (barCell c) 0 false ∗ dutyTok ER (barCell c) 0 true
    ∗ bigSep Finset.univ fun ak : Fin 4 × Fin 16 => dutyTok ER (dCell c ak.1 ak.2) 0 false)

/-- What the launch element deals device c before the cells' invariants exist. -/
def G (m : (ℓ : Loc nD τ sig) → Buf (Elt F) ℓ) (c : Dev nD) : sProp 𝕄 :=
  iprop(own65 (fun g => roundState ER (rd m) g 0) c ∗ own65 (fun g => reached ER g 0) c ∗ own65 (fun g => atPos ER g 0 ∅ 0) c ∗ toks c)

/-- The cells of all devices, device by device, are the barrier cells and the chunk cells. -/
theorem cells_two (Φ : GSem nD τ sig → sProp 𝕄) :
    bigSep Finset.univ (own65 Φ)
      = iprop((bigSep Finset.univ fun c : Dev nD => Φ (barCell c)) ∗ bigSep Finset.univ fun x : Dev nD × Fin 4 × Fin 16 => Φ (dCell x.1 x.2.1 x.2.2)) := by
  rw [bigSep_univ_prod (fun x : Dev nD × Fin 4 × Fin 16 => Φ (dCell x.1 x.2.1 x.2.2))]
  exact bigSep_sep' Finset.univ (fun c : Dev nD => Φ (barCell c)) (fun c : Dev nD => bigSep Finset.univ fun ak : Fin 4 × Fin 16 => Φ (dCell c ak.1 ak.2))

/-- An assertion over all the cells is the same dealt device by device. -/
theorem cells_deal (Φ : GSem nD τ sig → sProp 𝕄) : bigSep ringCells Φ = bigSep Finset.univ (own65 Φ) := by
  rw [cells_two]
  unfold ringCells
  rw [bigSep_map, bigSep_univ_sum]
  rfl

theorem bigSep_bool (Φ : Bool → sProp 𝕄) : bigSep Finset.univ Φ = iprop(Φ false ∗ Φ true) :=
  bigSep_univ_eq_bigSepL [false, true] (by decide) (by decide) Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- All the tokens minted, dealt to the devices whose cells they belong to. -/
theorem toks_deal : bigSep ringToks (fun x => (dutyTok ER x.1 x.2.1 x.2.2 : sProp 𝕄)) ⊢ bigSep Finset.univ fun c : Dev nD => toks c := by
  unfold ringToks
  rw [bigSep_map, bigSep_univ_sum, bigSep_univ_prod, bigSep_univ_prod]
  refine (Entails.of_eq (bigSep_sep' _ _ _).symm).trans (bigSep_mono fun c _ => ?_)
  rw [bigSep_bool]
  show iprop((dutyTok ER (barCell c) 0 false ∗ dutyTok ER (barCell c) 0 true)
      ∗ bigSep Finset.univ fun ak : Fin 4 × Fin 16 => dutyTok ER (dCell c ak.1 ak.2) 0 false) ⊢ (toks c : sProp 𝕄)
  unfold toks
  iintro ⟨⟨H1, H2⟩, H3⟩
  isplitl [H1]; · iexact H1
  isplitl [H2]; · iexact H2
  iexact H3

/-- Funding: the protocol's launch element is every device's share. -/
theorem fund_ring (m : (ℓ : Loc nD τ sig) → Buf (Elt F) ℓ) : BI.own (ER (initOf ringCells ringToks)) ⊢ (|==> bigSep Finset.univ (G m) : sProp 𝕄) := by
  iintro HX
  imod (Rounds.fund ER (rd m) ringCells ringToks) $$ HX with ⟨Hst, Hr, Hat, Htok⟩
  imodintro
  ihave Hst' := (Entails.of_eq (cells_deal fun g => roundState ER (rd m) g 0)) $$ Hst
  ihave Hr' := (Entails.of_eq (cells_deal fun g => reached ER g 0)) $$ Hr
  ihave Hat' := (Entails.of_eq (cells_deal fun g => atPos ER g 0 ∅ 0)) $$ Hat
  ihave Htok' := (toks_deal (F := F)) $$ Htok
  unfold G; simp only [bigSep_sep']
  isplitl [Hst']; · iexact Hst'
  isplitl [Hr']; · iexact Hr'
  isplitl [Hat']; · iexact Hat'
  iexact Htok'

theorem hu₀ (m : (ℓ : Loc nD τ sig) → Buf (Elt F) ℓ) : (ownU (u₀ : UU) : sProp 𝕄)
    ⊢ |={Set.univ}=> iprop(BI.own (EP (initOf (Pipeline.cells cfgs cellOf_inj) (Pipeline.launchToks cfgs cellOf_inj))) ∗ bigSep Finset.univ (G (F := F) m)) := by
  unfold u₀
  iintro Hu
  ihave H := (ownU_pair _ _) $$ Hu
  icases H with ⟨HP, HX⟩
  imod (fund_ring m) $$ HX with HG
  imodintro
  isplitl [HP] <;> iassumption

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells: each invariant allocated from the cell's counter at zero and its round state at zero. -/
theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop(own65 (fun g => iprop(∃ κ : ℕ, cellInv ER (rd m) κ g)) c
          ∗ own65 (fun g => reached ER g 0) c ∗ own65 (fun g => atPos ER g 0 ∅ 0) c ∗ toks c) := by
  unfold G Pipeline.ownSems0
  rw [unscopedSems0_eq]
  iintro ⟨Hos, Hus, ⟨HstB, HstD⟩, Hr, Hat, Htok⟩
  imod ((Rounds.body_intro ER (rd m) (barCell c)).trans inv_alloc) $$ [Hus HstB] with HinvB
  · isplitl [Hus] <;> iassumption
  imod (show iprop((bigSep Finset.univ fun ak : Fin 4 × Fin 16 => semVal (dCell c ak.1 ak.2) 0) ∗ bigSep Finset.univ fun ak : Fin 4 × Fin 16 => roundState ER (rd m) (dCell c ak.1 ak.2) 0)
      ⊢ (|={Set.univ}=> bigSep Finset.univ fun ak : Fin 4 × Fin 16 => iprop(∃ κ : ℕ, cellInv ER (rd m) κ (dCell c ak.1 ak.2)) : sProp 𝕄) from by
        rw [← bigSep_sep']
        exact (bigSep_mono fun ak _ => (Rounds.body_intro ER (rd m) (dCell c ak.1 ak.2)).trans inv_alloc).trans (bigSep_fupd _ _)) $$ [Hos HstD] with HinvD
  · isplitl [Hos] <;> iassumption
  imodintro
  isplitl [HinvB HinvD]
  · isplitl [HinvB] <;> iassumption
  isplitl [Hr]; · iexact Hr
  isplitl [Hat]; · iexact Hat
  iexact Htok

theorem ghost_intro (m : (ℓ : Loc nD τ sig) → Buf (Elt F) ℓ) (Kb : Dev nD → ℕ) (Kd : Dev nD × Fin 4 × Fin 16 → ℕ) (c : Dev nD) :
    iprop(records m Kb Kd ∗ linear c) ⊢ ghost m c := by
  unfold ghost
  iintro ⟨HR, HL⟩
  iexists Kb, Kd
  isplitl [HR]; · iexact HR
  iexact HL

/-- The tokens of the duties device c pays. -/
def payToks (c : Dev nD) : sProp 𝕄 :=
  iprop(dutyTok ER (barCell (zp c)) 0 false ∗ dutyTok ER (barCell (xp c)) 0 true
    ∗ (bigSep Finset.univ fun k : Fin 16 => dutyTok ER (dCell c 0 k) 0 false)
    ∗ (bigSep Finset.univ fun k : Fin 16 => dutyTok ER (dCell (zp c) 1 k) 0 false)
    ∗ (bigSep Finset.univ fun k : Fin 16 => dutyTok ER (dCell c 2 k) 0 false)
    ∗ (bigSep Finset.univ fun k : Fin 16 => dutyTok ER (dCell (xp c) 3 k) 0 false))

/-- A device's own tokens, array by array. -/
theorem toks_split (c : Dev nD) : (toks c : sProp 𝕄) = iprop(dutyTok ER (barCell c) 0 false ∗ dutyTok ER (barCell c) 0 true
    ∗ (bigSep Finset.univ fun k : Fin 16 => dutyTok ER (dCell c 0 k) 0 false)
    ∗ (bigSep Finset.univ fun k : Fin 16 => dutyTok ER (dCell c 1 k) 0 false)
    ∗ (bigSep Finset.univ fun k : Fin 16 => dutyTok ER (dCell c 2 k) 0 false)
    ∗ (bigSep Finset.univ fun k : Fin 16 => dutyTok ER (dCell c 3 k) 0 false)) := by
  unfold toks; rw [bigSep_univ_prod, bigSep_fin4]

/-- The tokens dealt around: a barrier's duty false to the z-neighbour, its duty true to the x-neighbour, a z-receive
    token to the z-neighbour, an x-receive token to the x-neighbour (both neighbour maps are involutions); the send
    tokens stay. -/
theorem toks_around : (bigSep Finset.univ fun c : Dev nD => (toks c : sProp 𝕄)) ⊢ bigSep Finset.univ fun c : Dev nD => payToks c := by
  rw [bigSep_congr (s := Finset.univ) fun (c : Dev nD) _ => toks_split (F := F) c]
  unfold payToks
  simp only [bigSep_sep']
  rw [bigSep_univ_equiv zpE (fun c : Dev nD => (dutyTok ER (barCell c) 0 false : sProp 𝕄)),
    bigSep_univ_equiv xpE (fun c : Dev nD => (dutyTok ER (barCell c) 0 true : sProp 𝕄)),
    bigSep_univ_equiv zpE (fun c : Dev nD => (bigSep Finset.univ fun k : Fin 16 => dutyTok ER (dCell c 1 k) 0 false : sProp 𝕄)),
    bigSep_univ_equiv xpE (fun c : Dev nD => (bigSep Finset.univ fun k : Fin 16 => dutyTok ER (dCell c 3 k) 0 false : sProp 𝕄))]
  iintro ⟨H1, H2, H3, H4, H5, H6⟩
  isplitl [H1]; · iexact H1
  isplitl [H2]; · iexact H2
  isplitl [H3]; · iexact H3
  isplitl [H4]; · iexact H4
  isplitl [H5]; · iexact H5
  iexact H6

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop(own65 (fun g => iprop(∃ κ : ℕ, cellInv ER (rd m) κ g)) c
          ∗ own65 (fun g => reached ER g 0) c ∗ own65 (fun g => atPos ER g 0 ∅ 0) c ∗ toks c) : sProp 𝕄)
      ⊢ bigSep Finset.univ (ghost m) := by
  rw [bigSep_sep' Finset.univ (fun c : Dev nD => own65 (fun g => iprop(∃ κ : ℕ, cellInv ER (rd m) κ g)) c),
    bigSep_sep' Finset.univ (fun c : Dev nD => own65 (fun g => (reached ER g 0 : sProp 𝕄)) c),
    bigSep_sep' Finset.univ (fun c : Dev nD => own65 (fun g => (atPos ER g 0 ∅ 0 : sProp 𝕄)) c),
    cells_two (fun g => iprop(∃ κ : ℕ, cellInv ER (rd m) κ g)), cells_two (fun g => (reached ER g 0 : sProp 𝕄))]
  iintro ⟨⟨HIb, HId⟩, ⟨#HRb, #HRd⟩, Hat, Htok⟩
  ihave HKb := (BI.bigSep_exists_pi Finset.univ (fun (c : Dev nD) (κ : ℕ) => (cellInv ER (rd m) κ (barCell c) : sProp 𝕄))) $$ HIb
  icases HKb with ⟨%Kb, #HIb⟩
  ihave HKd := (BI.bigSep_exists_pi Finset.univ (fun (x : Dev nD × Fin 4 × Fin 16) (κ : ℕ) => (cellInv ER (rd m) κ (dCell x.1 x.2.1 x.2.2) : sProp 𝕄))) $$ HId
  icases HKd with ⟨%Kd, #HId⟩
  ihave Htk := (toks_around (F := F)) $$ Htok
  iapply (bigSep_with_persistent (R := records m Kb Kd) fun c _ => ghost_intro m Kb Kd c)
  isplitr
  · unfold records
    isplitl; · iexact HIb
    isplitl; · iexact HId
    isplitl; · iexact HRb
    iexact HRd
  · iapply ((Entails.of_eq (bigSep_sep' Finset.univ (fun c : Dev nD => own65 (fun g => (atPos ER g 0 ∅ 0 : sProp 𝕄)) c) payToks).symm).trans
      (bigSep_mono fun c _ => show _ ⊢ linear c from by
        unfold linear payToks
        iintro ⟨⟨H1, H2⟩, H3⟩
        isplitl [H1]; · iexact H1
        isplitl [H2]; · iexact H2
        iexact H3))
    isplitl [Hat]; · iexact Hat
    iexact Htk

/-- The global step: own AND unscoped (barrier) semaphores of every device at once, to every device's ghost state. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-- info: 'Cert.KernelIdealProof.hu₀' depends on axioms: [propext, Classical.choice, Quot.sound] -/
#guard_msgs in #print axioms hu₀

/-- info: 'Cert.KernelIdealProof.glob' depends on axioms: [propext, Classical.choice, Quot.sound] -/
#guard_msgs in #print axioms glob

end Cert.KernelIdealProof

end
-- ==== Proof.KernelIdealSteps.lean ====
/-
The protocol's steps at a symbolic device and chunk: what one remote transfer, one wait and one chunk's sum do to
the resources a device holds.
-/
import proofs.«901028_g7700000000001029_dist_rs_v7x_xyz2x2x2_z_m1024_n512_bf16_1_alg».proof.Proof.KernelIdealSetup
import Idealize.ShloMosaic.Lib.Pipeline.Value

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A chunk copied between two 512×512 buffers

On the chunk's elements (rows [32k, 32k+32)) the destination written with the source's chunk IS the source. -/

theorem copy_zs_zr (k : Fin 16) (fd : (sl zrM k).view.ty.Contents (Elt F)) (fs : (cc0_scratch0 : Ref sig .tc).ty.Contents (Elt F)) :
    ∀ i ∈ (sl zrM k).view.set, (sl zrM k).view.write (Elt F) fd ((sl zsM k).view.read (Elt F) fs) Finset.univ i = (fs : (cc0_scratch1 : Ref sig .tc).ty.Contents (Elt F)) i := by
  intro i hi
  obtain ⟨y, rfl⟩ := View.exists_emb_of_mem_set _ hi
  rw [View.write_emb_of_mem _ _ (Finset.mem_univ y), View.read_apply]
  simp only [cast_cast, cast_eq]
  rfl

theorem copy_zr_xr (k : Fin 16) (fd : (sl xrM k).view.ty.Contents (Elt F)) (fs : (cc0_scratch1 : Ref sig .tc).ty.Contents (Elt F)) :
    ∀ i ∈ (sl xrM k).view.set, (sl xrM k).view.write (Elt F) fd ((sl zrM k).view.read (Elt F) fs) Finset.univ i = (fs : (cc0_scratch2 : Ref sig .tc).ty.Contents (Elt F)) i := by
  intro i hi
  obtain ⟨y, rfl⟩ := View.exists_emb_of_mem_set _ hi
  rw [View.write_emb_of_mem _ _ (Finset.mem_univ y), View.read_apply]
  simp only [cast_cast, cast_eq]
  rfl

/-- A chunk's credit does not depend on the chunk or the buffer. -/
theorem cr_zs (k : Fin 16) : (sl zsM k).view.dmaCredit = N := rfl
theorem cr_zr (k : Fin 16) : (sl zrM k).view.dmaCredit = N := rfl
theorem cr_xr (k : Fin 16) : (sl xrM k).view.dmaCredit = N := rfl

/-! ## The two transfers -/

/-- Chunk k of the send buffer goes to the z-neighbour n's receive buffer: the device pays its own z-send duty (the
    chunk comes back with it) and the neighbour's z-receive duty (the neighbour's chunk then holds this device's). -/
theorem step_zsend (Kd : Dev nD × Fin 4 × Fin 16 → ℕ) (c n : Dev nD) (hn : n = zp c) (k : Fin 16)
    {hsc : ((sl zrM k) : Memref sig (Dev.tc n : Thread nD τ).2.kind .vmem S32x512 .bf16).view.ref.isScScratch = false}
    {hsrc : (sl zsM k).view.WordExact} {hdst : (sl zrM k).view.WordExact}
    {hsem : DmaTarget.Typed .vmem (.dma (semAt cc0_scratch4 k)) (.remote (Dev.tc n : Thread nD τ) (sl zrM k) (.dma (semAt cc0_scratch3 k)) hsc)}
    {α : Type} {Q : α → sProp 𝕄} {kont : PUnit → Prog (TpuEff nD τ sig (Elt F) Λ₀ .tc) α}
    (fd : Buf (Elt F) ((sl zrM k).view.loc (zp c : Thread nD τ))) (O : CellTallies nD τ sig Unit) (W : Waits sig Unit) :
    iprop(cellInv ER (rd m) (Kd (c, 0, k)) (dCell c 0 k) ∗ cellInv ER (rd m) (Kd (zp c, 1, k)) (dCell (zp c) 1 k)
        ∗ ((sl zsM k).view.loc (c : Thread nD τ) ↦[(sl zsM k).view.set]{fullShare} zsC m c)
        ∗ ((sl zrM k).view.loc (zp c : Thread nD τ) ↦[(sl zrM k).view.set]{fullShare} fd)
        ∗ owes (c : Thread nD τ) (O + tallyAt (dCell (zp c) 1 k) () N) W
        ∗ dutyTok ER (dCell c 0 k) 0 false ∗ reached ER (dCell c 0 k) 0
        ∗ dutyTok ER (dCell (zp c) 1 k) 0 false ∗ reached ER (dCell (zp c) 1 k) 0)
      ⊢ iprop(((cred (tallyAt (dCell c 0 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl zsM k) (.remote (Dev.tc n : Thread nD τ) (sl zrM k) (.dma (semAt cc0_scratch3 k)) hsc) (.dma (semAt cc0_scratch4 k)) hsrc hdst hsem) kont) Q) := by
  subst hn
  unfold dCell
  rw [← semAt3_eq k, ← semAt4_eq k]
  exact Rounds.wp_send_pointsTo 𝒱₀ ER (rd m) (c : Thread nD τ) none (κ₁ := Kd (c, 0, k)) (κ₂ := Kd (zp c, 1, k))
    (r₁ := 0) (r₂ := 0) (d₁ := false) (d₂ := false) (fd := fd)
    (by rw [semAt3_eq]; rw [duties_d]; exact Finset.mem_singleton_self _) (by rw [semAt4_eq]; rw [duties_d]; exact Finset.mem_singleton_self _)
    () () N rfl (by rw [semAt3_eq]; exact amount_d m c 0 k false) (by rw [semAt4_eq]; exact amount_d m (zp c) 1 k false) O rfl (W := W)
    (by rw [semAt3_eq, payload_zs]; exact BI.Entails.refl _)
    (by rw [semAt4_eq, payload_zr]; unfold zrPay zrC; rw [zp_zp]
        exact Entails.of_eq (BI.Region.is_congr (copy_zs_zr k fd (zsC m c))))

/-- Chunk k of the receive buffer, read at the left half share, is forwarded to the x-neighbour n's x receive buffer:
    the device pays its own x-send duty (the half comes back with it) and the neighbour's x-receive duty. -/
theorem step_xsend (Kd : Dev nD × Fin 4 × Fin 16 → ℕ) (c n : Dev nD) (hn : n = xp c) (k : Fin 16)
    {hsc : ((sl xrM k) : Memref sig (Dev.tc n : Thread nD τ).2.kind .vmem S32x512 .bf16).view.ref.isScScratch = false}
    {hsrc : (sl zrM k).view.WordExact} {hdst : (sl xrM k).view.WordExact}
    {hsem : DmaTarget.Typed .vmem (.dma (semAt cc0_scratch6 k)) (.remote (Dev.tc n : Thread nD τ) (sl xrM k) (.dma (semAt cc0_scratch5 k)) hsc)}
    {α : Type} {Q : α → sProp 𝕄} {kont : PUnit → Prog (TpuEff nD τ sig (Elt F) Λ₀ .tc) α}
    (fd : Buf (Elt F) ((sl xrM k).view.loc (xp c : Thread nD τ))) (O : CellTallies nD τ sig Unit) (W : Waits sig Unit) :
    iprop(cellInv ER (rd m) (Kd (c, 2, k)) (dCell c 2 k) ∗ cellInv ER (rd m) (Kd (xp c, 3, k)) (dCell (xp c) 3 k)
        ∗ ((sl zrM k).view.loc (c : Thread nD τ) ↦[(sl zrM k).view.set]{fullShare.left} zrC m c)
        ∗ ((sl xrM k).view.loc (xp c : Thread nD τ) ↦[(sl xrM k).view.set]{fullShare} fd)
        ∗ owes (c : Thread nD τ) (O + tallyAt (dCell (xp c) 3 k) () N) W
        ∗ dutyTok ER (dCell c 2 k) 0 false ∗ reached ER (dCell c 2 k) 0
        ∗ dutyTok ER (dCell (xp c) 3 k) 0 false ∗ reached ER (dCell (xp c) 3 k) 0)
      ⊢ iprop(((cred (tallyAt (dCell c 2 k) () N) ∗ owes (c : Thread nD τ) O W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (sl zrM k) (.remote (Dev.tc n : Thread nD τ) (sl xrM k) (.dma (semAt cc0_scratch5 k)) hsc) (.dma (semAt cc0_scratch6 k)) hsrc hdst hsem) kont) Q) := by
  subst hn
  unfold dCell
  rw [← semAt5_eq k, ← semAt6_eq k]
  exact Rounds.wp_send_pointsTo 𝒱₀ ER (rd m) (c : Thread nD τ) none (κ₁ := Kd (c, 2, k)) (κ₂ := Kd (xp c, 3, k))
    (r₁ := 0) (r₂ := 0) (d₁ := false) (d₂ := false) (fd := fd)
    (by rw [semAt5_eq]; rw [duties_d]; exact Finset.mem_singleton_self _) (by rw [semAt6_eq]; rw [duties_d]; exact Finset.mem_singleton_self _)
    () () N rfl (by rw [semAt5_eq]; exact amount_d m c 2 k false) (by rw [semAt6_eq]; exact amount_d m (xp c) 3 k false) O rfl (W := W)
    (by rw [semAt5_eq, payload_xs]; exact BI.Entails.refl _)
    (by rw [semAt6_eq, payload_xr]; unfold xrPay xrC; rw [xp_xp]
        exact Entails.of_eq (BI.Region.is_congr (copy_zr_xr k fd (zrC m c))))

/-! ## A wait on one of the device's own chunk cells -/

/-- The wait for the chunk's credit on cell (a, k): the cell's one duty's payload comes with it; the device is then at
    round 1 of the cell. `A` is the semaphore array the kernel indexes, `dst` the view whose credit the wait names. -/
theorem step_wait (Kd : Dev nD × Fin 4 × Fin 16 → ℕ) (c : Dev nD) (a : Fin 4) (k : Fin 16) (A : DmaSems sig S16) (hA : semAt A k = dsem a k)
    {sp' : Space} {s' : Shape} {e' : EltTy} {src : Memref sig .tc sp' s' e'} {dst : Memref sig .tc .vmem S32x512 .bf16} (hcr : dst.view.dmaCredit = N)
    {hsrc : src.view.WordExact} {hdst : dst.view.WordExact}
    {α : Type} {Q : α → sProp 𝕄} {kont : PUnit → Prog (TpuEff nD τ sig (Elt F) Λ₀ .tc) α}
    (O : CellTallies nD τ sig Unit) (W : Waits sig Unit) :
    iprop(cellInv ER (rd m) (Kd (c, a, k)) (dCell c a k) ∗ cred (tallyAt (dCell c a k) () N) ∗ owes (c : Thread nD τ) O W
        ∗ MayWait (c : Thread nD τ) (.dma (dsem a k)) () O ∗ atPos ER (dCell c a k) 0 ∅ 0)
      ⊢ iprop(((owes (c : Thread nD τ) O (insert (SemLoc.dma (dsem a k), ()) W) ∗ atPos ER (dCell c a k) 1 ∅ 0 ∗ reached ER (dCell c a k) 1
              ∗ (rd m).payload (dCell c a k) 0 false)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (semAt A k) src dst hsrc hdst) kont) Q) := by
  rw [hA, ← rest_d m c a k]
  unfold dCell
  rw [← hcr]
  exact Rounds.wp_wait_rest_token 𝒱₀ ER (rd m) (c : Thread nD τ) none (κ := Kd (c, a, k))
    (wpE_waitDma2_eq 𝒱₀ (c : Thread nD τ) none Set.univ) (Set.mem_univ _) () (O := O) (W := W) (R := 0) (m := 0) (T := ∅)
    (by rw [Nat.zero_add, hcr]; exact (expect_d m c a k).symm)

/-! ## One chunk's sum: three loads and a store -/

theorem zr_within (k : Fin 16) : (zrM : Memref sig .tc .vmem S512x512 .bf16).view.setOn (rowRect k).toLoadRect.set ⊆ (sl zrM k).view.set :=
  fun i hi => by rw [show (sl zrM k).view.set = (rowRect k).set.map (zrM : Memref sig .tc .vmem S512x512 .bf16).view.emb from View.set_slice _ _]; exact hi
theorem xr_within (k : Fin 16) : (xrM : Memref sig .tc .vmem S512x512 .bf16).view.setOn (rowRect k).toLoadRect.set ⊆ (sl xrM k).view.set :=
  fun i hi => by rw [show (sl xrM k).view.set = (rowRect k).set.map (xrM : Memref sig .tc .vmem S512x512 .bf16).view.emb from View.set_slice _ _]; exact hi

/-- Chunk k of the device's own x half: its own 32 rows plus rows k of the z receive buffer (held at any share),
    stored into the output staging buffer. -/
theorem step_sumA (c : Dev nD) (k : Fin 16) (pay : Vec F S1x32x512 .f32 → Vec F S32x512 .bf16 → FVec F S32x512 .bf16) (hpay : pay = sumBlk)
    {hl1 : (xM : Memref sig .tc .vmem S1x1024x1024 .f32).view.LoadsAt (rx2 c k)} {hl2 : (zrM : Memref sig .tc .vmem S512x512 .bf16).view.LoadsAt (rowRect k).toLoadRect}
    {hl3 : (oM : Memref sig .tc .vmem S1024x512 .bf16).view.LoadsAt (ro3 c k).toLoadRect}
    {hx : ((oM : Memref sig .tc .vmem S1024x512 .bf16).access (ro3 c k)).Stores Finset.univ} {hm : (Finset.univ : Finset (ro3 c k).shape.Idx) = Finset.univ ∨ ∀ a, (ro3 c k).stride a = 1}
    {α : Type} {Q : α → sProp 𝕄} {kont : PUnit → Prog (TpuEff nD τ sig (Elt F) Λ₀ .tc) α}
    (q : PosShare TreeShare) (g : (cc0_stg1_0 : Ref sig .tc).ty.Contents (Elt F)) :
    iprop((((c : Thread nD τ).loc cc0_stg0_0) ↦{fullShare} xstg m c)
        ∗ ((sl zrM k).view.loc (c : Thread nD τ) ↦[(sl zrM k).view.set]{q} zrC m c)
        ∗ (((c : Thread nD τ).loc cc0_stg1_0) ↦{fullShare} g))
      ⊢ iprop((((((c : Thread nD τ).loc cc0_stg0_0) ↦{fullShare} xstg m c)
            ∗ ((sl zrM k).view.loc (c : Thread nD τ) ↦[(sl zrM k).view.set]{q} zrC m c)
            ∗ (((c : Thread nD τ).loc cc0_stg1_0) ↦{fullShare} wrO (ro3 c k) g (payA m c k)))
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.load xM (rx2 c k) hl1) fun v1 => .op (.load zrM (rowRect k).toLoadRect hl2) fun v2 => .op (.load oM (ro3 c k).toLoadRect hl3) fun v3 =>
              .op (.store oM (ro3 c k) (pay v1 v2) Finset.univ hx hm) kont) Q) := by
  subst hpay
  iintro ⟨Hx, Hzr, Hout⟩ Hk
  iapply (wp_load 𝒱₀ (c : Thread nD τ) none Set.univ (m := xM) (Finset.subset_univ _)) $$ Hx; iintro Hx
  iapply (wp_load 𝒱₀ (c : Thread nD τ) none Set.univ (m := zrM) (zr_within k)) $$ Hzr; iintro Hzr
  iapply (wp_load 𝒱₀ (c : Thread nD τ) none Set.univ (m := oM) (Finset.subset_univ _)) $$ Hout; iintro Hout
  iapply (wp_store 𝒱₀ (c : Thread nD τ) none Set.univ (m := oM) (r := ro3 c k) (Mk := Finset.univ) (Finset.subset_univ _)) $$ Hout; iintro Hout
  iapply Hk
  isplitl [Hx]; · iexact Hx
  isplitl [Hzr]; · iexact Hzr
  iexact Hout

/-- Chunk k of the other x half: own rows plus rows k of the x receive buffer. -/
theorem step_sumB (c : Dev nD) (k : Fin 16) (pay : Vec F S1x32x512 .f32 → Vec F S32x512 .bf16 → FVec F S32x512 .bf16) (hpay : pay = sumBlk)
    {hl1 : (xM : Memref sig .tc .vmem S1x1024x1024 .f32).view.LoadsAt (rx4 c k)} {hl2 : (xrM : Memref sig .tc .vmem S512x512 .bf16).view.LoadsAt (rowRect k).toLoadRect}
    {hl3 : (oM : Memref sig .tc .vmem S1024x512 .bf16).view.LoadsAt (ro5 c k).toLoadRect}
    {hx : ((oM : Memref sig .tc .vmem S1024x512 .bf16).access (ro5 c k)).Stores Finset.univ} {hm : (Finset.univ : Finset (ro5 c k).shape.Idx) = Finset.univ ∨ ∀ a, (ro5 c k).stride a = 1}
    {α : Type} {Q : α → sProp 𝕄} {kont : PUnit → Prog (TpuEff nD τ sig (Elt F) Λ₀ .tc) α}
    (q : PosShare TreeShare) (g : (cc0_stg1_0 : Ref sig .tc).ty.Contents (Elt F)) :
    iprop((((c : Thread nD τ).loc cc0_stg0_0) ↦{fullShare} xstg m c)
        ∗ ((sl xrM k).view.loc (c : Thread nD τ) ↦[(sl xrM k).view.set]{q} xrC m c)
        ∗ (((c : Thread nD τ).loc cc0_stg1_0) ↦{fullShare} g))
      ⊢ iprop((((((c : Thread nD τ).loc cc0_stg0_0) ↦{fullShare} xstg m c)
            ∗ ((sl xrM k).view.loc (c : Thread nD τ) ↦[(sl xrM k).view.set]{q} xrC m c)
            ∗ (((c : Thread nD τ).loc cc0_stg1_0) ↦{fullShare} wrO (ro5 c k) g (payB m c k)))
          -∗ wp frame (wpE (defs₀ (F := F)) 𝒱₀ (c : Thread nD τ) none) Set.univ (kont ⟨⟩) Q)
        -∗ wp frame (wpE (defs₀ (F := F)) 𝒱₀ (c : Thread nD τ) none) Set.univ
            (.op (.load xM (rx4 c k) hl1) fun v1 => .op (.load xrM (rowRect k).toLoadRect hl2) fun v2 => .op (.load oM (ro5 c k).toLoadRect hl3) fun v3 =>
              .op (.store oM (ro5 c k) (pay v1 v2) Finset.univ hx hm) kont) Q) := by
  subst hpay
  iintro ⟨Hx, Hxr, Hout⟩ Hk
  iapply (wp_load 𝒱₀ (c : Thread nD τ) none Set.univ (m := xM) (Finset.subset_univ _)) $$ Hx; iintro Hx
  iapply (wp_load 𝒱₀ (c : Thread nD τ) none Set.univ (m := xrM) (xr_within k)) $$ Hxr; iintro Hxr
  iapply (wp_load 𝒱₀ (c : Thread nD τ) none Set.univ (m := oM) (Finset.subset_univ _)) $$ Hout; iintro Hout
  iapply (wp_store 𝒱₀ (c : Thread nD τ) none Set.univ (m := oM) (r := ro5 c k) (Mk := Finset.univ) (Finset.subset_univ _)) $$ Hout; iintro Hout
  iapply Hk
  isplitl [Hx]; · iexact Hx
  isplitl [Hxr]; · iexact Hxr
  iexact Hout

/-! ## The levels: what a device may wait for while it owes -/

/-- The x-neighbour's x-receive credit of chunk j; the z-neighbour's z-receive credit. -/
abbrev T3 (c : Dev nD) (j : Fin 16) : CellTallies nD τ sig Unit := tallyAt (dCell (xp c) 3 j) () N
abbrev T1 (c : Dev nD) (j : Fin 16) : CellTallies nD τ sig Unit := tallyAt (dCell (zp c) 1 j) () N

theorem tally_pos {g₀ g : GSem nD τ sig} {u : Unit} {n : ℕ} (h : 0 < (tallyAt g₀ () n : CellTallies nD τ sig Unit) g u) : g = g₀ := by
  rw [tallyAt_apply] at h
  by_contra hn
  rw [if_neg (fun h' => hn h'.1)] at h
  exact Nat.lt_irrefl 0 h

theorem listsum_pos (cell : Fin 16 → GSem nD τ sig) (l : List (Fin 16)) {g : GSem nD τ sig} {u : Unit}
    (h : 0 < ((l.map fun j => (tallyAt (cell j) () N : CellTallies nD τ sig Unit)).sum) g u) : ∃ j, g = cell j := by
  induction l with
  | nil => exact absurd h (Nat.lt_irrefl 0)
  | cons a l ih =>
    rw [List.map_cons, List.sum_cons] at h
    rcases Pipeline.add_pos_cases h with h1 | h2
    · exact ⟨a, tally_pos h1⟩
    · exact ih h2

theorem lv_bar (c : Dev nD) : lv (barCell c) () = 1 := rfl
theorem lv_zr (c : Dev nD) (k : Fin 16) : lv (dCell c 1 k) () = 2 := by
  show (if 2 ≤ (dsem 1 k).val ∧ aOf (dsem 1 k) = 1 then 2 else if 2 ≤ (dsem 1 k).val ∧ aOf (dsem 1 k) = 3 then 3 else 0) = 2
  rw [if_pos ⟨two_le_dsem 1 k, aOf1 k⟩]
theorem lv_xr (c : Dev nD) (k : Fin 16) : lv (dCell c 3 k) () = 3 := by
  show (if 2 ≤ (dsem 3 k).val ∧ aOf (dsem 3 k) = 1 then 2 else if 2 ≤ (dsem 3 k).val ∧ aOf (dsem 3 k) = 3 then 3 else 0) = 3
  rw [if_neg (fun h => by have := aOf3 k; omega), if_pos ⟨two_le_dsem 3 k, aOf3 k⟩]

/-- At its barrier wait a device owes receive credits only: cells above its barrier cell. -/
theorem mayWait_bar (c : Dev nD) (l3 l1 : List (Fin 16)) :
    (levAts L lv : sProp 𝕄) ⊢ MayWait (c : Thread nD τ) (.reg barS) () ((l3.map (T3 c)).sum + (l1.map (T1 c)).sum) :=
  Pipeline.mayWait_of_levAts (by rw [L_tc]; exact Finset.mem_singleton_self _) fun g i hg => by
    rcases Pipeline.add_pos_cases hg with h | h
    · obtain ⟨j, rfl⟩ := listsum_pos (fun j => dCell (xp c) 3 j) l3 h
      exact ⟨by rw [L_tc]; exact Finset.mem_singleton_self _, by rw [lv_xr]; show (1 : ℕ) < 3; decide⟩
    · obtain ⟨j, rfl⟩ := listsum_pos (fun j => dCell (zp c) 1 j) l1 h
      exact ⟨by rw [L_tc]; exact Finset.mem_singleton_self _, by rw [lv_zr]; show (1 : ℕ) < 2; decide⟩

/-- At a z-receive wait it owes x-receive credits only. -/
theorem mayWait_zr (c : Dev nD) (k : Fin 16) (l3 : List (Fin 16)) :
    (levAts L lv : sProp 𝕄) ⊢ MayWait (c : Thread nD τ) (.dma (dsem 1 k)) () ((l3.map (T3 c)).sum) :=
  Pipeline.mayWait_of_levAts (by rw [L_tc]; exact Finset.mem_singleton_self _) fun g i hg => by
    obtain ⟨j, rfl⟩ := listsum_pos (fun j => dCell (xp c) 3 j) l3 hg
    exact ⟨by rw [L_tc]; exact Finset.mem_singleton_self _, by rw [lv_xr]; show lv (dCell c 1 k) () < 3; rw [lv_zr]; decide⟩

/-! ## Lists of chunks, and the records read at a cell -/

abbrev ks : List (Fin 16) := [0, 1, 2, 3, 4, 5, 6, 7, 8, 9, 10, 11, 12, 13, 14, 15]
theorem ks_univ : (Finset.univ : Finset (Fin 16)) = ks.toFinset := by decide
theorem ks_nodup : ks.Nodup := by decide

theorem toL (Φ : Fin 16 → sProp 𝕄) : bigSep Finset.univ Φ = bigSepL ks Φ := bigSep_univ_eq_bigSepL ks ks_univ ks_nodup Φ

/-- A family over (array, chunk) as four lists of chunks. -/
theorem lists4 (Φ : Fin 4 → Fin 16 → sProp 𝕄) :
    bigSep Finset.univ (fun ak : Fin 4 × Fin 16 => Φ ak.1 ak.2) = iprop(bigSepL ks (Φ 0) ∗ bigSepL ks (Φ 1) ∗ bigSepL ks (Φ 2) ∗ bigSepL ks (Φ 3)) := by
  rw [bigSep_univ_prod, bigSep_univ_eq_bigSepL [(0 : Fin 4), 1, 2, 3] (by decide) (by decide), bigSepL_cons_cons, bigSepL_cons_cons, bigSepL_cons_cons, bigSepL_singleton,
    toL, toL, toL, toL]
  rfl

variable (Kb : Dev nD → ℕ) (Kd : Dev nD × Fin 4 × Fin 16 → ℕ)

theorem inv_b (c : Dev nD) : records m Kb Kd ⊢ cellInv ER (rd m) (Kb c) (barCell c) := by
  have h : (bigSep Finset.univ fun c : Dev nD => (cellInv ER (rd m) (Kb c) (barCell c) : sProp 𝕄)) ⊢ cellInv ER (rd m) (Kb c) (barCell c) := bigSep_elim (Finset.mem_univ c)
  unfold records; iintro ⟨H, -, -, -⟩; iapply h; iexact H
theorem inv_d (c : Dev nD) (a : Fin 4) (k : Fin 16) : records m Kb Kd ⊢ cellInv ER (rd m) (Kd (c, a, k)) (dCell c a k) := by
  have h : (bigSep Finset.univ fun x : Dev nD × Fin 4 × Fin 16 => (cellInv ER (rd m) (Kd x) (dCell x.1 x.2.1 x.2.2) : sProp 𝕄)) ⊢ cellInv ER (rd m) (Kd (c, a, k)) (dCell c a k) := bigSep_elim (Finset.mem_univ (c, a, k))
  unfold records; iintro ⟨-, H, -, -⟩; iapply h; iexact H
theorem rch_b (c : Dev nD) : records m Kb Kd ⊢ (reached ER (barCell c) 0 : sProp 𝕄) := by
  have h : (bigSep Finset.univ fun c : Dev nD => (reached ER (barCell c) 0 : sProp 𝕄)) ⊢ reached ER (barCell c) 0 := bigSep_elim (Finset.mem_univ c)
  unfold records; iintro ⟨-, -, H, -⟩; iapply h; iexact H
theorem rch_d (c : Dev nD) (a : Fin 4) (k : Fin 16) : records m Kb Kd ⊢ (reached ER (dCell c a k) 0 : sProp 𝕄) := by
  have h : (bigSep Finset.univ fun x : Dev nD × Fin 4 × Fin 16 => (reached ER (dCell x.1 x.2.1 x.2.2) 0 : sProp 𝕄)) ⊢ reached ER (dCell c a k) 0 := bigSep_elim (Finset.mem_univ (c, a, k))
  unfold records; iintro ⟨-, -, -, H⟩; iapply h; iexact H

/-! ## What a device owes, as lists -/

theorem Oxr_list (c : Dev nD) : Oxr c = (ks.map (T3 c)).sum := by
  unfold Oxr; rw [Fin.sum_univ_def]; rfl
theorem Ozr_list (c : Dev nD) : Ozr c = (ks.map (T1 c)).sum := by
  unfold Ozr; rw [Fin.sum_univ_def]; rfl

theorem owes_peel1 (c : Dev nD) (A : CellTallies nD τ sig Unit) (k : Fin 16) (l : List (Fin 16)) (W : Waits sig Unit) :
    (owes (c : Thread nD τ) (A + ((k :: l).map (T1 c)).sum) W : sProp 𝕄) ⊢ owes (c : Thread nD τ) ((A + (l.map (T1 c)).sum) + T1 c k) W :=
  Entails.of_eq (by rw [List.map_cons, List.sum_cons, add_comm (T1 c k), add_assoc])
theorem owes_peel3 (c : Dev nD) (k : Fin 16) (l : List (Fin 16)) (W : Waits sig Unit) :
    (owes (c : Thread nD τ) (((k :: l).map (T3 c)).sum) W : sProp 𝕄) ⊢ owes (c : Thread nD τ) ((l.map (T3 c)).sum + T3 c k) W :=
  Entails.of_eq (by rw [List.map_cons, List.sum_cons, add_comm])
theorem owes_nil1 (c : Dev nD) (A : CellTallies nD τ sig Unit) (W : Waits sig Unit) :
    (owes (c : Thread nD τ) (A + (([] : List (Fin 16)).map (T1 c)).sum) W : sProp 𝕄) ⊢ owes (c : Thread nD τ) A W :=
  Entails.of_eq (by rw [List.map_nil, List.sum_nil, add_zero])
theorem owes_nil3 (c : Dev nD) (W : Waits sig Unit) :
    (owes (c : Thread nD τ) ((([] : List (Fin 16)).map (T3 c)).sum) W : sProp 𝕄) ⊢ owes (c : Thread nD τ) 0 W :=
  Entails.of_eq (by rw [List.map_nil, List.sum_nil])

/-- The head of a list of chunks. -/
theorem peelL (k : Fin 16) (l : List (Fin 16)) (Φ : Fin 16 → sProp 𝕄) : bigSepL (k :: l) Φ = iprop(Φ k ∗ bigSepL l Φ) := bigSepL_cons k l Φ

/-- A list grown at its end. -/
theorem bigSepL_snoc (l : List (Fin 16)) (k : Fin 16) (Φ : Fin 16 → sProp 𝕄) : iprop(bigSepL l Φ ∗ Φ k) ⊢ bigSepL (l ++ [k]) Φ := by
  induction l with
  | nil => rw [List.nil_append, bigSepL_singleton, bigSepL_nil]; iintro ⟨-, H⟩; iexact H
  | cons a l ih =>
    rw [List.cons_append, peelL, peelL]
    iintro ⟨⟨Ha, Hl⟩, Hk⟩
    isplitl [Ha]; · iexact Ha
    iapply ih
    isplitl [Hl]; · iexact Hl
    iexact Hk

end Cert.KernelIdealProof

end
-- ==== Proof.KernelIdealOut.lean ====
/-
The output staging buffer after the 32 chunk stores.

The buffer has 1024 rows of 512 entries.  Store j < 16 writes the 32 rows starting at row 512·x + 32·j (x the
device's coordinate on the x axis, c / 4), store 16 + k the 32 rows starting at row 32·k + 512 − 512·x: the 32
row bands are pairwise disjoint and together they are all 1024 rows.  So after the 32 stores every entry of the
buffer is the entry of the block whose band holds its row, whatever the buffer held before.
-/
import proofs.«901028_g7700000000001029_dist_rs_v7x_xyz2x2x2_z_m1024_n512_bf16_1_alg».proof.Proof.KernelIdealSetup
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## One store, read at an index -/

/-- At an index of the stored rectangle the store leaves the block's entry. -/
theorem wrO_emb (r : Rect S1024x512) (f : (cc0_stg1_0 : Ref sig .tc).ty.Contents (Elt F)) (w : r.shape.Idx → Elt F .bf16)
    (y : r.shape.Idx) : wrO r f w (r.emb y) = w y := by
  have h := View.write_emb_of_mem (v := ((oM : Memref sig .tc .vmem S1024x512 .bf16).access r : View sig .tc _ _ _))
    (Val := Elt F) f w (M := Finset.univ) (x := y) (Finset.mem_univ _)
  exact h

/-- At an index that is no index of the stored rectangle the store changes nothing. -/
theorem wrO_off (r : Rect S1024x512) (f : (cc0_stg1_0 : Ref sig .tc).ty.Contents (Elt F)) (w : r.shape.Idx → Elt F .bf16)
    (i : S1024x512.Idx) (h : ∀ y : r.shape.Idx, r.emb y ≠ i) : wrO r f w i = f i := by
  unfold wrO View.write
  rw [preimage?_eq_none (emb := ((oM : Memref sig .tc .vmem S1024x512 .bf16).access r : View sig .tc _ _ _).emb) (y := i)
    (fun x => h x)]

/-! ## The row bands -/

theorem off3_row (c : Dev nD) (k : Fin 16) :
    k0_off3 c (BitVec.ofNat 32 (32 * k.val)) (0 : Fin 2) = 512 * (c.val / 4) + 32 * k.val := congrFun (k0_off3_eq c k) 0
theorem off3_col (c : Dev nD) (k : Fin 16) : k0_off3 c (BitVec.ofNat 32 (32 * k.val)) (1 : Fin 2) = 0 := congrFun (k0_off3_eq c k) 1
theorem off5_row (c : Dev nD) (k : Fin 16) :
    k0_off5 c (BitVec.ofNat 32 (32 * k.val)) (0 : Fin 2) = (32 * k.val + 512) - 512 * (c.val / 4) := congrFun (k0_off5_eq c k) 0
theorem off5_col (c : Dev nD) (k : Fin 16) : k0_off5 c (BitVec.ofNat 32 (32 * k.val)) (1 : Fin 2) = 0 := congrFun (k0_off5_eq c k) 1

/-- The row of an index of band k of the first sixteen. -/
theorem ro3_row (c : Dev nD) (k : Fin 16) (y : (ro3 c k).shape.Idx) :
    ((ro3 c k).emb y (0 : Fin 2)).val = 512 * (c.val / 4) + 32 * k.val + (y (0 : Fin 2)).val := by
  rw [Rect.emb_apply]; show k0_off3 c (BitVec.ofNat 32 (32 * k.val)) (0 : Fin 2) + 1 * (y (0 : Fin 2)).val = _
  rw [off3_row, Nat.one_mul]
/-- The row of an index of band k of the other sixteen. -/
theorem ro5_row (c : Dev nD) (k : Fin 16) (y : (ro5 c k).shape.Idx) :
    ((ro5 c k).emb y (0 : Fin 2)).val = (32 * k.val + 512) - 512 * (c.val / 4) + (y (0 : Fin 2)).val := by
  rw [Rect.emb_apply]; show k0_off5 c (BitVec.ofNat 32 (32 * k.val)) (0 : Fin 2) + 1 * (y (0 : Fin 2)).val = _
  rw [off5_row, Nat.one_mul]

theorem ro3_lt (c : Dev nD) (k : Fin 16) (y : (ro3 c k).shape.Idx) : (y (0 : Fin 2)).val < 32 := (y (0 : Fin 2)).isLt
theorem ro5_lt (c : Dev nD) (k : Fin 16) (y : (ro5 c k).shape.Idx) : (y (0 : Fin 2)).val < 32 := (y (0 : Fin 2)).isLt

/-- An index whose coordinates lie in a unit-stride rectangle's span on every axis is an index of the rectangle. -/
theorem exists_emb_unit {s : Shape} (off size : Fin s.rank → Nat) (inb : ∀ a, off a + size a ≤ s.size a) (i : s.Idx)
    (h : ∀ a, off a ≤ (i a).val ∧ (i a).val < off a + size a) :
    ∃ y : (Rect.unit off size inb).shape.Idx, i = (Rect.unit off size inb).emb y :=
  ⟨fun a => ⟨(i a).val - off a, by have := h a; show (i a).val - off a < size a; omega⟩, funext fun a => Fin.ext (by
    rw [Rect.emb_apply]; show (i a).val = off a + 1 * ((i a).val - off a); have := h a; omega)⟩

/-- Every index of the buffer lies in one of the 32 bands. -/
theorem out_cover (c : Dev nD) (i : S1024x512.Idx) : (∃ k y, i = (ro3 c k).emb y) ∨ (∃ k y, i = (ro5 c k).emb y) := by
  have hc := c.isLt
  have h0 : (i (0 : Fin 2)).val < 1024 := (i (0 : Fin 2)).isLt
  have h1 : (i (1 : Fin 2)).val < 512 := (i (1 : Fin 2)).isLt
  have hx : c.val / 4 = 0 ∨ c.val / 4 = 1 := by have : c.val < 8 := hc; omega
  by_cases hb : 512 * (c.val / 4) ≤ (i (0 : Fin 2)).val ∧ (i (0 : Fin 2)).val < 512 * (c.val / 4) + 512
  · left
    refine ⟨⟨((i (0 : Fin 2)).val - 512 * (c.val / 4)) / 32, by omega⟩, ?_⟩
    refine exists_emb_unit _ _ _ i (Fin.forall_fin_two.mpr ⟨?_, ?_⟩)
    · rw [off3_row]; show _ ∧ _ < _ + 32; dsimp only; omega
    · rw [off3_col]; show _ ∧ _ < _ + 512; omega
  · right
    refine ⟨⟨((i (0 : Fin 2)).val - (512 - 512 * (c.val / 4))) / 32, by omega⟩, ?_⟩
    refine exists_emb_unit _ _ _ i (Fin.forall_fin_two.mpr ⟨?_, ?_⟩)
    · rw [off5_row]; show _ ∧ _ < _ + 32; dsimp only; omega
    · rw [off5_col]; show _ ∧ _ < _ + 512; omega

/-! ## The stores one at a time -/

theorem outSt_succ_A (c : Dev nD) (g : (cc0_stg1_0 : Ref sig .tc).ty.Contents (Elt F)) (k : Fin 16) :
    outSt m c g (k.val + 1) = wrO (ro3 c k) (outSt m c g k.val) (payA m c k) := by
  show (if h : k.val < 16 then wrO (ro3 c ⟨k.val, h⟩) (outSt m c g k.val) (payA m c ⟨k.val, h⟩) else _) = _
  rw [dif_pos k.isLt]

theorem outSt_succ_B (c : Dev nD) (g : (cc0_stg1_0 : Ref sig .tc).ty.Contents (Elt F)) (k : Fin 16) :
    outSt m c g (16 + k.val + 1) = wrO (ro5 c k) (outSt m c g (16 + k.val)) (payB m c k) := by
  have e : ∀ p, (⟨(16 + k.val - 16) % 16, p⟩ : Fin 16) = k := fun p => Fin.ext (by have := k.isLt; show (16 + k.val - 16) % 16 = k.val; omega)
  show (if h : 16 + k.val < 16 then _ else wrO (ro5 c ⟨(16 + k.val - 16) % 16, _⟩) (outSt m c g (16 + k.val)) (payB m c ⟨(16 + k.val - 16) % 16, _⟩)) = _
  rw [dif_neg (by omega), e]

/-! ## The bands are pairwise disjoint -/

theorem ne_of_row {i i' : S1024x512.Idx} (h : (i (0 : Fin 2)).val ≠ (i' (0 : Fin 2)).val) : i ≠ i' := fun e => h (by rw [e])

theorem ro3_ne_ro3 (c : Dev nD) {j k : Fin 16} (hjk : j ≠ k) (y' : (ro3 c j).shape.Idx) (y : (ro3 c k).shape.Idx) :
    (ro3 c j).emb y' ≠ (ro3 c k).emb y :=
  ne_of_row (by
    rw [ro3_row, ro3_row]
    have := ro3_lt c j y'; have := ro3_lt c k y; have : j.val ≠ k.val := fun h => hjk (Fin.ext h); omega)

theorem ro5_ne_ro5 (c : Dev nD) {j k : Fin 16} (hjk : j ≠ k) (y' : (ro5 c j).shape.Idx) (y : (ro5 c k).shape.Idx) :
    (ro5 c j).emb y' ≠ (ro5 c k).emb y :=
  ne_of_row (by
    rw [ro5_row, ro5_row]
    have := ro5_lt c j y'; have := ro5_lt c k y; have : j.val ≠ k.val := fun h => hjk (Fin.ext h)
    have := j.isLt; have := k.isLt; have : c.val < 8 := c.isLt; omega)

theorem ro5_ne_ro3 (c : Dev nD) (j k : Fin 16) (y' : (ro5 c j).shape.Idx) (y : (ro3 c k).shape.Idx) :
    (ro5 c j).emb y' ≠ (ro3 c k).emb y :=
  ne_of_row (by
    rw [ro5_row, ro3_row]
    have := ro5_lt c j y'; have := ro3_lt c k y
    have := j.isLt; have := k.isLt; have : c.val < 8 := c.isLt; omega)

/-! ## The buffer after n stores, at an index of a band already stored -/

/-- Among the first sixteen stores: once band k is stored its entries stay. -/
theorem outSt_A_le (c : Dev nD) (g : (cc0_stg1_0 : Ref sig .tc).ty.Contents (Elt F)) (k : Fin 16) (y : (ro3 c k).shape.Idx) :
    ∀ n, n ≤ 16 → k.val < n → outSt m c g n ((ro3 c k).emb y) = payA m c k y := by
  intro n
  induction n with
  | zero => intro _ h; omega
  | succ n ih =>
    intro hn hk
    have hn' : n < 16 := hn
    refine (congrFun (outSt_succ_A m c g ⟨n, hn'⟩) _).trans ?_
    by_cases e : k = ⟨n, hn'⟩
    · subst e; exact wrO_emb _ _ _ y
    · rw [wrO_off _ _ _ _ (fun y' => ro3_ne_ro3 c (Ne.symm e) y' y)]
      exact ih (by omega) (by have : k.val ≠ n := fun h => e (Fin.ext h); omega)

/-- The other sixteen stores leave the first sixteen bands alone. -/
theorem outSt_A_ge (c : Dev nD) (g : (cc0_stg1_0 : Ref sig .tc).ty.Contents (Elt F)) (k : Fin 16) (y : (ro3 c k).shape.Idx) :
    ∀ j, j ≤ 16 → outSt m c g (16 + j) ((ro3 c k).emb y) = payA m c k y := by
  intro j
  induction j with
  | zero => intro _; exact outSt_A_le m c g k y 16 (Nat.le_refl _) k.isLt
  | succ j ih =>
    intro hj
    have hj' : j < 16 := hj
    refine (congrFun (outSt_succ_B m c g ⟨j, hj'⟩) _).trans ?_
    rw [wrO_off _ _ _ _ (fun y' => ro5_ne_ro3 c _ k y' y)]
    exact ih (by omega)

/-- Among the other sixteen stores: once band k is stored its entries stay. -/
theorem outSt_B_ge (c : Dev nD) (g : (cc0_stg1_0 : Ref sig .tc).ty.Contents (Elt F)) (k : Fin 16) (y : (ro5 c k).shape.Idx) :
    ∀ j, j ≤ 16 → k.val < j → outSt m c g (16 + j) ((ro5 c k).emb y) = payB m c k y := by
  intro j
  induction j with
  | zero => intro _ h; omega
  | succ j ih =>
    intro hj hk
    have hj' : j < 16 := hj
    refine (congrFun (outSt_succ_B m c g ⟨j, hj'⟩) _).trans ?_
    by_cases e : k = ⟨j, hj'⟩
    · subst e; exact wrO_emb _ _ _ y
    · rw [wrO_off _ _ _ _ (fun y' => ro5_ne_ro5 c (Ne.symm e) y' y)]
      exact ih (by omega) (by have : k.val ≠ j := fun h => e (Fin.ext h); omega)

/-! ## The result -/

/-- After all 32 stores an entry of one of the first sixteen bands is its block's entry, whatever the start, -/
theorem outSt_32_A (c : Dev nD) (g : (cc0_stg1_0 : Ref sig .tc).ty.Contents (Elt F)) (k : Fin 16) (y : (ro3 c k).shape.Idx) :
    outSt m c g 32 ((ro3 c k).emb y) = payA m c k y := outSt_A_ge m c g k y 16 (Nat.le_refl _)
/-- and an entry of one of the other sixteen bands likewise. -/
theorem outSt_32_B (c : Dev nD) (g : (cc0_stg1_0 : Ref sig .tc).ty.Contents (Elt F)) (k : Fin 16) (y : (ro5 c k).shape.Idx) :
    outSt m c g 32 ((ro5 c k).emb y) = payB m c k y := outSt_B_ge m c g k y 16 (Nat.le_refl _) k.isLt

theorem outAt_A (c : Dev nD) (k : Fin 16) (y : (ro3 c k).shape.Idx) : outAt m c ((ro3 c k).emb y) = payA m c k y :=
  outSt_32_A m c _ k y
theorem outAt_B (c : Dev nD) (k : Fin 16) (y : (ro5 c k).shape.Idx) : outAt m c ((ro5 c k).emb y) = payB m c k y :=
  outSt_32_B m c _ k y

/-- All 1024 rows are overwritten, so the start does not matter. -/
theorem outSt_cover (c : Dev nD) (g : (cc0_stg1_0 : Ref sig .tc).ty.Contents (Elt F)) : outSt m c g 32 = outAt m c := by
  funext i
  rcases out_cover c i with ⟨k, y, rfl⟩ | ⟨k, y, rfl⟩
  · rw [outSt_32_A, outAt_A]
  · rw [outSt_32_B, outAt_B]

/-- info: 'Cert.KernelIdealProof.outSt_cover' depends on axioms: [propext, Classical.choice, Quot.sound] -/
#guard_msgs in #print axioms outSt_cover

end Cert.KernelIdealProof

end
-- ==== Proof.KernelIdealAux.lean ====
/-
Two families of facts for the body proof of the two-hop reduce-scatter.

1. A 512×512 scratch buffer is the separating conjunction of its 16 chunks of 32 rows: the chunks' rows are
   pairwise different rows, and row r lies in chunk r / 32.
2. Once a device's 64 chunk cells stand at round 1, where the schedule has no duty left, each cell's invariant
   can be closed, which leaves its counter at zero.
-/
import proofs.«901028_g7700000000001029_dist_rs_v7x_xyz2x2x2_z_m1024_n512_bf16_1_alg».proof.Proof.KernelIdealSetup
import proofs.«901028_g7700000000001029_dist_rs_v7x_xyz2x2x2_z_m1024_n512_bf16_1_alg».proof.Proof.KernelIdealSteps
import Idealize.ShloMosaic.Rules.PointsTo
import Idealize.ShloMosaic.Lib.Rounds
import Idealize.ShloMosaic.Lib.Pipeline.Kit

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A 512×512 buffer is its sixteen chunks of 32 rows -/

/-- Chunks k ≠ k' are separated on the row axis: one's 32 rows end before the other's begin. -/
theorem rowRect_disjoint {k k' : Fin 16} (h : k ≠ k') : Disjoint (rowRect k).set (rowRect k').set := by
  refine Rect.unit_disjoint (s := S512x512) (0 : Fin 2) ?_
  have hne : k.val ≠ k'.val := fun e => h (Fin.ext e)
  show 32 * k.val + 32 ≤ 32 * k'.val ∨ 32 * k'.val + 32 ≤ 32 * k.val
  omega

/-- Row r < 512 lies in chunk r / 32; the column is unconstrained. -/
theorem rowRect_mem (i : S512x512.Idx) : ∃ k : Fin 16, i ∈ (rowRect k).set := by
  have h0 : ((i (0 : Fin 2) : Fin 512) : Nat) < 512 := (i (0 : Fin 2)).isLt
  have h1 : ((i (1 : Fin 2) : Fin 512) : Nat) < 512 := (i (1 : Fin 2)).isLt
  refine ⟨⟨(i (0 : Fin 2) : Nat) / 32, by omega⟩, Rect.mem_set_unit.mpr ?_⟩
  refine Fin.forall_fin_two.mpr ⟨?_, ?_⟩
  · show 32 * ((i (0 : Fin 2) : Nat) / 32) ≤ (i (0 : Fin 2) : Nat) ∧ (i (0 : Fin 2) : Nat) < 32 * ((i (0 : Fin 2) : Nat) / 32) + 32
    omega
  · show 0 ≤ (i (1 : Fin 2) : Nat) ∧ (i (1 : Fin 2) : Nat) < 0 + 512
    omega

/-- The elements of chunk k of a whole 512×512 buffer are the chunk's rectangle. -/
theorem set_sl_zs (k : Fin 16) : (sl zsM k).view.set = (rowRect k).set := View.set_slice_whole cc0_scratch0 (rowRect k)
theorem set_sl_zr (k : Fin 16) : (sl zrM k).view.set = (rowRect k).set := View.set_slice_whole cc0_scratch1 (rowRect k)
theorem set_sl_xr (k : Fin 16) : (sl xrM k).view.set = (rowRect k).set := View.set_slice_whole cc0_scratch2 (rowRect k)

theorem chunks_zs (c : Dev nD) (q : PosShare TreeShare) (f : Buf (Elt F) ((c : Thread nD τ).loc cc0_scratch0)) :
    (((c : Thread nD τ).loc cc0_scratch0) ↦{q} f : sProp 𝕄)
      ⊣⊢ bigSepL ks fun k => ((sl zsM k).view.loc (c : Thread nD τ) ↦[(sl zsM k).view.set]{q} f) := by
  refine BIBase.BiEntails.of_eq ?_
  rw [← bigSep_univ_eq_bigSepL ks ks_univ ks_nodup]
  have h : (((c : Thread nD τ).loc cc0_scratch0) ↦[Finset.univ.biUnion fun k : Fin 16 => (sl zsM k).view.set]{q} f : sProp 𝕄)
      = bigSep Finset.univ fun k : Fin 16 => ((sl zsM k).view.loc (c : Thread nD τ) ↦[(sl zsM k).view.set]{q} f) :=
    pointsTo_biUnion Finset.univ _ fun k _ k' _ hkk => by rw [set_sl_zs, set_sl_zs]; exact rowRect_disjoint hkk
  rw [← h]
  refine congrArg (fun I => (((c : Thread nD τ).loc cc0_scratch0) ↦[I]{q} f : sProp 𝕄)) (Finset.ext fun i => ?_)
  simp only [Finset.mem_biUnion, Finset.mem_univ, true_and, true_iff]
  obtain ⟨k, hk⟩ := rowRect_mem i
  exact ⟨k, by rw [set_sl_zs]; exact hk⟩

theorem chunks_zr (c : Dev nD) (q : PosShare TreeShare) (f : Buf (Elt F) ((c : Thread nD τ).loc cc0_scratch1)) :
    (((c : Thread nD τ).loc cc0_scratch1) ↦{q} f : sProp 𝕄)
      ⊣⊢ bigSepL ks fun k => ((sl zrM k).view.loc (c : Thread nD τ) ↦[(sl zrM k).view.set]{q} f) := by
  refine BIBase.BiEntails.of_eq ?_
  rw [← bigSep_univ_eq_bigSepL ks ks_univ ks_nodup]
  have h : (((c : Thread nD τ).loc cc0_scratch1) ↦[Finset.univ.biUnion fun k : Fin 16 => (sl zrM k).view.set]{q} f : sProp 𝕄)
      = bigSep Finset.univ fun k : Fin 16 => ((sl zrM k).view.loc (c : Thread nD τ) ↦[(sl zrM k).view.set]{q} f) :=
    pointsTo_biUnion Finset.univ _ fun k _ k' _ hkk => by rw [set_sl_zr, set_sl_zr]; exact rowRect_disjoint hkk
  rw [← h]
  refine congrArg (fun I => (((c : Thread nD τ).loc cc0_scratch1) ↦[I]{q} f : sProp 𝕄)) (Finset.ext fun i => ?_)
  simp only [Finset.mem_biUnion, Finset.mem_univ, true_and, true_iff]
  obtain ⟨k, hk⟩ := rowRect_mem i
  exact ⟨k, by rw [set_sl_zr]; exact hk⟩

theorem chunks_xr (c : Dev nD) (q : PosShare TreeShare) (f : Buf (Elt F) ((c : Thread nD τ).loc cc0_scratch2)) :
    (((c : Thread nD τ).loc cc0_scratch2) ↦{q} f : sProp 𝕄)
      ⊣⊢ bigSepL ks fun k => ((sl xrM k).view.loc (c : Thread nD τ) ↦[(sl xrM k).view.set]{q} f) := by
  refine BIBase.BiEntails.of_eq ?_
  rw [← bigSep_univ_eq_bigSepL ks ks_univ ks_nodup]
  have h : (((c : Thread nD τ).loc cc0_scratch2) ↦[Finset.univ.biUnion fun k : Fin 16 => (sl xrM k).view.set]{q} f : sProp 𝕄)
      = bigSep Finset.univ fun k : Fin 16 => ((sl xrM k).view.loc (c : Thread nD τ) ↦[(sl xrM k).view.set]{q} f) :=
    pointsTo_biUnion Finset.univ _ fun k _ k' _ hkk => by rw [set_sl_xr, set_sl_xr]; exact rowRect_disjoint hkk
  rw [← h]
  refine congrArg (fun I => (((c : Thread nD τ).loc cc0_scratch2) ↦[I]{q} f : sProp 𝕄)) (Finset.ext fun i => ?_)
  simp only [Finset.mem_biUnion, Finset.mem_univ, true_and, true_iff]
  obtain ⟨k, hk⟩ := rowRect_mem i
  exact ⟨k, by rw [set_sl_xr]; exact hk⟩

/-! ## Closing a device's 64 chunk cells -/

variable (m : (ℓ : Loc nD τ sig) → Buf (Elt F) ℓ)

/-- One cell: past round 0 the schedule has no duty, so the cell at round 1 with nothing taken closes, its counter at zero. -/
theorem close_cell (Kb : Dev nD → ℕ) (Kd : Dev nD × Fin 4 × Fin 16 → ℕ) (c : Dev nD) (ak : Fin 4 × Fin 16) :
    iprop(records m Kb Kd ∗ atPos ER (dCell c ak.1 ak.2) 1 ∅ 0)
      ⊢ (iprop(|={Set.univ}=> semVal ((c : Thread nD τ), osem ak) 0) : sProp 𝕄) :=
  (sep_mono_left (inv_d m Kb Kd c ak.1 ak.2)).trans
    (Rounds.cell_close ER (rd m) (Set.mem_univ (Kd (c, ak.1, ak.2))) (fun h => h) (R := 1) (duties_later m (dCell c ak.1 ak.2)))

/-- The four listed families of positions are the one family over (array, chunk). -/
theorem atPos_lists (c : Dev nD) :
    (iprop((bigSepL ks fun k => atPos ER (dCell c 0 k) 1 ∅ 0) ∗ (bigSepL ks fun k => atPos ER (dCell c 1 k) 1 ∅ 0)
        ∗ (bigSepL ks fun k => atPos ER (dCell c 2 k) 1 ∅ 0) ∗ (bigSepL ks fun k => atPos ER (dCell c 3 k) 1 ∅ 0)) : sProp 𝕄)
      = bigSep Finset.univ fun ak : Fin 4 × Fin 16 => atPos ER (dCell c ak.1 ak.2) 1 ∅ 0 := by
  rw [bigSep_univ_prod, bigSep_univ_eq_bigSepL ([0, 1, 2, 3] : List (Fin 4)) (by decide) (by decide)]
  simp only [bigSepL_cons_cons, bigSepL_singleton, bigSep_univ_eq_bigSepL ks ks_univ ks_nodup]
  rfl

/-- All 64: the records are persistent, so each position meets its own cell's invariant, and the 64 updates combine. -/
theorem close_cells (Kb : Dev nD → ℕ) (Kd : Dev nD × Fin 4 × Fin 16 → ℕ) (c : Dev nD) :
    iprop(records m Kb Kd ∗ (bigSepL ks fun k => atPos ER (dCell c 0 k) 1 ∅ 0) ∗ (bigSepL ks fun k => atPos ER (dCell c 1 k) 1 ∅ 0)
        ∗ (bigSepL ks fun k => atPos ER (dCell c 2 k) 1 ∅ 0) ∗ (bigSepL ks fun k => atPos ER (dCell c 3 k) 1 ∅ 0))
      ⊢ |={Set.univ}=> (bigSep Finset.univ fun ak : Fin 4 × Fin 16 => semVal ((c : Thread nD τ), osem ak) 0 : sProp 𝕄) := by
  rw [atPos_lists]
  exact (bigSep_with_persistent fun ak _ => close_cell m Kb Kd c ak).trans (bigSep_fupd _ _)

/-- info: 'Cert.KernelIdealProof.chunks_zs' depends on axioms: [propext, Classical.choice, Quot.sound] -/
#guard_msgs in #print axioms chunks_zs
/-- info: 'Cert.KernelIdealProof.chunks_zr' depends on axioms: [propext, Classical.choice, Quot.sound] -/
#guard_msgs in #print axioms chunks_zr
/-- info: 'Cert.KernelIdealProof.chunks_xr' depends on axioms: [propext, Classical.choice, Quot.sound] -/
#guard_msgs in #print axioms chunks_xr
/-- info: 'Cert.KernelIdealProof.close_cells' depends on axioms: [propext, Classical.choice, Quot.sound] -/
#guard_msgs in #print axioms close_cells

end Cert.KernelIdealProof

end
-- ==== Proof.KernelIdealBody.lean ====
/-
One device's body: from the start (ghost state, launch credit, levels, the three scratch buffers, the two staging
buffers) through the entry handshake, the 16 z transfers, the 16 forwarded chunks with their sums, the 16 sums of
the x-neighbour's chunks and the 32 send waits, to the scratch buffers back whole, the own cells closed and the
output staging buffer at the computed contents.
-/
import proofs.«901028_g7700000000001029_dist_rs_v7x_xyz2x2x2_z_m1024_n512_bf16_1_alg».proof.Proof.KernelIdealSteps
import proofs.«901028_g7700000000001029_dist_rs_v7x_xyz2x2x2_z_m1024_n512_bf16_1_alg».proof.Proof.KernelIdealOut
import proofs.«901028_g7700000000001029_dist_rs_v7x_xyz2x2x2_z_m1024_n512_bf16_1_alg».proof.Proof.KernelIdealAux

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer held whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the body starts from at the one grid point. -/
def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

/-- What it leaves. -/
def bodyPost (c : Dev nD) : sProp 𝕄 :=
  iprop(Φ₁ c ∗ (dats m 0 c).owesAt () t₀.succ ∗ stg c cc0_stg0_0 (xstg m c) ∗ stg c cc0_stg1_0 (outAt m c))

/-! ## The entry handshake's payloads -/

omit [FloatOps F] in
theorem set_zr : (zrM : Memref sig .tc .vmem S512x512 .bf16).view.set = Finset.univ := View.set_whole _
omit [FloatOps F] in
theorem set_xr : (xrM : Memref sig .tc .vmem S512x512 .bf16).view.set = Finset.univ := View.set_whole _

/-- A device hands its z receive buffer to its z-neighbour (whose barrier cell's duty `false` it pays); -/
theorem barZ_give (c : Dev nD) (f : Buf (Elt F) ((c : Thread nD τ).loc cc0_scratch1)) :
    ((((c : Thread nD τ).loc cc0_scratch1) ↦{fullShare} f) : sProp 𝕄) ⊢ (rd m).payload (barCell (zp c)) 0 false := by
  rw [payload_bar_false]; unfold barPayZ; rw [zp_zp, set_zr]
  iintro H; iexists f; iexact H
/-- its x receive buffer to its x-neighbour (duty `true`). -/
theorem barX_give (c : Dev nD) (f : Buf (Elt F) ((c : Thread nD τ).loc cc0_scratch2)) :
    ((((c : Thread nD τ).loc cc0_scratch2) ↦{fullShare} f) : sProp 𝕄) ⊢ (rd m).payload (barCell (xp c)) 0 true := by
  rw [payload_bar_true]; unfold barPayX; rw [xp_xp, set_xr]
  iintro H; iexists f; iexact H
/-- With its barrier's two units a device holds both neighbours' receive buffers. -/
theorem bar_take (c : Dev nD) :
    bigSep ((rd (F := F) m).duties (barCell c) 0 \ ∅) (fun d => (rd (F := F) m).payload (barCell c) 0 d)
      ⊢ iprop(whole (F := F) (zp c) cc0_scratch1 ∗ whole (F := F) (xp c) cc0_scratch2) := by
  rw [rest_bar]; unfold barPayZ barPayX; rw [set_zr, set_xr]

omit [FloatOps F] in
theorem hz2 : (![0, 0] : Fin 2 → Nat) = fun _ => 0 := funext fun a => by fin_cases a <;> rfl

/-! ## The chunk cells' payloads, spelt out -/

theorem pay_zs (c : Dev nD) (k : Fin 16) (d : Bool) : (rd (F := F) m).payload (dCell c 0 k) 0 d
    = (((sl zsM k).view.loc (c : Thread nD τ) ↦[(sl zsM k).view.set]{fullShare} (zsC m c)) : sProp 𝕄) := payload_zs m c k d
theorem pay_zr (c : Dev nD) (k : Fin 16) (d : Bool) : (rd (F := F) m).payload (dCell c 1 k) 0 d
    = (((sl zrM k).view.loc (c : Thread nD τ) ↦[(sl zrM k).view.set]{fullShare} (zrC m c)) : sProp 𝕄) := payload_zr m c k d
theorem pay_xs (c : Dev nD) (k : Fin 16) (d : Bool) : (rd (F := F) m).payload (dCell c 2 k) 0 d
    = (((sl zrM k).view.loc (c : Thread nD τ) ↦[(sl zrM k).view.set]{fullShare.left} (zrC m c)) : sProp 𝕄) := payload_xs m c k d
theorem pay_xr (c : Dev nD) (k : Fin 16) (d : Bool) : (rd (F := F) m).payload (dCell c 3 k) 0 d
    = (((sl xrM k).view.loc (c : Thread nD τ) ↦[(sl xrM k).view.set]{fullShare} (xrC m c)) : sProp 𝕄) := payload_xr m c k d

/-- What the device owes at the end: nothing, whatever waits it recorded. -/
theorem owes_fin (c : Dev nD) (W : Waits sig Unit) :
    (owes (c : Thread nD τ) 0 W : sProp 𝕄) ⊢ (dats m 0 c).owesAt () t₀.succ := by
  unfold Dat.owesAt Pipeline.owesWithin
  rw [show (dats m 0 c).owed t₀.succ = 0 from rfl]
  iintro H
  iexists W
  isplitr; · ipureintro; exact fun _ _ => Or.inl trivial
  iexact H

/-! ## Bookkeeping for the lists of chunks -/

theorem nilOf (P : sProp 𝕄) (Φ : Fin 16 → sProp 𝕄) : P ⊢ bigSepL [] Φ := by rw [bigSepL_nil]; iintro -; iempintro
theorem accL (k : Fin 16) (l : List (Fin 16)) (Φ : Fin 16 → sProp 𝕄) : iprop(Φ k ∗ bigSepL l Φ) ⊢ bigSepL (k :: l) Φ :=
  Entails.of_eq (peelL k l Φ).symm
abbrev rks : List (Fin 16) := [15, 14, 13, 12, 11, 10, 9, 8, 7, 6, 5, 4, 3, 2, 1, 0]
theorem revL (Φ : Fin 16 → sProp 𝕄) : bigSepL rks Φ = bigSepL ks Φ :=
  (bigSep_univ_eq_bigSepL rks (by decide) (by decide) Φ).symm.trans (toL Φ)

theorem pts_halves {ℓ : Loc nD τ sig} (I : Finset (Idx ℓ)) (f : Buf (Elt F) ℓ) :
    (ℓ ↦[I]{fullShare} f : sProp 𝕄) ⊣⊢ iprop((ℓ ↦[I]{fullShare.left} f) ∗ (ℓ ↦[I]{fullShare.right} f)) :=
  BI.Region.is_share (IsOp.posShare_halves fullShare).mem_op

/-! ## The output staging buffer, store by store -/

theorem out_start (c : Dev nD) (g : (cc0_stg1_0 : Ref sig .tc).ty.Contents (Elt F)) :
    ((((c : Thread nD τ).loc cc0_stg1_0) ↦{fullShare} g) : sProp 𝕄) ⊢ (((c : Thread nD τ).loc cc0_stg1_0) ↦{fullShare} outSt m c g 0) := .rfl
theorem out_stepA (c : Dev nD) (g : (cc0_stg1_0 : Ref sig .tc).ty.Contents (Elt F)) (k : Fin 16) (n : ℕ) (hn : n = k.val) :
    ((((c : Thread nD τ).loc cc0_stg1_0) ↦{fullShare} wrO (ro3 c k) (outSt m c g n) (payA m c k)) : sProp 𝕄)
      ⊢ (((c : Thread nD τ).loc cc0_stg1_0) ↦{fullShare} outSt m c g (n + 1)) := by
  subst hn; rw [outSt_succ_A]
theorem out_stepB (c : Dev nD) (g : (cc0_stg1_0 : Ref sig .tc).ty.Contents (Elt F)) (k : Fin 16) (n : ℕ) (hn : n = 16 + k.val) :
    ((((c : Thread nD τ).loc cc0_stg1_0) ↦{fullShare} wrO (ro5 c k) (outSt m c g n) (payB m c k)) : sProp 𝕄)
      ⊢ (((c : Thread nD τ).loc cc0_stg1_0) ↦{fullShare} outSt m c g (n + 1)) := by
  subst hn; rw [outSt_succ_B]
theorem out_end (c : Dev nD) (g : (cc0_stg1_0 : Ref sig .tc).ty.Contents (Elt F)) (n : ℕ) (hn : n = 32) :
    ((((c : Thread nD τ).loc cc0_stg1_0) ↦{fullShare} outSt m c g n) : sProp 𝕄) ⊢ (((c : Thread nD τ).loc cc0_stg1_0) ↦{fullShare} outAt m c) := by
  subst hn; rw [outSt_cover]

/-! ## The four kinds of step, each on the chunk at the head of its lists -/

/-- One more printed part laid out: its effects in sequence, its returned values passed on. -/
local macro "open_part " n:ident s:ident : tactic => `(tactic| (
  simp only [$n:ident]
  unfold $s:ident
  simp only [semSignalWord, semWaitWord, Prog.lift, Prog.bind_op, Prog.bind_ret, Prog.pure_eq_ret]))

set_option hygiene false in
/-- Chunk k of the send buffer goes to the z-neighbour. -/
local macro "zsend_step " k:term:max e:term:max : tactic => `(tactic| (
  ihave Hq1 := (Entails.of_eq (peelL _ _ _)) $$ HtZS; icases Hq1 with ⟨Ht1, HtZS⟩
  ihave Hq2 := (Entails.of_eq (peelL _ _ _)) $$ HtZR; icases Hq2 with ⟨Ht2, HtZR⟩
  ihave Hq3 := (Entails.of_eq (peelL _ _ _)) $$ Hzs; icases Hq3 with ⟨Hs, Hzs⟩
  ihave Hq4 := (Entails.of_eq (peelL _ _ _)) $$ HzrP; icases Hq4 with ⟨Hd, HzrP⟩
  ihave HO := (owes_peel1 c _ $k _ _) $$ HO
  iapply (step_zsend m Kd c _ (dev_z (fun c => ($e c).trans (k0_dev1_eq c).symm) c) $k fz _ _) $$ [HO Ht1 Ht2 Hs Hd]
  · isplitr; · iapply (inv_d m Kb Kd c 0 $k); iexact Hrec
    isplitr; · iapply (inv_d m Kb Kd (zp c) 1 $k); iexact Hrec
    isplitl [Hs]; · iexact Hs
    isplitl [Hd]; · iexact Hd
    isplitl [HO]; · iexact HO
    isplitl [Ht1]; · iexact Ht1
    isplitr; · iapply (rch_d m Kb Kd c 0 $k); iexact Hrec
    isplitl [Ht2]; · iexact Ht2
    iapply (rch_d m Kb Kd (zp c) 1 $k); iexact Hrec
  iintro ⟨Hcz, HO⟩
  ihave HcZS := (accL $k _ (fun k : Fin 16 => cred (tallyAt (dCell c 0 k) () N))) $$ [Hcz HcZS]
  · isplitl [Hcz]; · iexact Hcz
    iexact HcZS))

set_option hygiene false in
/-- The z-neighbour's chunk k has landed: forward it to the x-neighbour at half its share, add it to the own rows. -/
local macro "mid_step " k:term:max e:term:max : tactic => `(tactic| (
  ihave Hq1 := (Entails.of_eq (peelL _ _ _)) $$ HcZR; icases Hq1 with ⟨Hc1, HcZR⟩
  ihave Hq2 := (Entails.of_eq (peelL _ _ _)) $$ HaZR; icases Hq2 with ⟨Ha1, HaZR⟩
  iapply (Rounds.wp_wait_rest_token 𝒱₀ ER (rd m) (c : Thread nD τ) none (sm := SemLoc.dma (dsem 1 $k)) (κ := Kd (c, 1, $k))
      (wpE_waitDma2_eq 𝒱₀ (c : Thread nD τ) none Set.univ) (Set.mem_univ _) () (R := 0) (m := 0) (T := ∅)
      (by rw [Nat.zero_add]; exact (expect_d m c 1 $k).symm)) $$ [Hc1 HO Ha1]
  · isplitr; · iapply (inv_d m Kb Kd c 1 $k); iexact Hrec
    isplitl [Hc1]; · iexact Hc1
    isplitl [HO]; · iexact HO
    isplitr; · iapply (mayWait_zr c $k _); iexact Hlev
    iexact Ha1
  iintro ⟨HO, Ha1, -, Hpay⟩
  ihave HaZR1 := (accL $k _ (fun k : Fin 16 => atPos ER (dCell c 1 k) 1 ∅ 0)) $$ [Ha1 HaZR1]
  · isplitl [Ha1]; · iexact Ha1
    iexact HaZR1
  ihave Hpay := (Entails.of_eq ((rest_d m c 1 $k).trans (pay_zr m c $k false))) $$ Hpay
  ihave Hh := (pts_halves _ _).1 $$ Hpay; icases Hh with ⟨HL, HR⟩
  ihave Hq3 := (Entails.of_eq (peelL _ _ _)) $$ HtXS; icases Hq3 with ⟨Ht1, HtXS⟩
  ihave Hq4 := (Entails.of_eq (peelL _ _ _)) $$ HtXR; icases Hq4 with ⟨Ht2, HtXR⟩
  ihave Hq5 := (Entails.of_eq (peelL _ _ _)) $$ HxrP; icases Hq5 with ⟨Hd, HxrP⟩
  ihave HO := (owes_peel3 c $k _ _) $$ HO
  iapply (step_xsend m Kd c _ (dev_x (fun c => ($e c).trans (k0_dev2_eq c).symm) c) $k fx _ _) $$ [HO Ht1 Ht2 HL Hd]
  · isplitr; · iapply (inv_d m Kb Kd c 2 $k); iexact Hrec
    isplitr; · iapply (inv_d m Kb Kd (xp c) 3 $k); iexact Hrec
    isplitl [HL]; · iexact HL
    isplitl [Hd]; · iexact Hd
    isplitl [HO]; · iexact HO
    isplitl [Ht1]; · iexact Ht1
    isplitr; · iapply (rch_d m Kb Kd c 2 $k); iexact Hrec
    isplitl [Ht2]; · iexact Ht2
    iapply (rch_d m Kb Kd (xp c) 3 $k); iexact Hrec
  iintro ⟨Hcx, HO⟩
  ihave HcXS := (accL $k _ (fun k : Fin 16 => cred (tallyAt (dCell c 2 k) () N))) $$ [Hcx HcXS]
  · isplitl [Hcx]; · iexact Hcx
    iexact HcXS
  iapply (step_sumA m c $k _ (by rfl) fullShare.right _) $$ [Hx HR Hout]
  · isplitl [Hx]; · iexact Hx
    isplitl [HR]; · iexact HR
    iexact Hout
  iintro ⟨Hx, HR, Hout⟩
  ihave Hout := (out_stepA m c g1 $k _ (by rfl)) $$ Hout
  ihave HzrH := (accL $k _ (fun k : Fin 16 => ((sl zrM k).view.loc (c : Thread nD τ) ↦[(sl zrM k).view.set]{fullShare.right} zrC m c))) $$ [HR HzrH]
  · isplitl [HR]; · iexact HR
    iexact HzrH))

set_option hygiene false in
/-- The x-neighbour's forwarded chunk k has landed: add it to the own rows of the other half. -/
local macro "fin_step " k:term:max : tactic => `(tactic| (
  ihave Hq1 := (Entails.of_eq (peelL _ _ _)) $$ HcXR; icases Hq1 with ⟨Hc1, HcXR⟩
  ihave Hq2 := (Entails.of_eq (peelL _ _ _)) $$ HaXR; icases Hq2 with ⟨Ha1, HaXR⟩
  iapply (Rounds.wp_wait_rest_token 𝒱₀ ER (rd m) (c : Thread nD τ) none (sm := SemLoc.dma (dsem 3 $k)) (κ := Kd (c, 3, $k))
      (wpE_waitDma2_eq 𝒱₀ (c : Thread nD τ) none Set.univ) (Set.mem_univ _) () (R := 0) (m := 0) (T := ∅)
      (by rw [Nat.zero_add]; exact (expect_d m c 3 $k).symm)) $$ [Hc1 HO Ha1]
  · isplitr; · iapply (inv_d m Kb Kd c 3 $k); iexact Hrec
    isplitl [Hc1]; · iexact Hc1
    isplitl [HO]; · iexact HO
    isplitr; · rw [MayWait_zero]; iempintro
    iexact Ha1
  iintro ⟨HO, Ha1, -, Hpay⟩
  ihave HaXR1 := (accL $k _ (fun k : Fin 16 => atPos ER (dCell c 3 k) 1 ∅ 0)) $$ [Ha1 HaXR1]
  · isplitl [Ha1]; · iexact Ha1
    iexact HaXR1
  ihave Hpay := (Entails.of_eq ((rest_d m c 3 $k).trans (pay_xr m c $k false))) $$ Hpay
  iapply (step_sumB m c $k _ (by rfl) fullShare _) $$ [Hx Hpay Hout]
  · isplitl [Hx]; · iexact Hx
    isplitl [Hpay]; · iexact Hpay
    iexact Hout
  iintro ⟨Hx, Hpay, Hout⟩
  ihave Hout := (out_stepB m c g1 $k _ (by rfl)) $$ Hout
  ihave HxrS := (accL $k _ (fun k : Fin 16 => ((sl xrM k).view.loc (c : Thread nD τ) ↦[(sl xrM k).view.set]{fullShare} xrC m c))) $$ [Hpay HxrS]
  · isplitl [Hpay]; · iexact Hpay
    iexact HxrS))

set_option hygiene false in
/-- Both transfers out of chunk k have read their sources: the send chunk and the lent half come back. -/
local macro "drain_step " k:term:max : tactic => `(tactic| (
  ihave Hq1 := (Entails.of_eq (peelL _ _ _)) $$ HcZS; icases Hq1 with ⟨Hc1, HcZS⟩
  ihave Hq2 := (Entails.of_eq (peelL _ _ _)) $$ HaZS; icases Hq2 with ⟨Ha1, HaZS⟩
  iapply (Rounds.wp_wait_rest_token 𝒱₀ ER (rd m) (c : Thread nD τ) none (sm := SemLoc.dma (dsem 0 $k)) (κ := Kd (c, 0, $k))
      (wpE_waitDma2_eq 𝒱₀ (c : Thread nD τ) none Set.univ) (Set.mem_univ _) () (R := 0) (m := 0) (T := ∅)
      (by rw [Nat.zero_add]; exact (expect_d m c 0 $k).symm)) $$ [Hc1 HO Ha1]
  · isplitr; · iapply (inv_d m Kb Kd c 0 $k); iexact Hrec
    isplitl [Hc1]; · iexact Hc1
    isplitl [HO]; · iexact HO
    isplitr; · rw [MayWait_zero]; iempintro
    iexact Ha1
  iintro ⟨HO, Ha1, -, Hpay⟩
  ihave HaZS1 := (accL $k _ (fun k : Fin 16 => atPos ER (dCell c 0 k) 1 ∅ 0)) $$ [Ha1 HaZS1]
  · isplitl [Ha1]; · iexact Ha1
    iexact HaZS1
  ihave Hpay := (Entails.of_eq ((rest_d m c 0 $k).trans (pay_zs m c $k false))) $$ Hpay
  ihave HzsB := (accL $k _ (fun k : Fin 16 => ((sl zsM k).view.loc (c : Thread nD τ) ↦[(sl zsM k).view.set]{fullShare} zsC m c))) $$ [Hpay HzsB]
  · isplitl [Hpay]; · iexact Hpay
    iexact HzsB
  ihave Hq3 := (Entails.of_eq (peelL _ _ _)) $$ HcXS; icases Hq3 with ⟨Hc1, HcXS⟩
  ihave Hq4 := (Entails.of_eq (peelL _ _ _)) $$ HaXS; icases Hq4 with ⟨Ha1, HaXS⟩
  iapply (Rounds.wp_wait_rest_token 𝒱₀ ER (rd m) (c : Thread nD τ) none (sm := SemLoc.dma (dsem 2 $k)) (κ := Kd (c, 2, $k))
      (wpE_waitDma2_eq 𝒱₀ (c : Thread nD τ) none Set.univ) (Set.mem_univ _) () (R := 0) (m := 0) (T := ∅)
      (by rw [Nat.zero_add]; exact (expect_d m c 2 $k).symm)) $$ [Hc1 HO Ha1]
  · isplitr; · iapply (inv_d m Kb Kd c 2 $k); iexact Hrec
    isplitl [Hc1]; · iexact Hc1
    isplitl [HO]; · iexact HO
    isplitr; · rw [MayWait_zero]; iempintro
    iexact Ha1
  iintro ⟨HO, Ha1, -, Hpay⟩
  ihave HaXS1 := (accL $k _ (fun k : Fin 16 => atPos ER (dCell c 2 k) 1 ∅ 0)) $$ [Ha1 HaXS1]
  · isplitl [Ha1]; · iexact Ha1
    iexact HaXS1
  ihave Hpay := (Entails.of_eq ((rest_d m c 2 $k).trans (pay_xs m c $k false))) $$ Hpay
  ihave Hq5 := (Entails.of_eq (peelL _ _ _)) $$ HzrH; icases Hq5 with ⟨HR, HzrH⟩
  ihave Hf := (pts_halves _ _).2 $$ [Hpay HR]
  · isplitl [Hpay]; · iexact Hpay
    iexact HR
  ihave HzrF := (accL $k _ (fun k : Fin 16 => ((sl zrM k).view.loc (c : Thread nD τ) ↦[(sl zrM k).view.set]{fullShare} zrC m c))) $$ [Hf HzrF]
  · isplitl [Hf]; · iexact Hf
    iexact HzrF))

set_option maxRecDepth 65536 in
set_option maxHeartbeats 4000000 in
/-- The body, one rule per effect in program order. -/
theorem sound_body (c : Dev nD) :
    bodyPre m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6)
      (fun _ => bodyPost m c) := by
  simp only [cc0_body_eq_skeleton]; unfold cc0_body_skel
  unfold bodyPre Φ₀ start ghost linear creds
  iintro ⟨⟨⟨⟨%Kb, %Kd, #Hrec, HaB, HaD, HtBZ, HtBX, HtZS, HtZR, HtXS, HtXR⟩, ⟨HcB, HcZR, HcXR⟩, #Hlev⟩, ⟨%f0, Hzs⟩, ⟨%f1, Hzr⟩, ⟨%f2, Hxr⟩⟩,
    Ho, ⟨%d0, %g0, %hg0, Hx⟩, ⟨%d1, %g1, %hg1, Hout⟩⟩
  have hx : g0 = xstg m c := by rw [hg0]; unfold Dat.before; rw [if_pos (fetch0_0 t₀)]; rfl
  subst hx
  unfold Dat.owesAt Pipeline.owesWithin
  icases Ho with ⟨%W, %hW, HO⟩
  rw [show (dats m 0 c).owed t₀.castSucc = O₀ c from rfl]
  -- the first 60 statements: the device's coordinates, the two entry signals, the load of the block to send
  simp only [k0_part1_eq_skeleton]; unfold k0_part1_skel
  simp only [semSignalWord, semWaitWord, Prog.lift, Prog.bind_op, Prog.bind_ret, Prog.pure_eq_ret, wp_deviceId]
  -- the signal to the z-neighbour's barrier: its duty `false`, with this device's z receive buffer
  iapply (Rounds.wp_signal 𝒱₀ ER (rd m) (c : Thread nD τ) none (dst := (zp c : Thread nD τ)) (κ := Kb (zp c))
      (d := false) (by rw [duties_bar]; exact Finset.mem_univ _) ((amount_bar m (zp c) false).trans (by decide)) () (O₁ c) rfl)
    $$ [HO HtBZ Hzr]
  · isplitr; · iapply (inv_b m Kb Kd (zp c)); iexact Hrec
    isplitl [HO]; · iexact HO
    isplitl [HtBZ]; · iexact HtBZ
    isplitl [Hzr]; · iapply (barZ_give m c f1); iexact Hzr
    iapply (rch_b m Kb Kd (zp c)); iexact Hrec
  iintro HO
  -- the signal to the x-neighbour's barrier: its duty `true`, with this device's x receive buffer
  unfold O₁
  iapply (Rounds.wp_signal 𝒱₀ ER (rd m) (c : Thread nD τ) none (dst := (xp c : Thread nD τ)) (κ := Kb (xp c))
      (d := true) (by rw [duties_bar]; exact Finset.mem_univ _) ((amount_bar m (xp c) true).trans (by decide)) () (Oxr c + Ozr c) rfl)
    $$ [HO HtBX Hxr]
  · isplitr; · iapply (inv_b m Kb Kd (xp c)); iexact Hrec
    isplitl [HO]; · iexact HO
    isplitl [HtBX]; · iexact HtBX
    isplitl [Hxr]; · iapply (barX_give m c f2); iexact Hxr
    iapply (rch_b m Kb Kd (xp c)); iexact Hrec
  iintro HO
  -- the load of the block to send, and the dead load of the send buffer
  iapply (wp_load 𝒱₀ (c : Thread nD τ) none Set.univ (m := xM) (Finset.subset_univ _)) $$ Hx; iintro Hx
  iapply (wp_load 𝒱₀ (c : Thread nD τ) none Set.univ (m := zsM) (Finset.subset_univ _)) $$ Hzs; iintro Hzs
  -- statements 61–120: the send buffer stored, the barrier wait, the first two z transfers
  simp only [k0_part2_eq_skeleton]; unfold k0_part2_skel
  simp only [semSignalWord, semWaitWord, Prog.lift, Prog.bind_op, Prog.bind_ret, Prog.pure_eq_ret]
  iapply (wp_store 𝒱₀ (c : Thread nD τ) none Set.univ (m := zsM) (r := Rect.unit (s := S512x512) ![0, 0] S512x512.size inb_S512x512_S512x512_0_0)
    (Mk := Finset.univ) (Finset.subset_univ _)) $$ Hzs; iintro Hzs
  rw [show ((zsM : Memref sig .tc .vmem S512x512 .bf16).access (Rect.unit (s := S512x512) ![0, 0] S512x512.size inb_S512x512_S512x512_0_0) : View sig .tc _ _ _).write (Elt F) f0
      (k0_pay2 (k0_pay1 ((xM : Memref sig .tc .vmem S1x1024x1024 .f32).view.readAt (Elt F) (r1 c) (xstg m c)))) Finset.univ = zsC m c from
    Memref.write_access_unit_zero_univ (Elt F) cc0_scratch0 hz2 _ f0 _]
  -- the wait for 2 on its own barrier, owing the 32 receive credits: both neighbours' receive buffers come with it
  rw [Oxr_list c, Ozr_list c]
  iapply (Rounds.wp_wait_rest_token 𝒱₀ ER (rd m) (c : Thread nD τ) none (κ := Kb c)
      (wpE_semWait_eq 𝒱₀ (c : Thread nD τ) none Set.univ) (Set.mem_univ _) () (O := (ks.map (T3 c)).sum + (ks.map (T1 c)).sum) (W := W) (R := 0) (m := 0) (T := ∅)
      (by rw [expect_bar]; decide)) $$ [HcB HO HaB]
  · isplitr; · iapply (inv_b m Kb Kd c); iexact Hrec
    isplitl [HcB]; · iexact HcB
    isplitl [HO]; · iexact HO
    isplitr; · iapply (mayWait_bar c ks ks); iexact Hlev
    iexact HaB
  iintro ⟨HO, HaB, -, Hpay⟩
  ihave Hp := (bar_take m c) $$ Hpay
  icases Hp with ⟨⟨%fz, HzrP⟩, ⟨%fx, HxrP⟩⟩
  -- the three buffers by chunks; the tokens, positions and credits by chunks
  ihave Hzs := (chunks_zs c fullShare (zsC m c)).1 $$ Hzs
  ihave HzrP := (chunks_zr (zp c) fullShare fz).1 $$ HzrP
  ihave HxrP := (chunks_xr (xp c) fullShare fx).1 $$ HxrP
  ihave HtZS := (Entails.of_eq (toL _)) $$ HtZS
  ihave HtZR := (Entails.of_eq (toL _)) $$ HtZR
  ihave HtXS := (Entails.of_eq (toL _)) $$ HtXS
  ihave HtXR := (Entails.of_eq (toL _)) $$ HtXR
  ihave HcZR := (Entails.of_eq (toL _)) $$ HcZR
  ihave HcXR := (Entails.of_eq (toL _)) $$ HcXR
  ihave HaD := (Entails.of_eq (lists4 fun a k => atPos ER (dCell c a k) 0 ∅ 0)) $$ HaD
  icases HaD with ⟨HaZS, HaZR, HaXS, HaXR⟩
  -- the accumulating lists start empty; the output buffer before any store
  ihave HcZS := (nilOf _ (fun k : Fin 16 => cred (tallyAt (dCell c 0 k) () N))) $$ Hlev
  ihave HcXS := (nilOf _ (fun k : Fin 16 => cred (tallyAt (dCell c 2 k) () N))) $$ Hlev
  ihave HaZS1 := (nilOf _ (fun k : Fin 16 => atPos ER (dCell c 0 k) 1 ∅ 0)) $$ Hlev
  ihave HaZR1 := (nilOf _ (fun k : Fin 16 => atPos ER (dCell c 1 k) 1 ∅ 0)) $$ Hlev
  ihave HaXS1 := (nilOf _ (fun k : Fin 16 => atPos ER (dCell c 2 k) 1 ∅ 0)) $$ Hlev
  ihave HaXR1 := (nilOf _ (fun k : Fin 16 => atPos ER (dCell c 3 k) 1 ∅ 0)) $$ Hlev
  ihave HzrH := (nilOf _ (fun k : Fin 16 => ((sl zrM k).view.loc (c : Thread nD τ) ↦[(sl zrM k).view.set]{fullShare.right} zrC m c))) $$ Hlev
  ihave HzrF := (nilOf _ (fun k : Fin 16 => ((sl zrM k).view.loc (c : Thread nD τ) ↦[(sl zrM k).view.set]{fullShare} zrC m c))) $$ Hlev
  ihave HzsB := (nilOf _ (fun k : Fin 16 => ((sl zsM k).view.loc (c : Thread nD τ) ↦[(sl zsM k).view.set]{fullShare} zsC m c))) $$ Hlev
  ihave HxrS := (nilOf _ (fun k : Fin 16 => ((sl xrM k).view.loc (c : Thread nD τ) ↦[(sl xrM k).view.set]{fullShare} xrC m c))) $$ Hlev
  ihave Hout := (out_start m c g1) $$ Hout
  -- the 16 z transfers
  zsend_step 0 k0_dev3_eq
  zsend_step 1 k0_dev4_eq
  open_part k0_part3_eq_skeleton k0_part3_skel
  zsend_step 2 k0_dev5_eq
  zsend_step 3 k0_dev6_eq
  open_part k0_part4_eq_skeleton k0_part4_skel
  zsend_step 4 k0_dev7_eq
  zsend_step 5 k0_dev8_eq
  zsend_step 6 k0_dev9_eq
  open_part k0_part5_eq_skeleton k0_part5_skel
  zsend_step 7 k0_dev10_eq
  zsend_step 8 k0_dev11_eq
  zsend_step 9 k0_dev12_eq
  open_part k0_part6_eq_skeleton k0_part6_skel
  zsend_step 10 k0_dev13_eq
  zsend_step 11 k0_dev14_eq
  open_part k0_part7_eq_skeleton k0_part7_skel
  zsend_step 12 k0_dev15_eq
  zsend_step 13 k0_dev16_eq
  zsend_step 14 k0_dev17_eq
  open_part k0_part8_eq_skeleton k0_part8_skel
  zsend_step 15 k0_dev18_eq
  ihave HO := (owes_nil1 c _ _) $$ HO
  -- per chunk: the z-neighbour's chunk waited for, forwarded, summed
  open_part k0_part9_eq_skeleton k0_part9_skel
  mid_step 0 k0_dev19_eq
  open_part k0_part10_eq_skeleton k0_part10_skel
  mid_step 1 k0_dev20_eq
  open_part k0_part11_eq_skeleton k0_part11_skel
  mid_step 2 k0_dev21_eq
  open_part k0_part12_eq_skeleton k0_part12_skel
  mid_step 3 k0_dev22_eq
  open_part k0_part13_eq_skeleton k0_part13_skel
  mid_step 4 k0_dev23_eq
  open_part k0_part14_eq_skeleton k0_part14_skel
  mid_step 5 k0_dev24_eq
  open_part k0_part15_eq_skeleton k0_part15_skel
  mid_step 6 k0_dev25_eq
  open_part k0_part16_eq_skeleton k0_part16_skel
  mid_step 7 k0_dev26_eq
  open_part k0_part17_eq_skeleton k0_part17_skel
  mid_step 8 k0_dev27_eq
  open_part k0_part18_eq_skeleton k0_part18_skel
  open_part k0_part19_eq_skeleton k0_part19_skel
  mid_step 9 k0_dev28_eq
  open_part k0_part20_eq_skeleton k0_part20_skel
  mid_step 10 k0_dev29_eq
  open_part k0_part21_eq_skeleton k0_part21_skel
  mid_step 11 k0_dev30_eq
  open_part k0_part22_eq_skeleton k0_part22_skel
  mid_step 12 k0_dev31_eq
  open_part k0_part23_eq_skeleton k0_part23_skel
  mid_step 13 k0_dev32_eq
  open_part k0_part24_eq_skeleton k0_part24_skel
  mid_step 14 k0_dev33_eq
  open_part k0_part25_eq_skeleton k0_part25_skel
  mid_step 15 k0_dev34_eq
  ihave HO := (owes_nil3 c _) $$ HO
  -- per chunk: the x-neighbour's forwarded chunk waited for and summed
  open_part k0_part26_eq_skeleton k0_part26_skel
  fin_step 0
  fin_step 1
  open_part k0_part27_eq_skeleton k0_part27_skel
  fin_step 2
  open_part k0_part28_eq_skeleton k0_part28_skel
  fin_step 3
  open_part k0_part29_eq_skeleton k0_part29_skel
  fin_step 4
  fin_step 5
  open_part k0_part30_eq_skeleton k0_part30_skel
  fin_step 6
  open_part k0_part31_eq_skeleton k0_part31_skel
  fin_step 7
  fin_step 8
  open_part k0_part32_eq_skeleton k0_part32_skel
  fin_step 9
  open_part k0_part33_eq_skeleton k0_part33_skel
  fin_step 10
  fin_step 11
  open_part k0_part34_eq_skeleton k0_part34_skel
  fin_step 12
  open_part k0_part35_eq_skeleton k0_part35_skel
  fin_step 13
  open_part k0_part36_eq_skeleton k0_part36_skel
  fin_step 14
  fin_step 15
  -- the 32 send waits, in the order the accumulated lists were built
  ihave HcZS := (Entails.of_eq (revL _)) $$ HcZS
  ihave HcXS := (Entails.of_eq (revL _)) $$ HcXS
  ihave HzrH := (Entails.of_eq (revL _)) $$ HzrH
  open_part k0_part37_eq_skeleton k0_part37_skel
  drain_step 0
  drain_step 1
  drain_step 2
  open_part k0_part38_eq_skeleton k0_part38_skel
  drain_step 3
  drain_step 4
  open_part k0_part39_eq_skeleton k0_part39_skel
  drain_step 5
  drain_step 6
  drain_step 7
  open_part k0_part40_eq_skeleton k0_part40_skel
  drain_step 8
  drain_step 9
  open_part k0_part41_eq_skeleton k0_part41_skel
  drain_step 10
  drain_step 11
  drain_step 12
  open_part k0_part42_eq_skeleton k0_part42_skel
  drain_step 13
  drain_step 14
  drain_step 15
  -- the program's end: the 64 own cells closed, the three buffers rejoined, the output buffer at its contents
  rw [wp_ret]
  ihave HaZS1 := (Entails.of_eq (revL _)) $$ HaZS1
  ihave HaZR1 := (Entails.of_eq (revL _)) $$ HaZR1
  ihave HaXS1 := (Entails.of_eq (revL _)) $$ HaXS1
  ihave HaXR1 := (Entails.of_eq (revL _)) $$ HaXR1
  imod (close_cells m Kb Kd c) $$ [HaZS1 HaZR1 HaXS1 HaXR1] with Hz
  · isplitr; · iexact Hrec
    isplitl [HaZS1]; · iexact HaZS1
    isplitl [HaZR1]; · iexact HaZR1
    isplitl [HaXS1]; · iexact HaXS1
    iexact HaXR1
  imodintro
  ihave HzsB := (Entails.of_eq (revL _)) $$ HzsB
  ihave HzrF := (Entails.of_eq (revL _)) $$ HzrF
  ihave HxrS := (Entails.of_eq (revL _)) $$ HxrS
  ihave Hzs := (chunks_zs c fullShare (zsC m c)).2 $$ HzsB
  ihave Hzr := (chunks_zr c fullShare (zrC m c)).2 $$ HzrF
  ihave Hxr := (chunks_xr c fullShare (xrC m c)).2 $$ HxrS
  ihave Hout := (out_end m c g1 _ (by rfl)) $$ Hout
  ihave HO := (owes_fin m c _) $$ HO
  unfold bodyPost Φ₁
  isplitl [Hzs Hzr Hxr Hz]
  · isplitl [Hzs Hzr Hxr]
    · isplitl [Hzs]; · iexists _; iexact Hzs
      isplitl [Hzr]; · iexists _; iexact Hzr
      iexists _; iexact Hxr
    · iexact Hz
  isplitl [HO]; · iexact HO
  isplitl [Hx]
  · iexists _; isplitr; · (ipureintro; rfl)
    iexact Hx
  iexists _; isplitr; · (ipureintro; rfl)
  iexact Hout

set_option maxRecDepth 65536 in
set_option maxHeartbeats 1600000 in
/-- The library's body obligation on device c. -/
theorem body_obligation (c : Dev nD) : BodyObligation (dats (F := F) m 0 c) (defs₀ (F := F)) 𝒱₀ () Set.univ := fun t => by
  obtain rfl : t = t₀ := fin_N t
  rw [bigSep_W0, bigSep_W0]
  simp only [owns_whole_eq]
  show bodyPre m c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6)
      (fun _ => bodyPost m c)
  exact sound_body m c

end Cert.KernelIdealProof

end
-- ==== Proof.KernelIdealLaunch.lean ====
/-
The launch of the two-hop reduce-scatter: from one device's body to the run of the whole mesh.

Each device owes, at launch, one unit to each neighbour's barrier cell and one chunk credit to every z-receive
cell of its z-neighbour and every x-receive cell of its x-neighbour.  Both neighbour maps are involutions, so
summed over the payers every barrier cell is owed two units and every receive cell one chunk credit: that is the
credit the launch deals the cell's owner.  The pipeline's own staging waits sit at level 0, below every cell a
device owes (barrier cells at 1, z-receive cells at 2, x-receive cells at 3), which is the deadlock argument for
them.  The launch theorem then gives the run, with each device's arrays at the proof data's final contents; the
input array ends as it began, and the result array is the output staging buffer written back whole.
-/
import proofs.«901028_g7700000000001029_dist_rs_v7x_xyz2x2x2_z_m1024_n512_bf16_1_alg».proof.Proof.KernelIdealGhost
import proofs.«901028_g7700000000001029_dist_rs_v7x_xyz2x2x2_z_m1024_n512_bf16_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layout facts -/

/-- The 64 chunk semaphores are scoped, pairwise distinct, and none is a staging semaphore. -/
theorem ownSemFacts : Pipeline.OwnSemFacts cfg0.spec osem := by decide +kernel

theorem share_eq (c : Dev nD) (w : Fin cfg0.W) : (dats m 0 c).share w = fullShare := by unfold Dat.share; split <;> rfl

/-! ## The launch credit

Device `d` owes the cell `(f d, s)` for an involution `f`; summed over `d`, the cell `(c, s)` is owed by `f c` alone. -/

omit [FloatOps F] in
/-- The z-neighbours' dues: one chunk credit on each z-receive cell. -/
theorem launch_zr (c : Dev nD) :
    (Pipeline.launchCred Ozr c : sProp 𝕄) ⊢ bigSep Finset.univ fun k : Fin 16 => cred (tallyAt (dCell c 1 k) () N) := by
  have h : (Pipeline.launchCred Ozr c : sProp 𝕄) = bigSep Finset.univ fun k : Fin 16 => Pipeline.launchCred (fun d => tallyAt (dCell (zp d) 1 k) () N) c :=
    Pipeline.launchCred_sum (Finset.univ : Finset (Fin 16)) (fun k d => tallyAt (dCell (zp d) 1 k) () N) c
  rw [h]
  exact bigSep_mono fun k _ => Pipeline.launchCred_tallyAt (.dma (dsem 1 k)) zp zp zp_zp zp_zp () N c

omit [FloatOps F] in
/-- The x-neighbours' dues: one chunk credit on each x-receive cell. -/
theorem launch_xr (c : Dev nD) :
    (Pipeline.launchCred Oxr c : sProp 𝕄) ⊢ bigSep Finset.univ fun k : Fin 16 => cred (tallyAt (dCell c 3 k) () N) := by
  have h : (Pipeline.launchCred Oxr c : sProp 𝕄) = bigSep Finset.univ fun k : Fin 16 => Pipeline.launchCred (fun d => tallyAt (dCell (xp d) 3 k) () N) c :=
    Pipeline.launchCred_sum (Finset.univ : Finset (Fin 16)) (fun k d => tallyAt (dCell (xp d) 3 k) () N) c
  rw [h]
  exact bigSep_mono fun k _ => Pipeline.launchCred_tallyAt (.dma (dsem 3 k)) xp xp xp_xp xp_xp () N c

omit [FloatOps F] in
/-- Both neighbours' entry signals: two units on the barrier cell. -/
theorem launch_bar (c : Dev nD) :
    iprop(Pipeline.launchCred (fun d => tallyAt (barCell (xp d)) () 1) c ∗ Pipeline.launchCred (fun d => tallyAt (barCell (zp d)) () 1) c)
      ⊢ (cred (tallyAt (barCell c) () 2) : sProp 𝕄) :=
  (BI.sep_mono (Pipeline.launchCred_tallyAt (.reg barS) xp xp xp_xp xp_xp () 1 c) (Pipeline.launchCred_tallyAt (.reg barS) zp zp zp_zp zp_zp () 1 c)).trans
    ((cred_add _ _).2.trans (Entails.of_eq (congrArg cred (tallyAt_add (barCell c) () 1 1))))

omit [FloatOps F] in
/-- What the launch deals device c under the tallies `O₀`. -/
theorem launch_creds (c : Dev nD) : (Pipeline.launchCred O₀ c : sProp 𝕄) ⊢ creds c := by
  rw [show (Pipeline.launchCred O₀ c : sProp 𝕄)
      = Pipeline.launchCred (fun d => ((Oxr d + Ozr d) + tallyAt (barCell (xp d)) () 1) + tallyAt (barCell (zp d)) () 1) c from rfl,
    Pipeline.launchCred_add, Pipeline.launchCred_add, Pipeline.launchCred_add]
  unfold creds
  iintro ⟨⟨⟨Hx, Hz⟩, Hbx⟩, Hbz⟩
  isplitl [Hbx Hbz]
  · iapply (launch_bar (F := F) c)
    isplitl [Hbx] <;> iassumption
  isplitl [Hz]
  · iapply (launch_zr (F := F) c); iexact Hz
  · iapply (launch_xr (F := F) c); iexact Hx

/-! ## The levels: the staging waits lie below everything a device owes -/

theorem launch_lv_bar : ∀ (c : Dev nD) (u : Unit), lv (barCell c) u = 1 := fun _ _ => rfl
theorem launch_lv_zr : ∀ (c : Dev nD) (k : Fin 16) (u : Unit), lv (dCell c 1 k) u = 2 := by decide +kernel
theorem launch_lv_xr : ∀ (c : Dev nD) (k : Fin 16) (u : Unit), lv (dCell c 3 k) u = 3 := by decide +kernel

/-- A device owes only receive cells of its two neighbours and their barrier cells. -/
theorem launch_owed_pos {c : Dev nD} {g : GSem nD τ sig} {u : Unit} (h : 0 < O₀ c g u) :
    (∃ k, g = dCell (xp c) 3 k) ∨ (∃ k, g = dCell (zp c) 1 k) ∨ g = barCell (xp c) ∨ g = barCell (zp c) := by
  unfold O₀ O₁ Oxr Ozr at h
  rcases Pipeline.add_pos_cases h with h | h
  · rcases Pipeline.add_pos_cases h with h | h
    · rcases Pipeline.add_pos_cases h with h | h
      · obtain ⟨k, -, hk⟩ := Pipeline.sum_pos_exists h
        exact .inl ⟨k, (Pipeline.tallyAt_pos hk).1⟩
      · obtain ⟨k, -, hk⟩ := Pipeline.sum_pos_exists h
        exact .inr (.inl ⟨k, (Pipeline.tallyAt_pos hk).1⟩)
    · exact .inr (.inr (.inl (Pipeline.tallyAt_pos h).1))
  · exact .inr (.inr (.inr (Pipeline.tallyAt_pos h).1))

omit [FloatOps F] in
/-- A wait on a staging semaphore (numbers 0 and 1, level 0) while the device owes all of `O₀ c` or nothing. -/
theorem launch_mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases launch_owed_pos hg with ⟨k, rfl⟩ | ⟨k, rfl⟩ | rfl | rfl <;> (rw [L_tc]; exact Finset.mem_singleton_self _))
      (fun p hp => by
        rw [Finset.mem_singleton.mp hp]
        show (if 2 ≤ q.val ∧ aOf q = 1 then 2 else if 2 ≤ q.val ∧ aOf q = 3 then 3 else 0) ≤ 0
        rw [if_neg (fun h => absurd h.1 (by omega)), if_neg (fun h => absurd h.1 (by omega))])
      (fun g u hg => by
        rcases launch_owed_pos hg with ⟨k, rfl⟩ | ⟨k, rfl⟩ | rfl | rfl
        · rw [launch_lv_xr]; decide
        · rw [launch_lv_zr]; decide
        · rw [launch_lv_bar]; decide
        · rw [launch_lv_bar]; decide)
  · rw [MayWait_zero]; iintro -; iempintro

/-- The pipeline's staging waits: the device owes `O₀ c` at the point's start and nothing at its end. -/
theorem launch_waits (c : Dev nD) : (levAts L lv : sProp 𝕄) ⊢ Pipeline.cellsWaits cfgs (dats m) () 0 c :=
  Pipeline.cellsWaits_intro cfgs (dats m) () 0 c fun w s t =>
    launch_mayWait_stage c _ (by fin_cases w <;> fin_cases s <;> decide) _ (by
      rcases t with ⟨_ | _, ht⟩
      · exact Or.inl rfl
      · exact Or.inr rfl)

/-! ## The theorem's side conditions -/

/-- From what the launch hands a device to the point's start. -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (launch_creds (F := F) c) $$ Hcr
  imodintro
  unfold start
  isplitl
  · isplitl [HG]; · iexact HG
    isplitl [Hc]; · iexact Hc
    iexact Hlev
  · iempintro

/-- The scoped buffers that are no staging buffer are the three scratch buffers. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H0, H1, H2⟩
  isplitl [Hs]; · iexact Hs
  isplitl [H0]; · iexact H0
  isplitl [H1]; · iexact H1
  iexact H2

/-- At the end the scratch buffers are back whole and the 64 own cells stand at zero. -/
theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq]
  unfold Φ₁ Pipeline.ownSems0
  iintro ⟨Hr, Hs⟩
  isplitr; · iempintro
  isplitl [Hs]; · iexact Hs
  iexact Hr

/-! ## The run -/

/-- Device c's arrays after the one grid point. -/
def finalA (c : Dev nD) (w : Fin cfg0.W) : Buf (Elt F) ((cfg0.win w).arr.view.loc (c : Thread nD τ)) := (dats m 0 c).arrAt w cfg0.N

set_option maxRecDepth 65536 in
set_option maxHeartbeats 1600000 in
/-- On the mesh of eight devices, for any float values, from any memory with zero counters: every weakly fair
    execution of the program terminates, and in every final state each device's two arrays hold `finalA`: the input
    block as it began (`finalA_x`) and the result array at the computed contents (`finalA_out`). -/
theorem run_main (ρ : Dev nD → PrngReg) :
    θ_run defs (onTc (τ := τ) (main (F := F))) ⟨m, fun _ => 0, ρ⟩
      (fun r => ∀ c : Dev nD, ∀ w : Fin cfg0.W, r.2.mem ((cfg0.win w).arr.view.loc (c : Thread nD τ)) = finalA m c w) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := launch_waits m)
    (G := G m) (G' := ghost m) (u₀ := u₀)
    (hu₀ := hu₀ m)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array ends unchanged: an input window is never written back. -/
theorem finalA_x (c : Dev nD) : finalA m c (0 : Fin 2) = m (win0_0.arr.view.loc (c : Thread nD τ)) :=
  (dats (F := F) m 0 c).arrAt_in (0 : Fin 2) rfl _

omit [FloatOps F] in
/-- The result window's block is the whole array: writing it back, unmasked, replaces the array's contents by the payload. -/
theorem launch_write_back (f w : (main_v1 : Ref sig .tc).ty.Contents (Elt F)) :
    ((cfg0.win (1 : Fin 2)).blk t₀).view.write (Elt F) f ((cfg0.win (1 : Fin 2)).cut (cfg0.grid.coords t₀) w) Finset.univ = w :=
  Memref.write_access_unit_zero_univ (Elt F) main_v1 (funext fun a => Nat.zero_mul _) _ f w

section

-- Only the identity "what the body leaves in the result window is `outAt`" is used, never the form of `outAt`
-- (32 nested chunk stores): it is kept folded.
attribute [local irreducible] outAt

/-- The result array ends at the output staging buffer's contents: the one grid point writes the window back whole. -/
theorem finalA_out (c : Dev nD) : finalA m c (1 : Fin 2) = outAt m c := by
  have h := (dats (F := F) m 0 c).arrAt_succ (1 : Fin 2) t₀
  rw [flush0_1 t₀, if_pos rfl] at h
  exact h.trans (launch_write_back _ _)

end

/-- info: 'Cert.KernelIdealProof.run_main' depends on axioms: [propext, Classical.choice, Quot.sound] -/
#guard_msgs in #print axioms run_main

end Cert.KernelIdealProof

end
-- ==== Proof.Value.lean ====
/-
The value: at the ideal instance each device's result is its column block of X[0] + X[1], which is what the
reference's reduction over axis 0 computes.

Device c = 4x + 2y + z holds block z of X along axis 0.  Every element the kernel reads is named here by its
natural-number coordinates in the whole X, so that each step is an equation between three numbers; the sum of
block z and block 1 - z is then the sum of block 0 and block 1 by commutativity of + on the extended reals.
-/
import proofs.«901028_g7700000000001029_dist_rs_v7x_xyz2x2x2_z_m1024_n512_bf16_1_alg».proof.Proof.KernelIdealSetup
import proofs.«901028_g7700000000001029_dist_rs_v7x_xyz2x2x2_z_m1024_n512_bf16_1_alg».proof.Proof.Gen.ReferenceIdeal.Run
import proofs.«901028_g7700000000001029_dist_rs_v7x_xyz2x2x2_z_m1024_n512_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.ValueProof

open Idealize.ShloMosaic Idealize.SL.Sem
open Idealize.ShloMosaic.TcCoe
open Idealize.ShloMosaic.ValueIdx
open Cert.KernelIdeal Cert.KernelIdeal.Gen Cert.KernelIdealProof

/-- The whole input: an element of X at natural-number coordinates (zero outside the array). -/
def at3 (X : (⟨3, ![2, 1024, 1024]⟩ : Shape).Idx → EReal) (a b c : ℕ) : EReal :=
  if h : a < 2 ∧ b < 1024 ∧ c < 1024 then X (ix3 ⟨a, h.1⟩ ⟨b, h.2.1⟩ ⟨c, h.2.2⟩) else 0

theorem at3_congr (X : (⟨3, ![2, 1024, 1024]⟩ : Shape).Idx → EReal) {a b c a' b' c' : ℕ} (ha : a = a') (hb : b = b') (hc : c = c') :
    at3 X a b c = at3 X a' b' c' := by subst ha hb hc; rfl

theorem at3_eq (X : (⟨3, ![2, 1024, 1024]⟩ : Shape).Idx → EReal) (i : (⟨3, ![2, 1024, 1024]⟩ : Shape).Idx) :
    X i = at3 X (i 0).val (i 1).val (i 2).val := by
  unfold at3
  rw [dif_pos ⟨(i 0).isLt, (i 1).isLt, (i 2).isLt⟩]
  exact congrArg X (eq_ix3 i)

/-! ## The mesh: device c = 4x + 2y + z -/

theorem meshLin_z : ∀ c : Fin 8, Layout.meshLin [2, 2, 2] c.val [2] = c.val % 2 := by decide

/-- The z-neighbour keeps x and flips z; the x-neighbour keeps z and flips x. -/
theorem zp_coords : ∀ c : Dev nD, (zp c).val % 2 = 1 - c.val % 2 ∧ (zp c).val / 4 = c.val / 4 := by decide +kernel
theorem xp_coords : ∀ c : Dev nD, (xp c).val % 2 = c.val % 2 ∧ (xp c).val / 4 = 1 - c.val / 4 := by decide +kernel

theorem off1_vals (c : Dev nD) :
    k0_off1 c 0 = 0 ∧ k0_off1 c 1 = 512 * (c.val / 4) ∧ k0_off1 c 2 = 512 - 512 * (c.val % 2) := by
  rw [k0_off1_eq c]; exact ⟨rfl, rfl, rfl⟩
theorem off2_vals (c : Dev nD) (k : Fin 16) :
    k0_off2 c (BitVec.ofNat 32 (32 * k.val)) 0 = 0 ∧ k0_off2 c (BitVec.ofNat 32 (32 * k.val)) 1 = 512 * (c.val / 4) + 32 * k.val
      ∧ k0_off2 c (BitVec.ofNat 32 (32 * k.val)) 2 = 512 * (c.val % 2) := by
  rw [k0_off2_eq c k]; exact ⟨rfl, rfl, rfl⟩
theorem off3_vals (c : Dev nD) (k : Fin 16) :
    k0_off3 c (BitVec.ofNat 32 (32 * k.val)) 0 = 512 * (c.val / 4) + 32 * k.val ∧ k0_off3 c (BitVec.ofNat 32 (32 * k.val)) 1 = 0 := by
  rw [k0_off3_eq c k]; exact ⟨rfl, rfl⟩
theorem off4_vals (c : Dev nD) (k : Fin 16) :
    k0_off4 c (BitVec.ofNat 32 (32 * k.val)) 0 = 0 ∧ k0_off4 c (BitVec.ofNat 32 (32 * k.val)) 1 = (32 * k.val + 512) - 512 * (c.val / 4)
      ∧ k0_off4 c (BitVec.ofNat 32 (32 * k.val)) 2 = 512 * (c.val % 2) := by
  rw [k0_off4_eq c k]; exact ⟨rfl, rfl, rfl⟩
theorem off5_vals (c : Dev nD) (k : Fin 16) :
    k0_off5 c (BitVec.ofNat 32 (32 * k.val)) 0 = (32 * k.val + 512) - 512 * (c.val / 4) ∧ k0_off5 c (BitVec.ofNat 32 (32 * k.val)) 1 = 0 := by
  rw [k0_off5_eq c k]; exact ⟨rfl, rfl⟩

section Pointwise

variable (m : (ℓ : Loc Cert.KernelIdeal.nD Cert.KernelIdeal.τ Cert.KernelIdeal.sig) → Buf (Elt Ideal) ℓ)

/-- The staged input is the device's whole block: the window is the whole array. -/
theorem xstg_eq (c : Dev nD) : xstg (F := Ideal) m c = m ((c : Thread nD τ).loc main_arg0) := by
  unfold xstg
  exact Memref.read_access_unit_zero (Elt Ideal) main_arg0 (by funext a; fin_cases a <;> rfl) _ _

variable (X : Buf (Elt Ideal) (((0 : Dev Cert.ReferenceIdeal.nD).tc : Thread Cert.ReferenceIdeal.nD Cert.ReferenceIdeal.τ).loc Cert.ReferenceIdeal.main_arg0))
variable (hX : ∀ c : Dev Cert.KernelIdeal.nD, m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[2], [], []] c) X)

include hX in
/-- Device c's staged block is block z = c mod 2 of X along axis 0. -/
theorem xstg_at (c : Dev nD) (j : S1x1024x1024.Idx) :
    xstg (F := Ideal) m c j = at3 X (c.val % 2) (j 1).val (j 2).val := by
  rw [xstg_eq, hX c, Layout.blockN_apply]
  refine (at3_eq X _).trans (at3_congr X ?_ ?_ ?_)
  · show Layout.meshLin [2, 2, 2] c.val [2] * 1 + (j 0).val = c.val % 2
    have h0 : (j 0).val < 1 := (j 0).isLt
    rw [meshLin_z c]; omega
  · show 0 * 1024 + (j 1).val = (j 1).val; omega
  · show 0 * 1024 + (j 2).val = (j 2).val; omega

include hX in
/-- The z send buffer of device c at (r, s): row 512x + r, column 512(1 - z) + s of its block. -/
theorem zsC_at (c : Dev nD) (r s : Fin 512) :
    zsC (F := Ideal) m c (ix2 r s) = at3 X (c.val % 2) (512 * (c.val / 4) + r.val) (512 - 512 * (c.val % 2) + s.val) := by
  obtain ⟨h0, h1, h2⟩ := off1_vals c
  unfold zsC k0_pay2 k0_pay1
  rw [shapeCast_self, truncf_apply, shapeCast_1ab_ab_apply, View.readAt_apply]
  refine (xstg_at m X hX c _).trans (at3_congr X rfl ?_ ?_)
  · show k0_off1 c 1 + 1 * r.val = _
    rw [h1]; omega
  · show k0_off1 c 2 + 1 * s.val = _
    rw [h2]; omega

/-- Row p of chunk k of a 512 × 512 buffer is its row 32k + p. -/
theorem rowRect_idx (k : Fin 16) (p : Fin 32) (q : Fin 512) :
    (rowRect k).toLoadRect.idx (ix2 p q) = ix2 (⟨32 * k.val + p.val, by omega⟩ : Fin 512) q := by
  funext a
  match a with
  | ⟨0, _⟩ => exact Fin.ext (by show 32 * k.val + 1 * p.val = 32 * k.val + p.val; omega)
  | ⟨1, _⟩ => exact Fin.ext (by show 0 + 1 * q.val = q.val; omega)

include hX in
/-- A chunk of the device's own x half: its own block z plus the z-neighbour's block 1 - z, at the same place of X. -/
theorem payA_at (c : Dev nD) (k : Fin 16) (p : Fin 32) (q : Fin 512) :
    payA (F := Ideal) m c k (ix2 p q)
      = at3 X (c.val % 2) (512 * (c.val / 4) + 32 * k.val + p.val) (512 * (c.val % 2) + q.val)
        + at3 X (1 - c.val % 2) (512 * (c.val / 4) + 32 * k.val + p.val) (512 * (c.val % 2) + q.val) := by
  obtain ⟨h0, h1, h2⟩ := off2_vals c k
  obtain ⟨hz, hx⟩ := zp_coords c
  have hlt : c.val % 2 < 2 := Nat.mod_lt _ (by decide)
  unfold payA sumBlk zrC
  rw [truncf_apply, addf_apply, extf_apply, shapeCast_1ab_ab_apply, View.readAt_apply, View.readAt_apply]
  refine congrArg₂ (· + ·) ?_ ?_
  · refine (xstg_at m X hX c _).trans (at3_congr X rfl ?_ ?_)
    · show k0_off2 c (BitVec.ofNat 32 (32 * k.val)) 1 + 1 * p.val = _
      rw [h1]; omega
    · show k0_off2 c (BitVec.ofNat 32 (32 * k.val)) 2 + 1 * q.val = _
      rw [h2]; omega
  · show zsC m (zp c) ((rowRect k).toLoadRect.idx (ix2 p q)) = _
    rw [rowRect_idx]
    refine (zsC_at m X hX (zp c) _ _).trans (at3_congr X hz ?_ ?_)
    · show 512 * ((zp c).val / 4) + (32 * k.val + p.val) = _
      rw [hx]; omega
    · show 512 - 512 * ((zp c).val % 2) + q.val = _
      rw [hz]; omega

include hX in
/-- A chunk of the other x half: own block z plus block 1 - z as the x-neighbour's z-neighbour sent it. -/
theorem payB_at (c : Dev nD) (k : Fin 16) (p : Fin 32) (q : Fin 512) :
    payB (F := Ideal) m c k (ix2 p q)
      = at3 X (c.val % 2) ((32 * k.val + 512) - 512 * (c.val / 4) + p.val) (512 * (c.val % 2) + q.val)
        + at3 X (1 - c.val % 2) ((32 * k.val + 512) - 512 * (c.val / 4) + p.val) (512 * (c.val % 2) + q.val) := by
  obtain ⟨h0, h1, h2⟩ := off4_vals c k
  obtain ⟨hxz, hxx⟩ := xp_coords c
  obtain ⟨hz, hx⟩ := zp_coords (xp c)
  have hlt : c.val % 2 < 2 := Nat.mod_lt _ (by decide)
  have hc8 : c.val < 8 := c.isLt
  unfold payB sumBlk xrC zrC
  rw [truncf_apply, addf_apply, extf_apply, shapeCast_1ab_ab_apply, View.readAt_apply, View.readAt_apply]
  refine congrArg₂ (· + ·) ?_ ?_
  · refine (xstg_at m X hX c _).trans (at3_congr X rfl ?_ ?_)
    · show k0_off4 c (BitVec.ofNat 32 (32 * k.val)) 1 + 1 * p.val = _
      rw [h1]; omega
    · show k0_off4 c (BitVec.ofNat 32 (32 * k.val)) 2 + 1 * q.val = _
      rw [h2]; omega
  · show zsC m (zp (xp c)) ((rowRect k).toLoadRect.idx (ix2 p q)) = _
    rw [rowRect_idx]
    refine (zsC_at m X hX (zp (xp c)) _ _).trans (at3_congr X (by rw [hz, hxz]) ?_ ?_)
    · show 512 * ((zp (xp c)).val / 4) + (32 * k.val + p.val) = _
      rw [hx, hxx]; omega
    · show 512 - 512 * ((zp (xp c)).val % 2) + q.val = _
      rw [hz, hxz]; omega

/-- The reference: 0 + (X[0] + X[1]) at each place. -/
theorem ref_at (i : (⟨2, ![1024, 1024]⟩ : Shape).Idx) :
    Cert.ReferenceIdeal.Read.val_main_v1 (F := Ideal) X i = at3 X 0 (i 0).val (i 1).val + at3 X 1 (i 0).val (i 1).val := by
  rw [Cert.ReferenceIdeal.Read.val_main_v1_apply, Ideal.truncf_def, Cert.ReferenceIdeal.Read.val_main_v0_apply,
    Cert.ReferenceIdeal.Read.val_main_cst_apply, Ideal.ofBits_def, Ideal.ofBits_zero_f32, zero_add, Fin.sum_univ_two]
  exact congrArg₂ (· + ·) ((at3_eq X _).trans (at3_congr X rfl rfl rfl)) ((at3_eq X _).trans (at3_congr X rfl rfl rfl))

/-- Block z plus block 1 - z is block 0 plus block 1. -/
theorem sum_two {z R C R' C' : ℕ} (hz : z < 2) (hR : R' = R) (hC : C' = C) :
    at3 X z R C + at3 X (1 - z) R C = at3 X 0 R' C' + at3 X 1 R' C' := by
  subst hR hC
  interval_cases z
  · rfl
  · exact add_comm (G := EReal) _ _

end Pointwise

/-- On every device the kernel's result is the device's column block of the reference's X[0] + X[1]. -/
theorem outAt_eq_block
    (m : (ℓ : Loc Cert.KernelIdeal.nD Cert.KernelIdeal.τ Cert.KernelIdeal.sig) → Buf (Elt Ideal) ℓ)
    (X : Buf (Elt Ideal) (((0 : Dev Cert.ReferenceIdeal.nD).tc : Thread Cert.ReferenceIdeal.nD Cert.ReferenceIdeal.τ).loc Cert.ReferenceIdeal.main_arg0))
    (hX : ∀ c : Dev Cert.KernelIdeal.nD, m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[2], [], []] c) X)
    (hA : ∀ (c : Dev nD) (k : Fin 16) (y : (ro3 c k).shape.Idx), outAt (F := Ideal) m c ((ro3 c k).emb y) = payA m c k y)
    (hB : ∀ (c : Dev nD) (k : Fin 16) (y : (ro5 c k).shape.Idx), outAt (F := Ideal) m c ((ro5 c k).emb y) = payB m c k y)
    (hcov : ∀ (c : Dev nD) (i : S1024x512.Idx), (∃ k y, i = (ro3 c k).emb y) ∨ (∃ k y, i = (ro5 c k).emb y))
    (c : Dev Cert.KernelIdeal.nD) :
    outAt (F := Ideal) m c = Layout.blockN ⟨2, ![1024, 512]⟩ ⟨2, ![1024, 1024]⟩ (Layout.meshBlock [2, 2, 2] ![[], [2]] c) (Cert.ReferenceIdeal.Read.val_main_v1 (F := Ideal) X) := by
  have hlt : c.val % 2 < 2 := Nat.mod_lt _ (by decide)
  funext i
  rw [Layout.blockN_apply]
  refine Eq.trans ?_ (ref_at X _).symm
  rcases hcov c i with ⟨k, y, rfl⟩ | ⟨k, y, rfl⟩
  · obtain ⟨p, q, rfl⟩ : ∃ (p : Fin 32) (q : Fin 512), y = ix2 p q := ⟨y 0, y 1, eq_ix2 y⟩
    obtain ⟨h0, h1⟩ := off3_vals c k
    rw [hA c k, payA_at m X hX c k p q]
    refine sum_two X hlt ?_ ?_
    · show 0 * 1024 + (k0_off3 c (BitVec.ofNat 32 (32 * k.val)) 0 + 1 * p.val) = _
      rw [h0]; omega
    · show Layout.meshLin [2, 2, 2] c.val [2] * 512 + (k0_off3 c (BitVec.ofNat 32 (32 * k.val)) 1 + 1 * q.val) = _
      rw [h1, meshLin_z c]; omega
  · obtain ⟨p, q, rfl⟩ : ∃ (p : Fin 32) (q : Fin 512), y = ix2 p q := ⟨y 0, y 1, eq_ix2 y⟩
    obtain ⟨h0, h1⟩ := off5_vals c k
    rw [hB c k, payB_at m X hX c k p q]
    refine sum_two X hlt ?_ ?_
    · show 0 * 1024 + (k0_off5 c (BitVec.ofNat 32 (32 * k.val)) 0 + 1 * p.val) = _
      rw [h0]; omega
    · show Layout.meshLin [2, 2, 2] c.val [2] * 512 + (k0_off5 c (BitVec.ofNat 32 (32 * k.val)) 1 + 1 * q.val) = _
      rw [h1, meshLin_z c]; omega

/-- info: 'Cert.ValueProof.outAt_eq_block' depends on axioms: [propext, Classical.choice, Quot.sound] -/
#guard_msgs in #print axioms outAt_eq_block

end Cert.ValueProof

end
-- ==== Proof.lean ====
/-
The two-hop reduce-scatter over the z axis of a 2×2×2 mesh: both printed programs run from any memory and leave every device's
input block as it was, and at the ideal instance device c ends with its column block of X[0] + X[1], the reference's sum over axis 0.
-/
import proofs.«901028_g7700000000001029_dist_rs_v7x_xyz2x2x2_z_m1024_n512_bf16_1_alg».proof.Defs
import proofs.«901028_g7700000000001029_dist_rs_v7x_xyz2x2x2_z_m1024_n512_bf16_1_alg».proof.Proof.Gen.Kernel
import proofs.«901028_g7700000000001029_dist_rs_v7x_xyz2x2x2_z_m1024_n512_bf16_1_alg».proof.Proof.Gen.Kernel.Skeleton
import proofs.«901028_g7700000000001029_dist_rs_v7x_xyz2x2x2_z_m1024_n512_bf16_1_alg».proof.Proof.Gen.Kernel.Launch
import proofs.«901028_g7700000000001029_dist_rs_v7x_xyz2x2x2_z_m1024_n512_bf16_1_alg».proof.Proof.Gen.Kernel.Points
import proofs.«901028_g7700000000001029_dist_rs_v7x_xyz2x2x2_z_m1024_n512_bf16_1_alg».proof.Proof.Gen.Kernel.Frame
import proofs.«901028_g7700000000001029_dist_rs_v7x_xyz2x2x2_z_m1024_n512_bf16_1_alg».proof.Proof.Gen.KernelIdeal
import proofs.«901028_g7700000000001029_dist_rs_v7x_xyz2x2x2_z_m1024_n512_bf16_1_alg».proof.Proof.Gen.KernelIdeal.Skeleton
import proofs.«901028_g7700000000001029_dist_rs_v7x_xyz2x2x2_z_m1024_n512_bf16_1_alg».proof.Proof.Gen.KernelIdeal.Launch
import proofs.«901028_g7700000000001029_dist_rs_v7x_xyz2x2x2_z_m1024_n512_bf16_1_alg».proof.Proof.Gen.KernelIdeal.Points
import proofs.«901028_g7700000000001029_dist_rs_v7x_xyz2x2x2_z_m1024_n512_bf16_1_alg».proof.Proof.Gen.KernelIdeal.Frame
import proofs.«901028_g7700000000001029_dist_rs_v7x_xyz2x2x2_z_m1024_n512_bf16_1_alg».proof.Proof.Gen.ReferenceIdeal
import proofs.«901028_g7700000000001029_dist_rs_v7x_xyz2x2x2_z_m1024_n512_bf16_1_alg».proof.Proof.Gen.ReferenceIdeal.Run
import proofs.«901028_g7700000000001029_dist_rs_v7x_xyz2x2x2_z_m1024_n512_bf16_1_alg».proof.Proof.Gen.ReferenceIdeal.Read
import proofs.«901028_g7700000000001029_dist_rs_v7x_xyz2x2x2_z_m1024_n512_bf16_1_alg».proof.Proof.Gen.Pre_finite_inputs_Kernel
import proofs.«901028_g7700000000001029_dist_rs_v7x_xyz2x2x2_z_m1024_n512_bf16_1_alg».proof.Proof.Gen.Pre_finite_inputs_ReferenceIdeal
import proofs.«901028_g7700000000001029_dist_rs_v7x_xyz2x2x2_z_m1024_n512_bf16_1_alg».proof.Proof.KernelLaunch
import proofs.«901028_g7700000000001029_dist_rs_v7x_xyz2x2x2_z_m1024_n512_bf16_1_alg».proof.Proof.KernelIdealLaunch
import proofs.«901028_g7700000000001029_dist_rs_v7x_xyz2x2x2_z_m1024_n512_bf16_1_alg».proof.Proof.Value
import Idealize.ShloMosaic.Adequacy
import Idealize.ShloMosaic.Init

noncomputable section

namespace Cert.Proof

open Idealize.ShloMosaic Idealize.ShloMosaic.TcCoe Idealize.SL.Sem

/-! ## The three runs

The mesh run of either printed program ends with each device's two arrays at named contents: the input block as it
began, the result array at the 32 chunk sums.  A frame is that run with the result's value dropped. -/

/-- The program as printed, at the word level: it runs, and every device's input block ends as it began. -/
theorem frame_word : Cert.frame_Kernel := fun m ρ _ =>
  (θ_run (Cert.Kernel.defs (F := Bits)) _ _).mono
    (fun _ h c => (h c (0 : Fin 2)).trans (Cert.KernelProof.finalA_x (F := Bits) m c))
    (Cert.KernelProof.run_main (F := Bits) m ρ)

/-- The same program read at the ideal instance. -/
theorem frame_ideal : Cert.frame_KernelIdeal := fun m ρ _ =>
  (θ_run (Cert.KernelIdeal.defs (F := Ideal)) _ _).mono
    (fun _ h c => (h c (0 : Fin 2)).trans (Cert.KernelIdealProof.finalA_x (F := Ideal) m c))
    (Cert.KernelIdealProof.run_main (F := Ideal) m ρ)

/-- The reference on one device: its run with the result's value dropped. -/
theorem frame_ref : Cert.frame_ReferenceIdeal := fun m ρ _ =>
  (θ_run Cert.ReferenceIdeal.defs _ _).mono (fun _ h c => (h c).2) (Cert.ReferenceIdeal.Value.run (F := Ideal) m ρ)

/-! ## The value

The common value is the reference's own term of the whole X: the sum over axis 0, narrowed to the result's format
(the identity at the ideal instance).  The mesh run leaves device c's result array at the 32 chunk sums, and
those are the device's column block of that term: every index of the block lies in exactly one chunk, a chunk's
entry is an entry of block z plus the same entry of block 1 - z, and + on the extended reals commutes. -/

section

-- Only the two equations "the result array ends at the chunk sums" and "the chunk sums are the column block" meet here,
-- never the 32 nested stores behind the name.
attribute [local irreducible] Cert.KernelIdealProof.outAt

theorem algebraic : Cert.algebraic_KernelIdeal_ReferenceIdeal := fun m ρ m' ρ' _ hagree =>
  ⟨Cert.ReferenceIdeal.Read.val_main_v1 (F := Ideal)
      (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c =>
        ⟨(h c (1 : Fin 2)).trans ((Cert.KernelIdealProof.finalA_out (F := Ideal) m c).trans
            (Cert.ValueProof.outAt_eq_block m _ hagree (Cert.KernelIdealProof.outAt_A (F := Ideal) m)
              (Cert.KernelIdealProof.outAt_B (F := Ideal) m) Cert.KernelIdealProof.out_cover c)),
          (h c (0 : Fin 2)).trans (Cert.KernelIdealProof.finalA_x (F := Ideal) m c)⟩)
      (Cert.KernelIdealProof.run_main (F := Ideal) m ρ),
    (θ_run Cert.ReferenceIdeal.defs _ _).mono
      (fun _ h => ⟨(h (0 : Dev Cert.ReferenceIdeal.nD)).1.trans (Cert.ReferenceIdeal.Read.val_main_v1_eq (F := Ideal) _),
        (h (0 : Dev Cert.ReferenceIdeal.nD)).2⟩)
      (Cert.ReferenceIdeal.Value.run (F := Ideal) m' ρ')⟩

end

/-! ## The claim -/

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_word, frame_ideal, frame_ref, trivial, algebraic⟩

end Cert.Proof

end
